-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S1600000 : Shape := ⟨1, ![1600000]⟩
abbrev S100000 : Shape := ⟨1, ![100000]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩
abbrev S1x1600000 : Shape := ⟨2, ![1, 1600000]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  slices_S2x1600000_S1x1600000_0_0 : S2x1600000.Slices ![0, 0] S1x1600000
  shapeCasts_S1x1600000_S1600000 : S1x1600000.ShapeCasts S1600000

variable [Facts]

def fn_part4 {F : FTy → Type} [FloatOps F] (main_v63 : IVec S_ 1) (main_v67 : IVec S1600000 1) (main_v68 : IVec S1x1600000 32) : IVec S_ 1 :=
  let main_v69 : IVec S1600000 32 := shapeCast S1600000 main_v68 shapeCasts_S1x1600000_S1600000
  let main_c_25 : IVec S_ 32 := constantI S_ 32 100000#32
  let main_v70 : IVec S1600000 32 := broadcastInDim S1600000 ![] bcast_S_S1600000 main_c_25
  let main_v71 : IVec S1600000 1 := cmpi .slt main_v69 main_v70
  let main_v72 : IVec S1600000 1 := andi main_v67 main_v71
  let main_c_26 : IVec S_ 1 := constantI S_ 1 1#1
  let main_v73 : IVec S_ 1 := (fun x v => Host.reduce IntOp.andi x v reducesTo_S1600000_S_d0 h_S_) main_v72 main_c_26
  let main_v74 : IVec S_ 1 := andi main_v63 main_v73
  main_v74

def fn_part3 {F : FTy → Type} [FloatOps F] (main_arg1 : IVec S2x1600000 32) (main_arg13 : FVec F S32x3 .f32) (main_arg14 : FVec F S3 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x3 .f32 := Host.absf main_arg13
  let main_cst_20 : FVec F S_ .f32 := constant S_ .f32 0x7F800000#32
  let main_v55 : FVec F S32x3 .f32 := broadcastInDim S32x3 ![] bcast_S_S32x3 main_cst_20
  let main_v56 : IVec S32x3 1 := cmpf .olt main_v54 main_v55
  let main_c_21 : IVec S_ 1 := constantI S_ 1 1#1
  let main_v57 : IVec S_ 1 := (fun x v => Host.reduce IntOp.andi x v reducesTo_S32x3_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : IVec S1x1600000 32 := (extractStridedSlice S1x1600000 ![0, 0] · slices_S2x1600000_S1x1600000_0_0) main_arg1
  let main_v65 : IVec S1600000 32 := shapeCast S1600000 main_v64 shapeCasts_S1x1600000_S1600000
  let main_c_24 : IVec S_ 32 := constantI S_ 32 4294867296#32
  let main_v66 : IVec S1600000 32 := broadcastInDim S1600000 ![] bcast_S_S1600000 main_c_24
  let main_v67 : IVec S1600000 1 := cmpi .sge main_v65 main_v66
  let main_v68 : IVec S1x1600000 32 := (extractStridedSlice S1x1600000 ![0, 0] · slices_S2x1600000_S1x1600000_0_0) main_arg1
  fn_part4 (F := F) main_v63 main_v67 main_v68

def fn_part2 {F : FTy → Type} [FloatOps F] (main_arg1 : IVec S2x1600000 32) (main_arg9 : FVec F S3x64x64 .f32) (main_arg10 : FVec F S3x64 .f32) (main_arg11 : FVec F S64x32 .f32) (main_arg12 : FVec F S32 .f32) (main_arg13 : FVec F S32x3 .f32) (main_arg14 : FVec F S3 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_arg13 main_arg14 main_v48 main_v49 main_v50

def fn_part1 {F : FTy → Type} [FloatOps F] (main_arg1 : IVec S2x1600000 32) (main_arg6 : FVec F S3x64x64 .f32) (main_arg7 : FVec F S3x64 .f32) (main_arg8 : FVec F S3x64x64 .f32) (main_arg9 : FVec F S3x64x64 .f32) (main_arg10 : FVec F S3x64 .f32) (main_arg11 : FVec F S64x32 .f32) (main_arg12 : FVec F S32 .f32) (main_arg13 : FVec F S32x3 .f32) (main_arg14 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S100000x4 .f32) (main_arg1 : IVec S2x1600000 32) (main_arg2 : FVec F S1600000 .f32) (main_arg3 : IVec S100000 32) (main_arg4 : FVec F S4x64 .f32) (main_arg5 : FVec F S64 .f32) (main_arg6 : FVec F S3x64x64 .f32) (main_arg7 : FVec F S3x64 .f32) (main_arg8 : FVec F S3x64x64 .f32) (main_arg9 : FVec F S3x64x64 .f32) (main_arg10 : FVec F S3x64 .f32) (main_arg11 : FVec F S64x32 .f32) (main_arg12 : FVec F S32 .f32) (main_arg13 : FVec F S32x3 .f32) (main_arg14 : FVec F S3 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_v13 main_v16
-- ==== Kernel.lean ====
abbrev S100000x4 : Shape := ⟨2, ![100000, 4]⟩
abbrev S2x1600000 : Shape := ⟨2, ![2, 1600000]⟩
abbrev S1600000 : Shape := ⟨1, ![1600000]⟩
abbrev S100000 : Shape := ⟨1, ![100000]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S100000x1 : Shape := ⟨2, ![100000, 1]⟩
abbrev S1600000x1 : Shape := ⟨2, ![1600000, 1]⟩
abbrev S1x64 : Shape := ⟨2, ![1, 64]⟩
abbrev S3x1x64 : Shape := ⟨3, ![3, 1, 64]⟩
abbrev S1x32 : Shape := ⟨2, ![1, 32]⟩
abbrev S1x3 : Shape := ⟨2, ![1, 3]⟩
abbrev S1x64x64 : Shape := ⟨3, ![1, 64, 64]⟩
abbrev S64x64 : Shape := ⟨2, ![64, 64]⟩
abbrev S1x1x64 : Shape := ⟨3, ![1, 1, 64]⟩
abbrev S100000x64 : Shape := ⟨2, ![100000, 64]⟩
abbrev S2000x4 : Shape := ⟨2, ![2000, 4]⟩
abbrev S2000x64 : Shape := ⟨2, ![2000, 64]⟩
abbrev S_ : Shape := ⟨0, ![]⟩
abbrev S1 : Shape := ⟨1, ![1]⟩
abbrev S1x1 : Shape := ⟨2, ![1, 1]⟩
abbrev S1600000x64 : Shape := ⟨2, ![1600000, 64]⟩
abbrev S512x64 : Shape := ⟨2, ![512, 64]⟩
abbrev S512x1 : Shape := ⟨2, ![512, 1]⟩
abbrev S2000x1 : Shape := ⟨2, ![2000, 1]⟩
abbrev S2000x512 : Shape := ⟨2, ![2000, 512]⟩
abbrev S512x3 : Shape := ⟨2, ![512, 3]⟩
abbrev S512x32 : Shape := ⟨2, ![512, 32]⟩

abbrev nBuf : Space → Nat
  | .hbm => 227
  | .vmem => 60
  | .smem => 0
  | _ => 0

abbrev hbmTy0_0 (i : Nat) : BufTy := match i % 128 with
  | 0 => ⟨S100000x4, .f32⟩
  | 1 => ⟨S2x1600000, .i32⟩
  | 2 => ⟨S1600000, .f32⟩
  | 3 => ⟨S100000, .i32⟩
  | 4 => ⟨S4x64, .f32⟩
  | 5 => ⟨S64, .f32⟩
  | 6 => ⟨S3x64x64, .f32⟩
  | 7 => ⟨S3x64, .f32⟩
  | 8 => ⟨S3x64x64, .f32⟩
  | 9 => ⟨S3x64x64, .f32⟩
  | 10 => ⟨S3x64, .f32⟩
  | 11 => ⟨S64x32, .f32⟩
  | 12 => ⟨S32, .f32⟩
  | 13 => ⟨S32x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S100000x1, .i32⟩
  | 20 => ⟨S1600000x1, .f32⟩
  | 21 => ⟨S1x64, .f32⟩
  | 22 => ⟨S3x1x64, .f32⟩
  | 23 => ⟨S3x1x64, .f32⟩
  | 24 => ⟨S1x32, .f32⟩
  | 25 => ⟨S1x3, .f32⟩
  | 26 => ⟨S1x64x64, .f32⟩
  | 27 => ⟨S64x64, .f32⟩
  | 28 => ⟨S1x1x64, .f32⟩
  | 29 => ⟨S1x64, .f32⟩
  | 30 => ⟨S1x64x64, .f32⟩
  | 31 => ⟨S64x64, .f32⟩
  | 32 => ⟨S1x64x64, .f32⟩
  | 33 => ⟨S64x64, .f32⟩
  | 34 => ⟨S1x1x64, .f32⟩
  | 35 => ⟨S1x64, .f32⟩
  | 36 => ⟨S100000x64, .f32⟩
  | 37 => ⟨S100000x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1, .i32⟩
  | 48 => ⟨S_, .i32⟩
  | 49 => ⟨S1600000x1, .i32⟩
  | 50 => ⟨S1600000x1, .i1⟩
  | 51 => ⟨S1x1, .i32⟩
  | 52 => ⟨S1600000x1, .i32⟩
  | 53 => ⟨S1600000x1, .i1⟩
  | 54 => ⟨S1600000x1, .i1⟩
  | 55 => ⟨S_, .i1⟩
  | 56 => ⟨S1600000, .i1⟩
  | 57 => ⟨S1600000x64, .f32⟩
  | 58 => ⟨S1600000x64, .i1⟩
  | 59 => ⟨S_, .f32⟩
  | 60 => ⟨S1600000x64, .f32⟩
  | 61 => ⟨S1600000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1, .i32⟩
  | 71 => ⟨S_, .i32⟩
  | 72 => ⟨S1600000x1, .i32⟩
  | 73 => ⟨S1600000x1, .i1⟩
  | 74 => ⟨S1x1, .i32⟩
  | 75 => ⟨S1600000x1, .i32⟩
  | 76 => ⟨S1600000x1, .i1⟩
  | 77 => ⟨S1600000x1, .i1⟩
  | 78 => ⟨S_, .i1⟩
  | 79 => ⟨S1600000, .i1⟩
  | 80 => ⟨S1600000x64, .f32⟩
  | 81 => ⟨S1600000x64, .i1⟩
  | 82 => ⟨S_, .f32⟩
  | 83 => ⟨S1600000x64, .f32⟩
  | 84 => ⟨S1600000x64, .f32⟩
  | 85 => ⟨S1600000x64, .f32⟩
  | 86 => ⟨S1600000x64, .f32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S1x64x64, .f32⟩
  | 93 => ⟨S64x64, .f32⟩
  | 94 => ⟨S1x1x64, .f32⟩
  | 95 => ⟨S1x64, .f32⟩
  | 96 => ⟨S1x64x64, .f32⟩
  | 97 => ⟨S64x64, .f32⟩
  | 98 => ⟨S1x64x64, .f32⟩
  | 99 => ⟨S64x64, .f32⟩
  | 100 => ⟨S1x1x64, .f32⟩
  | 101 => ⟨S1x64, .f32⟩
  | 102 => ⟨S100000x64, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1, .i32⟩
  | 114 => ⟨S_, .i32⟩
  | 115 => ⟨S1600000x1, .i32⟩
  | 116 => ⟨S1600000x1, .i1⟩
  | 117 => ⟨S1x1, .i32⟩
  | 118 => ⟨S1600000x1, .i32⟩
  | 119 => ⟨S1600000x1, .i1⟩
  | 120 => ⟨S1600000x1, .i1⟩
  | 121 => ⟨S_, .i1⟩
  | 122 => ⟨S1600000, .i1⟩
  | 123 => ⟨S1600000x64, .f32⟩
  | 124 => ⟨S1600000x64, .i1⟩
  | 125 => ⟨S_, .f32⟩
  | 126 => ⟨S1600000x64, .f32⟩
  | 127 => ⟨S1600000x64, .f32⟩
  | _ => ⟨S100000x4, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1, .i32⟩
  | 9 => ⟨S_, .i32⟩
  | 10 => ⟨S1600000x1, .i32⟩
  | 11 => ⟨S1600000x1, .i1⟩
  | 12 => ⟨S1x1, .i32⟩
  | 13 => ⟨S1600000x1, .i32⟩
  | 14 => ⟨S1600000x1, .i1⟩
  | 15 => ⟨S1600000x1, .i1⟩
  | 16 => ⟨S_, .i1⟩
  | 17 => ⟨S1600000, .i1⟩
  | 18 => ⟨S1600000x64, .f32⟩
  | 19 => ⟨S1600000x64, .i1⟩
  | 20 => ⟨S_, .f32⟩
  | 21 => ⟨S1600000x64, .f32⟩
  | 22 => ⟨S1600000x64, .f32⟩
  | 23 => ⟨S1600000x64, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S1x64x64, .f32⟩
  | 31 => ⟨S64x64, .f32⟩
  | 32 => ⟨S1x1x64, .f32⟩
  | 33 => ⟨S1x64, .f32⟩
  | 34 => ⟨S1x64x64, .f32⟩
  | 35 => ⟨S64x64, .f32⟩
  | 36 => ⟨S1x64x64, .f32⟩
  | 37 => ⟨S64x64, .f32⟩
  | 38 => ⟨S1x1x64, .f32⟩
  | 39 => ⟨S1x64, .f32⟩
  | 40 => ⟨S100000x64, .f32⟩
  | 41 => ⟨S100000x64, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1, .i32⟩
  | 52 => ⟨S_, .i32⟩
  | 53 => ⟨S1600000x1, .i32⟩
  | 54 => ⟨S1600000x1, .i1⟩
  | 55 => ⟨S1x1, .i32⟩
  | 56 => ⟨S1600000x1, .i32⟩
  | 57 => ⟨S1600000x1, .i1⟩
  | 58 => ⟨S1600000x1, .i1⟩
  | 59 => ⟨S_, .i1⟩
  | 60 => ⟨S1600000, .i1⟩
  | 61 => ⟨S1600000x64, .f32⟩
  | 62 => ⟨S1600000x64, .i1⟩
  | 63 => ⟨S_, .f32⟩
  | 64 => ⟨S1600000x64, .f32⟩
  | 65 => ⟨S1600000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1, .i32⟩
  | 75 => ⟨S_, .i32⟩
  | 76 => ⟨S1600000x1, .i32⟩
  | 77 => ⟨S1600000x1, .i1⟩
  | 78 => ⟨S1x1, .i32⟩
  | 79 => ⟨S1600000x1, .i32⟩
  | 80 => ⟨S1600000x1, .i1⟩
  | 81 => ⟨S1600000x1, .i1⟩
  | 82 => ⟨S_, .i1⟩
  | 83 => ⟨S1600000, .i1⟩
  | 84 => ⟨S1600000x64, .f32⟩
  | 85 => ⟨S1600000x64, .i1⟩
  | 86 => ⟨S_, .f32⟩
  | 87 => ⟨S1600000x64, .f32⟩
  | 88 => ⟨S1600000x64, .f32⟩
  | 89 => ⟨S1600000x64, .f32⟩
  | 90 => ⟨S1600000x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S512x64, .f32⟩
  | 97 => ⟨S512x1, .f32⟩
  | 98 => ⟨S512x3, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S2000x4, .f32⟩
  | .local _ .vmem, ⟨1, _⟩ => ⟨S2000x4, .f32⟩
  | .local _ .vmem, ⟨2, _⟩ => ⟨S4x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S64x64, .f32⟩
  | .local _ .vmem, ⟨38, _⟩ => ⟨S1x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x1, .i32⟩
  | .local _ .vmem, ⟨50, _⟩ => ⟨S2000x1, .i32⟩
  | .local _ .vmem, ⟨51, _⟩ => ⟨S512x64, .f32⟩
  | .local _ .vmem, ⟨52, _⟩ => ⟨S512x1, .f32⟩
  | .local _ .vmem, ⟨53, _⟩ => ⟨S512x64, .f32⟩
  | .local _ .vmem, ⟨54, _⟩ => ⟨S512x1, .f32⟩
  | .local _ .vmem, ⟨55, _⟩ => ⟨S64x32, .f32⟩
  | .local _ .vmem, ⟨56, _⟩ => ⟨S1x32, .f32⟩
  | .local _ .vmem, ⟨57, _⟩ => ⟨S32x3, .f32⟩
  | .local _ .vmem, ⟨58, _⟩ => ⟨S1x3, .f32⟩
  | .local _ .vmem, ⟨59, _⟩ => ⟨S512x3, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v22 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_cst : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40_0 : Ref sig .tc := ⟨.hbm, 102, rfl⟩
abbrev main_v40_1 : Ref sig .tc := ⟨.hbm, 103, rfl⟩
abbrev main_v40_2 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_call2_cst : Ref sig .tc := ⟨.hbm, 125, rfl⟩
abbrev main_call2_v15 : Ref sig .tc := ⟨.hbm, 126, rfl⟩
abbrev main_v41 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_v14 : Ref sig .tc := ⟨.hbm, 147, rfl⟩
abbrev main_call3_cst : Ref sig .tc := ⟨.hbm, 148, rfl⟩
abbrev main_call3_v15 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_cst_0 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59_0 : Ref sig .tc := ⟨.hbm, 168, rfl⟩
abbrev main_v59_1 : Ref sig .tc := ⟨.hbm, 169, rfl⟩
abbrev main_v59_2 : Ref sig .tc := ⟨.hbm, 170, rfl⟩
abbrev main_call4_c : Ref sig .tc := ⟨.hbm, 171, rfl⟩
abbrev main_call4_v0 : Ref sig .tc := ⟨.hbm, 172, rfl⟩
abbrev main_call4_v1 : Ref sig .tc := ⟨.hbm, 173, rfl⟩
abbrev main_call4_c_0 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_v5 : Ref sig .tc := ⟨.hbm, 178, rfl⟩
abbrev main_call4_c_1 : Ref sig .tc := ⟨.hbm, 179, rfl⟩
abbrev main_call4_c_2 : Ref sig .tc := ⟨.hbm, 180, rfl⟩
abbrev main_call4_v6 : Ref sig .tc := ⟨.hbm, 181, rfl⟩
abbrev main_call4_v7 : Ref sig .tc := ⟨.hbm, 182, rfl⟩
abbrev main_call4_v8 : Ref sig .tc := ⟨.hbm, 183, rfl⟩
abbrev main_call4_v9 : Ref sig .tc := ⟨.hbm, 184, rfl⟩
abbrev main_call4_v10 : Ref sig .tc := ⟨.hbm, 185, rfl⟩
abbrev main_call4_v11 : Ref sig .tc := ⟨.hbm, 186, rfl⟩
abbrev main_call4_c_3 : Ref sig .tc := ⟨.hbm, 187, rfl⟩
abbrev main_call4_v12 : Ref sig .tc := ⟨.hbm, 188, rfl⟩
abbrev main_call4_v13 : Ref sig .tc := ⟨.hbm, 189, rfl⟩
abbrev main_call4_v14 : Ref sig .tc := ⟨.hbm, 190, rfl⟩
abbrev main_call4_cst : Ref sig .tc := ⟨.hbm, 191, rfl⟩
abbrev main_call4_v15 : Ref sig .tc := ⟨.hbm, 192, rfl⟩
abbrev main_v60 : Ref sig .tc := ⟨.hbm, 193, rfl⟩
abbrev main_call5_c : Ref sig .tc := ⟨.hbm, 194, rfl⟩
abbrev main_call5_v0 : Ref sig .tc := ⟨.hbm, 195, rfl⟩
abbrev main_call5_v1 : Ref sig .tc := ⟨.hbm, 196, rfl⟩
abbrev main_call5_c_0 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_call5_v5 : Ref sig .tc := ⟨.hbm, 201, rfl⟩
abbrev main_call5_c_1 : Ref sig .tc := ⟨.hbm, 202, rfl⟩
abbrev main_call5_c_2 : Ref sig .tc := ⟨.hbm, 203, rfl⟩
abbrev main_call5_v6 : Ref sig .tc := ⟨.hbm, 204, rfl⟩
abbrev main_call5_v7 : Ref sig .tc := ⟨.hbm, 205, rfl⟩
abbrev main_call5_v8 : Ref sig .tc := ⟨.hbm, 206, rfl⟩
abbrev main_call5_v9 : Ref sig .tc := ⟨.hbm, 207, rfl⟩
abbrev main_call5_v10 : Ref sig .tc := ⟨.hbm, 208, rfl⟩
abbrev main_call5_v11 : Ref sig .tc := ⟨.hbm, 209, rfl⟩
abbrev main_call5_c_3 : Ref sig .tc := ⟨.hbm, 210, rfl⟩
abbrev main_call5_v12 : Ref sig .tc := ⟨.hbm, 211, rfl⟩
abbrev main_call5_v13 : Ref sig .tc := ⟨.hbm, 212, rfl⟩
abbrev main_call5_v14 : Ref sig .tc := ⟨.hbm, 213, rfl⟩
abbrev main_call5_cst : Ref sig .tc := ⟨.hbm, 214, rfl⟩
abbrev main_call5_v15 : Ref sig .tc := ⟨.hbm, 215, rfl⟩
abbrev main_v61 : Ref sig .tc := ⟨.hbm, 216, rfl⟩
abbrev main_v62 : Ref sig .tc := ⟨.hbm, 217, rfl⟩
abbrev main_v63 : Ref sig .tc := ⟨.hbm, 218, rfl⟩
abbrev main_v64 : Ref sig .tc := ⟨.hbm, 219, rfl⟩
abbrev main_cst_1 : Ref sig .tc := ⟨.hbm, 220, rfl⟩
abbrev main_v65 : Ref sig .tc := ⟨.hbm, 221, rfl⟩
abbrev main_v66 : Ref sig .tc := ⟨.hbm, 222, rfl⟩
abbrev main_v67 : Ref sig .tc := ⟨.hbm, 223, rfl⟩
abbrev main_v68_0 : Ref sig .tc := ⟨.hbm, 224, rfl⟩
abbrev main_v68_1 : Ref sig .tc := ⟨.hbm, 225, rfl⟩
abbrev main_v69 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg7_1 : Ref sig .tc := ⟨.vmem, 40, rfl⟩
abbrev cc2_stg8_0 : Ref sig .tc := ⟨.vmem, 41, rfl⟩
abbrev cc2_stg8_1 : Ref sig .tc := ⟨.vmem, 42, rfl⟩
abbrev cc2_stg9_0 : Ref sig .tc := ⟨.vmem, 43, rfl⟩
abbrev cc2_stg9_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg4_0 : Ref sig .tc := ⟨.vmem, 52, rfl⟩
abbrev cc4_stg0_0 : Ref sig .tc := ⟨.vmem, 53, rfl⟩
abbrev cc4_stg1_0 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem7_1 : DmaSem sig := 40
abbrev cc2_sem8_0 : DmaSem sig := 41
abbrev cc2_sem8_1 : DmaSem sig := 42
abbrev cc2_sem9_0 : DmaSem sig := 43
abbrev cc2_sem9_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem4_0 : DmaSem sig := 52
abbrev cc4_sem0_0 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x3 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  shapeCasts_S1600000_S1600000x1 : S1600000.ShapeCasts S1600000x1
  shapeCasts_S64_S1x64 : S64.ShapeCasts S1x64
  shapeCasts_S3x64_S3x1x64 : S3x64.ShapeCasts S3x1x64
  shapeCasts_S32_S1x32 : S32.ShapeCasts S1x32
  shapeCasts_S3_S1x3 : S3.ShapeCasts S1x3
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S2000x4_S2000x4_0_0 : ∀ a, (![0, 0] : Fin 2 → Nat) a + S2000x4.size a ≤ S2000x4.size a
  h_S2000x4 : 0 < S2000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_1_0_0 : S3x64x64.Slices ![1, 0, 0] S1x64x64
  slices_S3x1x64_S1x1x64_1_0_0 : S3x1x64.Slices ![1, 0, 0] S1x1x64
  shapeCasts_S2000x64_S2000x64 : S2000x64.ShapeCasts S2000x64
  slices_S3x64x64_S1x64x64_2_0_0 : S3x64x64.Slices ![2, 0, 0] S1x64x64
  slices_S3x1x64_S1x1x64_2_0_0 : S3x1x64.Slices ![2, 0, 0] S1x1x64
  inb_S512x64_S512x64_0_0 : ∀ a, (![0, 0] : Fin 2 → Nat) a + S512x64.size a ≤ S512x64.size a
  h_S512x64 : 0 < S512x64.numel
  inb_S512x1_S512x1_0_0 : ∀ a, (![0, 0] : Fin 2 → Nat) a + S512x1.size a ≤ S512x1.size a
  h_S512x1 : 0 < S512x1.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S512x64_S512x64 : S512x64.ShapeCasts S512x64
  shapeCasts_S512x1_S512x1 : S512x1.ShapeCasts S512x1
  broadcasts_S512x1_S512x64 : S512x1.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  inb_S512x3_S512x3_0_0 : ∀ a, (![0, 0] : Fin 2 → Nat) a + S512x3.size a ≤ S512x3.size a
  h_S512x3 : 0 < S512x3.numel
  dot_S2000x4_S4x64_S2000x64_1_0_0_1_n_n_wf : DotDims.WF S2000x4 S4x64 S2000x64 [1] [0] [0] [1] [] []
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x512_S2000x64_S512x64_0_0_1_1_n_n_wf : DotDims.WF S2000x512 S2000x64 S512x64 [0] [0] [1] [1] [] []
  dot_S2000x512_S2000x1_S512x1_0_0_1_1_n_n_wf : DotDims.WF S2000x512 S2000x1 S512x1 [0] [0] [1] [1] [] []
  dot_S512x64_S64x32_S512x32_1_0_0_1_n_n_wf : DotDims.WF S512x64 S64x32 S512x32 [1] [0] [0] [1] [] []
  dot_S512x32_S32x3_S512x3_1_0_0_1_n_n_wf : DotDims.WF S512x32 S32x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S100000x4.size a
  hwx0_0 : ∀ i : grid0.Coords, EltTy.bits .f32 = 32 ∨ (Rect.block (s := S100000x4) S2000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S100000x64.size a
  hwx0_8 : ∀ i : grid0.Coords, EltTy.bits .f32 = 32 ∨ (Rect.block (s := S100000x64) S2000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S100000x64.size a
  hwx0_9 : ∀ i : grid0.Coords, EltTy.bits .f32 = 32 ∨ (Rect.block (s := S100000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S100000x64.size a
  hwx0_10 : ∀ i : grid0.Coords, EltTy.bits .f32 = 32 ∨ (Rect.block (s := S100000x64) S2000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S100000x64.size a
  hwx1_9 : ∀ i : grid1.Coords, EltTy.bits .f32 = 32 ∨ (Rect.block (s := S100000x64) S2000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S100000x64.size a
  hwx2_7 : ∀ i : grid2.Coords, EltTy.bits .f32 = 32 ∨ (Rect.block (s := S100000x64) S2000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x64.size a ≤ S100000x64.size a
  hwx2_8 : ∀ i : grid2.Coords, EltTy.bits .f32 = 32 ∨ (Rect.block (s := S100000x64) S2000x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x64.size a ≤ S100000x64.size a
  hwx2_9 : ∀ i : grid2.Coords, EltTy.bits .f32 = 32 ∨ (Rect.block (s := S100000x64) S2000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .i32 = 32 ∨ (Rect.block (s := S100000x1) S2000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S512x64.size a
  hwx3_3 : ∀ i : grid3.Coords, EltTy.bits .f32 = 32 ∨ (Rect.block (s := S512x64) S512x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .f32 = 32 ∨ (Rect.block (s := S512x1) S512x1.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x32.size a ≤ S64x32.size a
  hwx4_2 : ∀ i : grid4.Coords, EltTy.bits .f32 = 32 ∨ (Rect.block (s := S64x32) S64x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x3.size a ≤ S32x3.size a
  hwx4_4 : ∀ i : grid4.Coords, EltTy.bits .f32 = 32 ∨ (Rect.block (s := S32x3) S32x3.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x3.size a ≤ S1x3.size a
  hwx4_5 : ∀ i : grid4.Coords, EltTy.bits .f32 = 32 ∨ (Rect.block (s := S1x3) S1x3.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x3.size a ≤ S512x3.size a
  hwx4_6 : ∀ i : grid4.Coords, EltTy.bits .f32 = 32 ∨ (Rect.block (s := S512x3) S512x3.size (cc4_transform_6 i) (hinb4_6 i)).WholeWords (EltTy.packing .f32)

variable [Facts₀]

def dot_S2000x4_S4x64_S2000x64_1_0_0_1_n_n : DotDims S2000x4 S4x64 S2000x64 where
  lhsContracting := [1]
  rhsContracting := [0]
  lhsNonContracting := [0]
  rhsNonContracting := [1]
  lhsBatch := []
  rhsBatch := []
  wf := dot_S2000x4_S4x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x3_S512x3_1_0_0_1_n_n : DotDims S512x32 S32x3 S512x3 where
  lhsContracting := [1]
  rhsContracting := [0]
  lhsNonContracting := [0]
  rhsNonContracting := [1]
  lhsBatch := []
  rhsBatch := []
  wf := dot_S512x32_S32x3_S512x3_1_0_0_1_n_n_wf

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21_0) S2000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v21_1) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21_2) S2000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v29) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_2) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40_0) S2000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v40_1) S2000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v40_2) S2000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v48) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_2) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59_0) S2000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v59_1) S2000x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v59_2) S2000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v67) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59_2) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v68_0) S512x64.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68_1) S512x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v68_0) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v68_1) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S64x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg13) S32x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v10) S1x3.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v69) S512x3.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S1600000 : Shape := ⟨1, ![1600000]⟩
abbrev S100000 : Shape := ⟨1, ![100000]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S1600000x1 : Shape := ⟨2, ![1600000, 1]⟩
abbrev S_ : Shape := ⟨0, ![]⟩
abbrev S1600000x64 : Shape := ⟨2, ![1600000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩
abbrev S512x3 : Shape := ⟨2, ![512, 3]⟩
abbrev S1x3 : Shape := ⟨2, ![1, 3]⟩

abbrev nBuf : Space → Nat
  | .hbm => 197
  | .vmem => 0
  | .smem => 0
  | _ => 0

abbrev hbmTy0_0 (i : Nat) : BufTy := match i % 128 with
  | 0 => ⟨S100000x4, .f32⟩
  | 1 => ⟨S2x1600000, .i32⟩
  | 2 => ⟨S1600000, .f32⟩
  | 3 => ⟨S100000, .i32⟩
  | 4 => ⟨S4x64, .f32⟩
  | 5 => ⟨S64, .f32⟩
  | 6 => ⟨S3x64x64, .f32⟩
  | 7 => ⟨S3x64, .f32⟩
  | 8 => ⟨S3x64x64, .f32⟩
  | 9 => ⟨S3x64x64, .f32⟩
  | 10 => ⟨S3x64, .f32⟩
  | 11 => ⟨S64x32, .f32⟩
  | 12 => ⟨S32, .f32⟩
  | 13 => ⟨S32x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S100000x64, .f32⟩
  | 20 => ⟨S1x64, .f32⟩
  | 21 => ⟨S100000x64, .f32⟩
  | 22 => ⟨S100000x64, .f32⟩
  | 23 => ⟨S1x64x64, .f32⟩
  | 24 => ⟨S64x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S1x64x64, .f32⟩
  | 32 => ⟨S64x64, .f32⟩
  | 33 => ⟨S100000x64, .f32⟩
  | 34 => ⟨S1600000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1x64x64, .f32⟩
  | 61 => ⟨S64x64, .f32⟩
  | 62 => ⟨S100000x64, .f32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64x64, .f32⟩
  | 73 => ⟨S64x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S1x64x64, .f32⟩
  | 81 => ⟨S64x64, .f32⟩
  | 82 => ⟨S100000x64, .f32⟩
  | 83 => ⟨S1600000x1, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S1x64x64, .f32⟩
  | 110 => ⟨S64x64, .f32⟩
  | 111 => ⟨S100000x64, .f32⟩
  | 112 => ⟨S100000x64, .f32⟩
  | 113 => ⟨S1x64, .f32⟩
  | 114 => ⟨S64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S1x64x64, .f32⟩
  | 122 => ⟨S64x64, .f32⟩
  | 123 => ⟨S100000x64, .f32⟩
  | 124 => ⟨S1x64, .f32⟩
  | 125 => ⟨S64, .f32⟩
  | 126 => ⟨S1x64, .f32⟩
  | 127 => ⟨S100000x64, .f32⟩
  | _ => ⟨S100000x4, .f32⟩

abbrev hbmTy0_1 (i : Nat) : BufTy := match i % 128 with
  | 0 => ⟨S100000x64, .f32⟩
  | 1 => ⟨S1x64x64, .f32⟩
  | 2 => ⟨S64x64, .f32⟩
  | 3 => ⟨S100000x64, .f32⟩
  | 4 => ⟨S1600000x1, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1600000x64, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S1x64x64, .f32⟩
  | 31 => ⟨S64x64, .f32⟩
  | 32 => ⟨S100000x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .f32⟩
  | 43 => ⟨S512x64, .f32⟩
  | 44 => ⟨S100000x1, .i32⟩
  | 45 => ⟨S512x64, .f32⟩
  | 46 => ⟨S_, .f32⟩
  | 47 => ⟨S100000, .f32⟩
  | 48 => ⟨S_, .f32⟩
  | 49 => ⟨S512, .f32⟩
  | 50 => ⟨S100000x1, .i32⟩
  | 51 => ⟨S512, .f32⟩
  | 52 => ⟨S_, .f32⟩
  | 53 => ⟨S512, .f32⟩
  | 54 => ⟨S512, .f32⟩
  | 55 => ⟨S512x1, .f32⟩
  | 56 => ⟨S512x64, .f32⟩
  | 57 => ⟨S512x64, .f32⟩
  | 58 => ⟨S512x32, .f32⟩
  | 59 => ⟨S1x32, .f32⟩
  | 60 => ⟨S512x32, .f32⟩
  | 61 => ⟨S512x32, .f32⟩
  | 62 => ⟨S_, .f32⟩
  | 63 => ⟨S512x32, .f32⟩
  | 64 => ⟨S512x32, .f32⟩
  | 65 => ⟨S512x3, .f32⟩
  | 66 => ⟨S1x3, .f32⟩
  | 67 => ⟨S512x3, .f32⟩
  | 68 => ⟨S512x3, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_c_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_3 : Ref sig .tc := ⟨.hbm, 84, rfl⟩
abbrev main_v62 : Ref sig .tc := ⟨.hbm, 85, rfl⟩
abbrev main_v63 : Ref sig .tc := ⟨.hbm, 86, rfl⟩
abbrev main_c_4 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_5 : Ref sig .tc := ⟨.hbm, 93, rfl⟩
abbrev main_v69 : Ref sig .tc := ⟨.hbm, 94, rfl⟩
abbrev main_v70 : Ref sig .tc := ⟨.hbm, 95, rfl⟩
abbrev main_c_6 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_call1_cst : Ref sig .tc := ⟨.hbm, 118, rfl⟩
abbrev main_call1_v0 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_8 : Ref sig .tc := ⟨.hbm, 133, rfl⟩
abbrev main_v104 : Ref sig .tc := ⟨.hbm, 134, rfl⟩
abbrev main_v105 : Ref sig .tc := ⟨.hbm, 135, rfl⟩
abbrev main_c_9 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_c_10 : Ref sig .tc := ⟨.hbm, 142, rfl⟩
abbrev main_v111 : Ref sig .tc := ⟨.hbm, 143, rfl⟩
abbrev main_v112 : Ref sig .tc := ⟨.hbm, 144, rfl⟩
abbrev main_c_11 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_12 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_call2_cst : Ref sig .tc := ⟨.hbm, 167, rfl⟩
abbrev main_call2_v0 : Ref sig .tc := ⟨.hbm, 168, rfl⟩
abbrev main_v133 : Ref sig .tc := ⟨.hbm, 169, rfl⟩
abbrev main_cst_13 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_14 : Ref sig .tc := ⟨.hbm, 174, rfl⟩
abbrev main_v137 : Ref sig .tc := ⟨.hbm, 175, rfl⟩
abbrev main_cst_15 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_16 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_call3_cst : Ref sig .tc := ⟨.hbm, 190, rfl⟩
abbrev main_call3_v0 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  dot_S100000x4_S4x64_S100000x64_1_0_0_1_n_n_wf : DotDims.WF S100000x4 S4x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x32_S512x32_1_0_0_1_n_n_wf : DotDims.WF S512x64 S64x32 S512x32 [1] [0] [0] [1] [] []
  dot_S512x32_S32x3_S512x3_1_0_0_1_n_n_wf : DotDims.WF S512x32 S32x3 S512x3 [1] [0] [0] [1] [] []

variable [Facts₀]

def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x3_S512x3_1_0_0_1_n_n : DotDims S512x32 S32x3 S512x3 where
  lhsContracting := [1]
  rhsContracting := [0]
  lhsNonContracting := [0]
  rhsNonContracting := [1]
  lhsBatch := []
  rhsBatch := []
  wf := dot_S512x32_S32x3_S512x3_1_0_0_1_n_n_wf

class Facts : Prop extends Facts₀ where

variable [Facts]
-- ==== Proof.Spec.lean ====
/-
  The mathematics of the graph network, stated once over plain arrays of extended reals and independent of either program.

  A node table `h : [N, K]` is sent through affine maps `h ↦ h · W + b` (the bias a single row added to every row);
  a layer joins the aggregated messages and the root term and clips at zero; the readout sums the rows of each graph
  (a row `n` belongs to graph `g` when its label, read as a signed word, is `g`; a label outside `[0, 512)` belongs to none),
  as a layer sums an edge's message into the node its target word names and drops an edge whose target word names none,
  divides by the graph's size (at least one) and applies a two-layer head. Every sum is a finite sum in the commutative
  monoid of extended reals, so neither the order of the terms nor a blocking of the rows matters.
-/
import Idealize.ShloMosaic.Lib.ValueIdx

noncomputable section

open scoped BigOperators

namespace Gnn

open Idealize.ShloMosaic Idealize.ShloMosaic.ValueIdx

/-- A matrix of extended reals with `r` rows and `c` columns. -/
abbrev Arr2 (r c : ℕ) : Type := (⟨2, ![r, c]⟩ : Shape).Idx → EReal
/-- A stack of matrices. -/
abbrev Arr3 (a b c : ℕ) : Type := (⟨3, ![a, b, c]⟩ : Shape).Idx → EReal
/-- A vector. -/
abbrev Arr1 (n : ℕ) : Type := (⟨1, ![n]⟩ : Shape).Idx → EReal

/-- The matrix product: entry `(p, q)` is the sum over `j` of `A p j · B j q`. -/
def mm {r k c : ℕ} (A : Arr2 r k) (B : Arr2 k c) : Arr2 r c :=
  fun i => ∑ j : Fin k, A (ix2 (i 0) j) * B (ix2 j (i 1))

/-- One row `b` added to every row of `A`. -/
def addRow {r c : ℕ} (A : Arr2 r c) (b : Arr2 1 c) : Arr2 r c :=
  fun i => A i + b (ix2 (0 : Fin 1) (i 1))

/-- The affine map `A · W + b`. -/
def lin {r k c : ℕ} (A : Arr2 r k) (W : Arr2 k c) (b : Arr2 1 c) : Arr2 r c := addRow (mm A W) b

/-- Entrywise sum. -/
def add {r c : ℕ} (A B : Arr2 r c) : Arr2 r c := fun i => A i + B i

/-- Entrywise clip at zero. -/
def relu {r c : ℕ} (A : Arr2 r c) : Arr2 r c := fun i => max (A i) 0

/-- The node features a layer starts from: aggregated messages plus root term, clipped at zero. -/
def node {r c : ℕ} (agg root : Arr2 r c) : Arr2 r c := relu (add agg root)

/-- Matrix `l` of a stack of three. -/
def slab {k c : ℕ} (W : Arr3 3 k c) (l : Fin 3) : Arr2 k c := fun i => W (ix3 l (i 0) (i 1))

/-- Row `l` of a three-row table, as a one-row matrix. -/
def row3 {c : ℕ} (b : Arr2 3 c) (l : Fin 3) : Arr2 1 c := fun i => b (ix2 l (i 1))

/-- A vector as a one-row matrix. -/
def row1 {c : ℕ} (b : Arr1 c) : Arr2 1 c := fun i => b (ix1 (i 1))

/-- The row a table of `n` rows is read at for the index word `w`: `w` as a signed integer, clamped into `[0, n - 1]`. -/
def clampRow (n : ℕ) (hn : 0 < n) (w : BitVec 32) : Fin n := ⟨min w.toInt.toNat (n - 1), by omega⟩

/-- Row `p` of the result is the row of `A` that the index word `idx p` names. -/
def gatherRows {n c e : ℕ} (hn : 0 < n) (A : Arr2 n c) (idx : Fin e → BitVec 32) : Arr2 e c :=
  fun i => A (ix2 (clampRow n hn (idx (i 0))) (i 1))

/-- The segment sum: row `r` of the result is the sum of the rows `p` of `upd` whose segment word, read signed, is `r`;
    a row whose word is negative or at least `n` is counted nowhere. -/
def segSum {e n c : ℕ} (upd : Arr2 e c) (seg : Fin e → BitVec 32) : Arr2 n c :=
  fun i => ∑ p : Fin e, if (seg p).toInt = ((i 0).val : ℤ) then upd (ix2 p (i 1)) else 0

/-- The segment sum only sees the rows that land: two update tables that agree on every row whose segment word is in range
    have the same segment sum. -/
theorem segSum_congr {e n c : ℕ} (upd upd' : Arr2 e c) (seg : Fin e → BitVec 32)
    (h : ∀ (p : Fin e) (q : Fin c), 0 ≤ (seg p).toInt → (seg p).toInt < (n : ℤ) → upd (ix2 p q) = upd' (ix2 p q)) :
    (segSum upd seg : Arr2 n c) = segSum upd' seg := by
  funext i
  unfold segSum
  refine Finset.sum_congr rfl fun p _ => ?_
  by_cases hp : (seg p).toInt = ((i 0).val : ℤ)
  · rw [if_pos hp, if_pos hp]
    refine h p (i 1) ?_ ?_
    · rw [hp]; exact Int.natCast_nonneg _
    · rw [hp]; exact_mod_cast (i 0).isLt
  · rw [if_neg hp, if_neg hp]

/-- An edge's message: its weight times the difference of the two gathered rows. -/
def messages {e c : ℕ} (attr : Fin e → EReal) (ga gb : Arr2 e c) : Arr2 e c := fun i => attr (i 0) * (ga i - gb i)

/-- The aggregated messages at each target node. -/
def agg {n c e : ℕ} (hn : 0 < n) (attr : Fin e → EReal) (a b : Arr2 n c) (src dst : Fin e → BitVec 32) : Arr2 n c :=
  segSum (messages attr (gatherRows hn a src) (gatherRows hn b dst)) dst

/-- The number of rows of each segment, as a one-column matrix. -/
def segCount {e n : ℕ} (seg : Fin e → BitVec 32) : Arr2 n 1 :=
  fun i => ∑ p : Fin e, if (seg p).toInt = ((i 0).val : ℤ) then (1 : EReal) else 0

/-- The mean of each graph's rows, the size taken as at least one. -/
def poolMean {g c : ℕ} (sums : Arr2 g c) (counts : Arr2 g 1) : Arr2 g c :=
  fun i => Ideal.div (sums i) (max (counts (ix2 (i 0) (0 : Fin 1))) 1)

/-- The two-layer head on the graph means. -/
def head {g c k o : ℕ} (sums : Arr2 g c) (counts : Arr2 g 1) (W1 : Arr2 c k) (b1 : Arr2 1 k) (W2 : Arr2 k o) (b2 : Arr2 1 o) :
    Arr2 g o :=
  lin (relu (lin (poolMean sums counts) W1 b1)) W2 b2

/-- One message-passing layer `l` on the node table `h`. -/
def layer {n e : ℕ} (hn : 0 < n) (attr : Fin e → EReal) (src dst : Fin e → BitVec 32)
    (W1 : Arr3 3 64 64) (b1 : Arr2 3 64) (W2 W3 : Arr3 3 64 64) (b3 : Arr2 3 64) (l : Fin 3) (h : Arr2 n 64) : Arr2 n 64 :=
  node (agg hn attr (lin h (slab W1 l) (row3 b1 l)) (mm h (slab W2 l)) src dst) (lin h (slab W3 l) (row3 b3 l))

/-- The whole network on literal sizes: embedding, three layers, mean pooling over 512 graphs, head. -/
def net (x : Arr2 100000 4) (src dst : Fin 1600000 → BitVec 32) (attr : Fin 1600000 → EReal) (lab : Fin 100000 → BitVec 32)
    (Wemb : Arr2 4 64) (bemb : Arr1 64) (W1 : Arr3 3 64 64) (b1 : Arr2 3 64) (W2 W3 : Arr3 3 64 64) (b3 : Arr2 3 64)
    (Wl1 : Arr2 64 32) (bl1 : Arr1 32) (Wl2 : Arr2 32 3) (bl2 : Arr1 3) : Arr2 512 3 :=
  head (segSum (layer (by decide) attr src dst W1 b1 W2 W3 b3 2 (layer (by decide) attr src dst W1 b1 W2 W3 b3 1
      (layer (by decide) attr src dst W1 b1 W2 W3 b3 0 (lin x Wemb (row1 bemb))))) lab)
    (segCount lab) Wl1 (row1 bl1) Wl2 (row1 bl2)

/-- The root term may be added to the messages before or after its bias: addition of extended reals is associative. -/
theorem node_assoc {r c : ℕ} (agg P : Arr2 r c) (b : Arr2 1 c) :
    relu (addRow (add agg P) b) = node agg (addRow P b) := by
  funext i
  simp only [relu, addRow, add, node, add_assoc]

end Gnn

end
-- ==== Proof.Wrap.lean ====
/-
  An index word as both programs normalise it before they look a row up: a negative word is moved up by the number of
  rows, 100000, so that the words `-100000 … -1` name the rows `0 … 99999` from the end, and any other word is left as it
  is. A word in `[-100000, 100000)` is normalised into `[0, 100000)`.
-/
import Idealize.ShloMosaic.Lib.ValueIdx
import Idealize.ShloMosaic.Lib.Affine

namespace Gnn

open Idealize.ShloMosaic Idealize.ShloMosaic.ValueIdx

/-- The normalised index word. -/
def wrapW (w : BitVec 32) : BitVec 32 := Scalar.select (IntOp.cmpi .slt w 0#32) (IntOp.addi w 100000#32) w

/-- A word that is not negative is left as it is. -/
theorem wrapW_of_nonneg (w : BitVec 32) (h : 0 ≤ w.toInt) : wrapW w = w := by
  unfold wrapW
  have hc : IntOp.cmpi .slt w 0#32 = 0#1 := by
    refine eq_zero_of_ne_one fun h1 => ?_
    have := IntOp.cmpi_slt.1 h1
    rw [show (0#32 : BitVec 32).toInt = 0 from rfl] at this
    omega
  rw [hc, select_zero]

/-- A negative word is moved up by 100000. -/
theorem wrapW_of_neg (w : BitVec 32) (h : w.toInt < 0) : wrapW w = w + 100000#32 := by
  unfold wrapW
  have hc : IntOp.cmpi .slt w 0#32 = 1#1 := IntOp.cmpi_slt.2 (by rw [show (0#32 : BitVec 32).toInt = 0 from rfl]; exact h)
  rw [hc, select_one]
  rfl

/-- A word in `[-100000, 100000)` is normalised into `[0, 100000)`. -/
theorem wrapW_inRange (w : BitVec 32) (h0 : -100000 ≤ w.toInt) (h1 : w.toInt < 100000) :
    0 ≤ (wrapW w).toInt ∧ (wrapW w).toInt < 100000 := by
  by_cases hn : w.toInt < 0
  · rw [wrapW_of_neg w hn, BitVec.toInt_add, show (100000#32 : BitVec 32).toInt = 100000 from rfl,
      Int.bmod_eq_of_le (by omega) (by omega)]
    omega
  · rw [wrapW_of_nonneg w (by omega)]
    omega

end Gnn
-- ==== Proof.KernelArgs.lean ====
/-
  The kernel program's arguments as the plain arrays and words of `Gnn`: the two rows of the edge list, the edge weights
  and the node labels, each as a function of its position, the source word taken as the programs normalise it before
  a lookup (a negative word moved up by the number of nodes); and the domain the certificate is stated on, every source
  word in `[-100000, 100000)`, which is where it names a node, from the front or from the end.
-/
import proofs.«419727_j75720273429180_1_alg».proof.Proof.Gen.KernelIdeal.Frame
import proofs.«419727_j75720273429180_1_alg».proof.Proof.Spec
import proofs.«419727_j75720273429180_1_alg».proof.Proof.Wrap
import Idealize.ShloMosaic.Lib.ValueIdx

set_option maxRecDepth 16384

noncomputable section

open scoped BigOperators

namespace Cert.KernelIdeal.Args

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

/-- The source word of each edge as the argument holds it: row 0 of the edge list. -/
abbrev rawSrcW (c : Dev nD) : Fin 1600000 → BitVec 32 :=
  fun p => (m ((c.tc : Thread nD τ).loc main_arg1) : S2x1600000.Idx → BitVec 32) (ix2 (0 : Fin 2) p)
/-- The source word of each edge, normalised. -/
abbrev srcW (c : Dev nD) : Fin 1600000 → BitVec 32 := fun p => Gnn.wrapW (rawSrcW m c p)
/-- The target word of each edge: row 1 of the edge list. -/
abbrev dstW (c : Dev nD) : Fin 1600000 → BitVec 32 :=
  fun p => (m ((c.tc : Thread nD τ).loc main_arg1) : S2x1600000.Idx → BitVec 32) (ix2 (1 : Fin 2) p)
/-- The weight of each edge. -/
abbrev attrW (c : Dev nD) : Fin 1600000 → EReal :=
  fun p => (m ((c.tc : Thread nD τ).loc main_arg2) : S1600000.Idx → EReal) (ix1 p)
/-- The label word of each node. -/
abbrev labW (c : Dev nD) : Fin 100000 → BitVec 32 :=
  fun p => (m ((c.tc : Thread nD τ).loc main_arg3) : S100000.Idx → BitVec 32) (ix1 p)

/-- Every source word names a node: it lies in `[-100000, 100000)`. -/
def SrcInRange (c : Dev nD) : Prop :=
  ∀ p : Fin 1600000, -100000 ≤ (rawSrcW m c p).toInt ∧ (rawSrcW m c p).toInt < 100000

/-- The network's value on the kernel program's arguments. -/
abbrev netOf (c : Dev nD) : Gnn.Arr2 512 3 :=
  Gnn.net (m ((c.tc : Thread nD τ).loc main_arg0)) (srcW m c) (dstW m c) (attrW m c) (labW m c)
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14))

end Cert.KernelIdeal.Args

end
-- ==== Proof.RefArgs.lean ====
/-
  The reference program's arguments as the plain arrays and words of `Gnn`: the two rows of the edge list, the edge
  weights and the node labels, each as a function of its position, the source word taken as the programs normalise
  it before a lookup (a negative word moved up by the number of nodes); and the network's value on these arguments.
-/
import proofs.«419727_j75720273429180_1_alg».proof.Proof.Gen.ReferenceIdeal
import proofs.«419727_j75720273429180_1_alg».proof.Proof.Spec
import proofs.«419727_j75720273429180_1_alg».proof.Proof.Wrap
import Idealize.ShloMosaic.Lib.ValueIdx

set_option maxRecDepth 16384

noncomputable section

namespace Cert.ReferenceIdeal.Args

open Idealize.ShloMosaic Idealize.ShloMosaic.TcCoe Idealize.ShloMosaic.ValueIdx Cert.ReferenceIdeal

variable (m : (ℓ : Loc nD τ sig) → Buf (Elt Ideal) ℓ)

/-- The source word of each edge, normalised: row 0 of the edge list, a negative word moved up by the number of nodes. -/
abbrev srcW (c : Dev nD) : Fin 1600000 → BitVec 32 :=
  fun p => Gnn.wrapW ((m ((c.tc : Thread nD τ).loc main_arg1) : S2x1600000.Idx → BitVec 32) (ix2 (0 : Fin 2) p))
/-- The target word of each edge: row 1 of the edge list. -/
abbrev dstW (c : Dev nD) : Fin 1600000 → BitVec 32 :=
  fun p => (m ((c.tc : Thread nD τ).loc main_arg1) : S2x1600000.Idx → BitVec 32) (ix2 (1 : Fin 2) p)
/-- The weight of each edge. -/
abbrev attrW (c : Dev nD) : Fin 1600000 → EReal :=
  fun p => (m ((c.tc : Thread nD τ).loc main_arg2) : S1600000.Idx → EReal) (ix1 p)
/-- The label word of each node. -/
abbrev labW (c : Dev nD) : Fin 100000 → BitVec 32 :=
  fun p => (m ((c.tc : Thread nD τ).loc main_arg3) : S100000.Idx → BitVec 32) (ix1 p)

/-- The network's value on the reference program's arguments. -/
abbrev netOf (c : Dev nD) : Gnn.Arr2 512 3 :=
  Gnn.net (m ((c.tc : Thread nD τ).loc main_arg0)) (srcW m c) (dstW m c) (attrW m c) (labW m c)
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14))

end Cert.ReferenceIdeal.Args

end
-- ==== Proof.Domain.lean ====
/-
  The domain the certificate is stated on, read back from the printed precondition: its last conjunct is `jnp.all` of
  "row 0 of the edge list is at least -100000 and below 100000", so where the precondition is all ones every source
  word, read signed, names a node, from the front or (when negative) from the end.
-/
import proofs.«419727_j75720273429180_1_alg».proof.Defs
import proofs.«419727_j75720273429180_1_alg».proof.Proof.Gen.Pre_finite_inputs
import proofs.«419727_j75720273429180_1_alg».proof.Proof.KernelArgs
import proofs.«419727_j75720273429180_1_alg».proof.Proof.RefArgs
import Idealize.ShloMosaic.Lib.ReduceAll
import Idealize.ShloMosaic.Lib.Pipeline.Value
import Idealize.ShloMosaic.Lib.ValueIdx

set_option maxRecDepth 16384

noncomputable section

namespace Cert.Domain

open Idealize.ShloMosaic Idealize.ShloMosaic.TcCoe Idealize.ShloMosaic.ValueIdx Cert.Pre_finite_inputs

/-- The scalar shape has one index. -/
instance : Subsingleton S_.Idx := ⟨fun a b => funext fun d => d.elim0⟩

/-- Row 0 of the edge list, flattened, read at position `p`. -/
theorem srcRow_apply (e : IVec S2x1600000 32) (hs : S2x1600000.Slices ![0, 0] S1x1600000) (hc : S1x1600000.ShapeCasts S1600000)
    (p : Fin 1600000) :
    shapeCast S1600000 (extractStridedSlice S1x1600000 ![0, 0] e hs) hc (ix1 p) = e (ix2 (0 : Fin 2) p) := by
  rw [shapeCast_apply _ hc (ix1 p) (ix2 (0 : Fin 1) p) (by
    rw [Shape.rowMajor_val_two, Shape.rowMajor_val_one]; show 0 * 1600000 + p.val = p.val; omega)]
  exact extractStridedSlice_apply ![0, 0] e hs (ix2 (0 : Fin 1) p) (ix2 (0 : Fin 2) p) (fun a => match a with
    | ⟨0, _⟩ => rfl
    | ⟨1, _⟩ => by show p.val = 0 + p.val; omega)

/-- Where the printed precondition is all ones, every source word lies in `[-100000, 100000)`. -/
theorem src_of_pre [Cert.Pre_finite_inputs.Facts] {F : FTy → Type} [FloatOps F]
    (a0 : FVec F S100000x4 .f32) (a1 : IVec S2x1600000 32) (a2 : FVec F S1600000 .f32) (a3 : IVec S100000 32)
    (a4 : FVec F S4x64 .f32) (a5 : FVec F S64 .f32) (a6 : FVec F S3x64x64 .f32) (a7 : FVec F S3x64 .f32)
    (a8 : FVec F S3x64x64 .f32) (a9 : FVec F S3x64x64 .f32) (a10 : FVec F S3x64 .f32) (a11 : FVec F S64x32 .f32)
    (a12 : FVec F S32 .f32) (a13 : FVec F S32x3 .f32) (a14 : FVec F S3 .f32)
    (h : fn (F := F) a0 a1 a2 a3 a4 a5 a6 a7 a8 a9 a10 a11 a12 a13 a14 = fun _ => 1#1) (p : Fin 1600000) :
    -100000 ≤ (a1 (ix2 (0 : Fin 2) p)).toInt ∧ (a1 (ix2 (0 : Fin 2) p)).toInt < 100000 := by
  have h0 := congrFun h ix0
  dsimp only [fn, fn_part1, fn_part2, fn_part3, fn_part4] at h0
  have h1 := (IntOp.andi_eq_one.1 h0).2
  have h2 := Host.reduce_andi_all _ _ _ _ _ h1 (ix1 p)
  obtain ⟨hge, hlt⟩ := IntOp.andi_eq_one.1 h2
  have hge' := IntOp.cmpi_sge.1 hge
  have hlt' := IntOp.cmpi_slt.1 hlt
  rw [srcRow_apply] at hge' hlt'
  have hlow : (4294867296#32 : BitVec 32).toInt = -100000 := by decide
  have hge'' : (4294867296#32 : BitVec 32).toInt ≤ (a1 (ix2 (0 : Fin 2) p)).toInt := hge'
  rw [hlow] at hge''
  exact ⟨hge'', hlt'⟩

end Cert.Domain

end
-- ==== Proof.EmbedRegion.lean ====
/-
  The first kernel region, read as whole arrays: from the node inputs `x` it forms the embedding `h₀ = x · W_emb + b_emb`
  and, from `h₀`, the three affine maps of the first layer. Each grid point handles 2000 consecutive rows and the
  fifty row blocks tile the node axis, so each output array is one function of the region's input arrays.
-/
import proofs.«419727_j75720273429180_1_alg».proof.Proof.Gen.KernelIdeal.Frame
import proofs.«419727_j75720273429180_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Embed

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The embedding the region forms from its input arrays. -/
abbrev h0 (c : Dev nD) : Gnn.Arr2 100000 64 := Gnn.lin (V c main_arg0) (V c main_arg4) (V c main_v6)

/-! ## The two matrix products of the body, read at an entry -/

/-! The operand indices of the block-of-rows by embedding-weights product: the left operand is read at the output's row and
the contracted position, the right operand at the contracted position and the output's column. -/

theorem lhs_emb_0 (i : S2000x64.Idx) (q : dot_S2000x4_S4x64_S2000x64_1_0_0_1_n_n.contr.Idx) :
    (dot_S2000x4_S4x64_S2000x64_1_0_0_1_n_n.lhsIdx i q 0).val = (i 0).val := by
  unfold DotDims.lhsIdx
  rw [dif_neg (show ¬(0 : Fin S2000x4.rank) ∈ dot_S2000x4_S4x64_S2000x64_1_0_0_1_n_n.lhsBatch by decide), dif_pos (show (0 : Fin S2000x4.rank) ∈ dot_S2000x4_S4x64_S2000x64_1_0_0_1_n_n.lhsNonContracting by decide)]
  rfl
theorem lhs_emb_1 (i : S2000x64.Idx) (q : dot_S2000x4_S4x64_S2000x64_1_0_0_1_n_n.contr.Idx) :
    (dot_S2000x4_S4x64_S2000x64_1_0_0_1_n_n.lhsIdx i q 1).val = (q ⟨0, by decide⟩).val :=
  dot_S2000x4_S4x64_S2000x64_1_0_0_1_n_n.lhsIdx_val_of_single rfl i q
theorem rhs_emb_0 (i : S2000x64.Idx) (q : dot_S2000x4_S4x64_S2000x64_1_0_0_1_n_n.contr.Idx) :
    (dot_S2000x4_S4x64_S2000x64_1_0_0_1_n_n.rhsIdx i q 0).val = (q ⟨0, by decide⟩).val :=
  dot_S2000x4_S4x64_S2000x64_1_0_0_1_n_n.rhsIdx_val_of_single rfl i q
theorem rhs_emb_1 (i : S2000x64.Idx) (q : dot_S2000x4_S4x64_S2000x64_1_0_0_1_n_n.contr.Idx) :
    (dot_S2000x4_S4x64_S2000x64_1_0_0_1_n_n.rhsIdx i q 1).val = (i 1).val := by
  unfold DotDims.rhsIdx
  rw [dif_neg (show ¬(1 : Fin S4x64.rank) ∈ dot_S2000x4_S4x64_S2000x64_1_0_0_1_n_n.rhsBatch by decide), dif_pos (show (1 : Fin S4x64.rank) ∈ dot_S2000x4_S4x64_S2000x64_1_0_0_1_n_n.rhsNonContracting by decide)]
  rfl

/-- The product of a block of rows with the embedding weights, entry by entry. -/
theorem matmul_emb_apply (A : FVec Ideal S2000x4 .bf16) (B : FVec Ideal S4x64 .bf16) (p : Fin 2000) (q : Fin 64) :
    matmul dot_S2000x4_S4x64_S2000x64_1_0_0_1_n_n none A B (constant (F := Ideal) S2000x64 .f32 0x00000000#32) (ix2 p q)
      = ∑ j : Fin 4, A (ix2 p j) * B (ix2 j q) := by
  simp only [matmul]
  rw [Ideal.matmul_constant_zero_apply, ← Equiv.sum_comp (contrEquiv1 dot_S2000x4_S4x64_S2000x64_1_0_0_1_n_n 4 rfl rfl).symm]
  refine Finset.sum_congr rfl fun k _ => ?_
  have hk := contrEquiv1_symm_val dot_S2000x4_S4x64_S2000x64_1_0_0_1_n_n 4 rfl rfl k
  have el : dot_S2000x4_S4x64_S2000x64_1_0_0_1_n_n.lhsIdx (ix2 p q) ((contrEquiv1 dot_S2000x4_S4x64_S2000x64_1_0_0_1_n_n 4 rfl rfl).symm k) = ix2 p k := funext fun a => Fin.ext (by
    match a with
    | ⟨0, _⟩ => exact lhs_emb_0 _ _
    | ⟨1, _⟩ => exact (lhs_emb_1 _ _).trans hk)
  have er : dot_S2000x4_S4x64_S2000x64_1_0_0_1_n_n.rhsIdx (ix2 p q) ((contrEquiv1 dot_S2000x4_S4x64_S2000x64_1_0_0_1_n_n 4 rfl rfl).symm k) = ix2 k q := funext fun a => Fin.ext (by
    match a with
    | ⟨0, _⟩ => exact (rhs_emb_0 _ _).trans hk
    | ⟨1, _⟩ => exact rhs_emb_1 _ _)
  rw [el, er]

/-! The same four facts for the product with a square layer weight. -/

theorem lhs_lay_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_lay_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_lay_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_lay_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of a block of embedded rows with a square weight matrix, entry by entry. -/
theorem matmul_lay_apply (A : FVec Ideal S2000x64 .bf16) (B : FVec Ideal S64x64 .bf16) (p : Fin 2000) (q : Fin 64) :
    matmul dot_S2000x64_S64x64_S2000x64_1_0_0_1_n_n none A B (constant (F := Ideal) S2000x64 .f32 0x00000000#32) (ix2 p q)
      = ∑ k : Fin 64, A (ix2 p k) * B (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_lay_0 _ _
    | ⟨1, _⟩ => exact (lhs_lay_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_lay_0 _ _).trans hk
    | ⟨1, _⟩ => exact rhs_lay_1 _ _)
  rw [el, er]

/-- A one-row bias spread over the rows of a block reads its one row. -/
theorem bias_apply (b : FVec Ideal S1x64 .f32) (p : Fin 2000) (q : Fin 64) :
    broadcastTo S2000x64 (shapeCast S1x64 b shapeCasts_S1x64_S1x64) broadcasts_S1x64_S2000x64 (ix2 p q) = b (ix2 (0 : Fin 1) q) := by
  rw [shapeCast_self]
  refine broadcastTo_apply b broadcasts_S1x64_S2000x64 (ix2 p q) (ix2 (0 : Fin 1) q) fun a => ?_
  match a with
  | ⟨0, _⟩ => rfl
  | ⟨1, _⟩ => rfl

/-! ## The body's stored values, entry by entry

At the extended reals a change of float format is the identity, so the embedded block is the block of rows times the
embedding weights plus the embedding bias, and each stored value is that block times a layer weight, plus its bias where
there is one. -/

/-- The embedded block, at row `p` and column `k`. -/
theorem embedBlock_apply (x0 : Vec Ideal S2000x4 .f32) (x2 : Vec Ideal S4x64 .f32) (x5 : Vec Ideal S1x64 .f32)
    (p : Fin 2000) (k : Fin 64) :
    k0_pay1 x0 x2 x5 (ix2 p k) = ∑ j : Fin 4, x0 (ix2 p j) * x2 (ix2 j k) + x5 (ix2 (0 : Fin 1) k) := by
  unfold k0_pay1
  show matmul dot_S2000x4_S4x64_S2000x64_1_0_0_1_n_n none (truncf .bf16 x0 bitsLt_bf16_f32) (truncf .bf16 x2 bitsLt_bf16_f32)
      (constant (F := Ideal) S2000x64 .f32 0x00000000#32) (ix2 p k)
    + broadcastTo S2000x64 (shapeCast S1x64 x5 shapeCasts_S1x64_S1x64) broadcasts_S1x64_S2000x64 (ix2 p k) = _
  rw [matmul_emb_apply, bias_apply]
  rfl

/-- The first stored value: the embedded block times a weight matrix, plus a bias row. -/
theorem affineBlock_apply (x0 : Vec Ideal S2000x4 .f32) (x2 : Vec Ideal S4x64 .f32) (x5 : Vec Ideal S1x64 .f32)
    (x10 : Vec Ideal S64x64 .f32) (x20 : Vec Ideal S1x64 .f32) (p : Fin 2000) (q : Fin 64) :
    k0_pay2 x0 x2 x5 x10 x20 (ix2 p q)
      = ∑ k : Fin 64, (∑ j : Fin 4, x0 (ix2 p j) * x2 (ix2 j k) + x5 (ix2 (0 : Fin 1) k)) * x10 (ix2 k q) + x20 (ix2 (0 : Fin 1) q) := by
  unfold k0_pay2
  show matmul dot_S2000x64_S64x64_S2000x64_1_0_0_1_n_n none (k0_pay1 x0 x2 x5)
      (truncf .bf16 (shapeCast S64x64 x10 shapeCasts_S64x64_S64x64) bitsLt_bf16_f32)
      (constant (F := Ideal) S2000x64 .f32 0x00000000#32) (ix2 p q)
    + broadcastTo S2000x64 (shapeCast S1x64 x20 shapeCasts_S1x64_S1x64) broadcasts_S1x64_S2000x64 (ix2 p q) = _
  rw [matmul_lay_apply, bias_apply, shapeCast_self]
  refine congrArg (· + x20 (ix2 (0 : Fin 1) q)) (Finset.sum_congr rfl fun k _ => ?_)
  exact congrArg (· * x10 (ix2 k q)) (embedBlock_apply x0 x2 x5 p k)

/-- The second stored value: the embedded block times a weight matrix. -/
theorem linearBlock_apply (x0 : Vec Ideal S2000x4 .f32) (x2 : Vec Ideal S4x64 .f32) (x5 : Vec Ideal S1x64 .f32)
    (x13 : Vec Ideal S64x64 .f32) (p : Fin 2000) (q : Fin 64) :
    k0_pay3 x0 x2 x5 x13 (ix2 p q)
      = ∑ k : Fin 64, (∑ j : Fin 4, x0 (ix2 p j) * x2 (ix2 j k) + x5 (ix2 (0 : Fin 1) k)) * x13 (ix2 k q) := by
  unfold k0_pay3
  show matmul dot_S2000x64_S64x64_S2000x64_1_0_0_1_n_n none (k0_pay1 x0 x2 x5)
      (truncf .bf16 (shapeCast S64x64 x13 shapeCasts_S64x64_S64x64) bitsLt_bf16_f32)
      (constant (F := Ideal) S2000x64 .f32 0x00000000#32) (ix2 p q) = _
  rw [matmul_lay_apply, shapeCast_self]
  refine Finset.sum_congr rfl fun k _ => ?_
  exact congrArg (· * x13 (ix2 k q)) (embedBlock_apply x0 x2 x5 p k)

/-- The third stored value has the first one's form. -/
theorem rootBlock_apply (x0 : Vec Ideal S2000x4 .f32) (x2 : Vec Ideal S4x64 .f32) (x5 : Vec Ideal S1x64 .f32)
    (x16 : Vec Ideal S64x64 .f32) (x28 : Vec Ideal S1x64 .f32) (p : Fin 2000) (q : Fin 64) :
    k0_pay4 x0 x2 x5 x16 x28 (ix2 p q)
      = ∑ k : Fin 64, (∑ j : Fin 4, x0 (ix2 p j) * x2 (ix2 j k) + x5 (ix2 (0 : Fin 1) k)) * x16 (ix2 k q) + x28 (ix2 (0 : Fin 1) q) := by
  unfold k0_pay4
  show matmul dot_S2000x64_S64x64_S2000x64_1_0_0_1_n_n none (k0_pay1 x0 x2 x5)
      (truncf .bf16 (shapeCast S64x64 x16 shapeCasts_S64x64_S64x64) bitsLt_bf16_f32)
      (constant (F := Ideal) S2000x64 .f32 0x00000000#32) (ix2 p q)
    + broadcastTo S2000x64 (shapeCast S1x64 x28 shapeCasts_S1x64_S1x64) broadcasts_S1x64_S2000x64 (ix2 p q) = _
  rw [matmul_lay_apply, bias_apply, shapeCast_self]
  refine congrArg (· + x28 (ix2 (0 : Fin 1) q)) (Finset.sum_congr rfl fun k _ => ?_)
  exact congrArg (· * x16 (ix2 k q)) (embedBlock_apply x0 x2 x5 p k)

/-! ## A block of the body against the whole-array maps

Row `p` of the block a point stores is row `T · 2000 + p` of the whole-array affine map, once each loaded block is
known to be the corresponding part of its array. -/

/-- The first stored block is the matching block of rows of `lin (lin X We be) W b`. -/
theorem affineBlock_eq_lin (X : Gnn.Arr2 100000 4) (We : Gnn.Arr2 4 64) (be : Gnn.Arr2 1 64) (W : Gnn.Arr2 64 64) (b : Gnn.Arr2 1 64)
    (x0 : Vec Ideal S2000x4 .f32) (x2 : Vec Ideal S4x64 .f32) (x5 : Vec Ideal S1x64 .f32) (x10 : Vec Ideal S64x64 .f32)
    (x20 : Vec Ideal S1x64 .f32) (T : ℕ)
    (h0 : ∀ (p : Fin 2000) (j : Fin 4) (r : Fin 100000), r.val = T * 2000 + p.val → x0 (ix2 p j) = X (ix2 r j))
    (h2 : ∀ (j : Fin 4) (k : Fin 64), x2 (ix2 j k) = We (ix2 j k))
    (h5 : ∀ k : Fin 64, x5 (ix2 (0 : Fin 1) k) = be (ix2 (0 : Fin 1) k))
    (h10 : ∀ (k q : Fin 64), x10 (ix2 k q) = W (ix2 k q))
    (h20 : ∀ q : Fin 64, x20 (ix2 (0 : Fin 1) q) = b (ix2 (0 : Fin 1) q))
    (y : S2000x64.Idx) (i : S100000x64.Idx) (hi0 : (i 0).val = T * 2000 + (y 0).val) (hi1 : (i 1).val = (y 1).val) :
    k0_pay2 x0 x2 x5 x10 x20 y = Gnn.lin (Gnn.lin X We be) W b i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  have hr : r.val = T * 2000 + p.val := hi0
  obtain rfl : s = q := Fin.ext hi1
  rw [affineBlock_apply]
  show _ = ∑ k : Fin 64, (∑ j : Fin 4, X (ix2 r j) * We (ix2 j k) + be (ix2 (0 : Fin 1) k)) * W (ix2 k s) + b (ix2 (0 : Fin 1) s)
  rw [h20 s]
  refine congrArg (· + b (ix2 (0 : Fin 1) s)) (Finset.sum_congr rfl fun k _ => ?_)
  rw [h10 k s, h5 k]
  refine congrArg (· * W (ix2 k s)) (congrArg (· + be (ix2 (0 : Fin 1) k)) (Finset.sum_congr rfl fun j _ => ?_))
  rw [h0 p j r hr, h2 j k]

/-- The second stored block is the matching block of rows of `mm (lin X We be) W`. -/
theorem linearBlock_eq_mm (X : Gnn.Arr2 100000 4) (We : Gnn.Arr2 4 64) (be : Gnn.Arr2 1 64) (W : Gnn.Arr2 64 64)
    (x0 : Vec Ideal S2000x4 .f32) (x2 : Vec Ideal S4x64 .f32) (x5 : Vec Ideal S1x64 .f32) (x13 : Vec Ideal S64x64 .f32) (T : ℕ)
    (h0 : ∀ (p : Fin 2000) (j : Fin 4) (r : Fin 100000), r.val = T * 2000 + p.val → x0 (ix2 p j) = X (ix2 r j))
    (h2 : ∀ (j : Fin 4) (k : Fin 64), x2 (ix2 j k) = We (ix2 j k))
    (h5 : ∀ k : Fin 64, x5 (ix2 (0 : Fin 1) k) = be (ix2 (0 : Fin 1) k))
    (h13 : ∀ (k q : Fin 64), x13 (ix2 k q) = W (ix2 k q))
    (y : S2000x64.Idx) (i : S100000x64.Idx) (hi0 : (i 0).val = T * 2000 + (y 0).val) (hi1 : (i 1).val = (y 1).val) :
    k0_pay3 x0 x2 x5 x13 y = Gnn.mm (Gnn.lin X We be) W i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  have hr : r.val = T * 2000 + p.val := hi0
  obtain rfl : s = q := Fin.ext hi1
  rw [linearBlock_apply]
  show _ = ∑ k : Fin 64, (∑ j : Fin 4, X (ix2 r j) * We (ix2 j k) + be (ix2 (0 : Fin 1) k)) * W (ix2 k s)
  refine Finset.sum_congr rfl fun k _ => ?_
  rw [h13 k s, h5 k]
  refine congrArg (· * W (ix2 k s)) (congrArg (· + be (ix2 (0 : Fin 1) k)) (Finset.sum_congr rfl fun j _ => ?_))
  rw [h0 p j r hr, h2 j k]

/-- The third stored block is the matching block of rows of `lin (lin X We be) W b`. -/
theorem rootBlock_eq_lin (X : Gnn.Arr2 100000 4) (We : Gnn.Arr2 4 64) (be : Gnn.Arr2 1 64) (W : Gnn.Arr2 64 64) (b : Gnn.Arr2 1 64)
    (x0 : Vec Ideal S2000x4 .f32) (x2 : Vec Ideal S4x64 .f32) (x5 : Vec Ideal S1x64 .f32) (x16 : Vec Ideal S64x64 .f32)
    (x28 : Vec Ideal S1x64 .f32) (T : ℕ)
    (h0 : ∀ (p : Fin 2000) (j : Fin 4) (r : Fin 100000), r.val = T * 2000 + p.val → x0 (ix2 p j) = X (ix2 r j))
    (h2 : ∀ (j : Fin 4) (k : Fin 64), x2 (ix2 j k) = We (ix2 j k))
    (h5 : ∀ k : Fin 64, x5 (ix2 (0 : Fin 1) k) = be (ix2 (0 : Fin 1) k))
    (h16 : ∀ (k q : Fin 64), x16 (ix2 k q) = W (ix2 k q))
    (h28 : ∀ q : Fin 64, x28 (ix2 (0 : Fin 1) q) = b (ix2 (0 : Fin 1) q))
    (y : S2000x64.Idx) (i : S100000x64.Idx) (hi0 : (i 0).val = T * 2000 + (y 0).val) (hi1 : (i 1).val = (y 1).val) :
    k0_pay4 x0 x2 x5 x16 x28 y = Gnn.lin (Gnn.lin X We be) W b i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  have hr : r.val = T * 2000 + p.val := hi0
  obtain rfl : s = q := Fin.ext hi1
  rw [rootBlock_apply]
  show _ = ∑ k : Fin 64, (∑ j : Fin 4, X (ix2 r j) * We (ix2 j k) + be (ix2 (0 : Fin 1) k)) * W (ix2 k s) + b (ix2 (0 : Fin 1) s)
  rw [h28 s]
  refine congrArg (· + b (ix2 (0 : Fin 1) s)) (Finset.sum_congr rfl fun k _ => ?_)
  rw [h16 k s, h5 k]
  refine congrArg (· * W (ix2 k s)) (congrArg (· + be (ix2 (0 : Fin 1) k)) (Finset.sum_congr rfl fun j _ => ?_))
  rw [h0 p j r hr, h2 j k]

/-! ## Where each window's block sits at a grid point -/

theorem zeroOffsets : (![0, 0] : Fin 2 → Nat) = fun _ => 0 := funext fun a => by fin_cases a <;> rfl

/-- The index maps over the fifty grid points: the node rows and the three outputs move with the point, one block of
    2000 rows per point; every weight and bias window stays at its one block. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The block of node rows at point `t` is rows `2000 t … 2000 t + 1999` of the node inputs. -/
theorem rowsBlock_apply (c : Dev nD) (t : Fin cfg0.N) (p : Fin 2000) (j : Fin 4) (r : Fin 100000)
    (hr : r.val = t.val * 2000 + p.val) :
    (iblk0 V c 0 t : Vec Ideal S2000x4 .f32) (ix2 p j) = (V c main_arg0 : Gnn.Arr2 100000 4) (ix2 r j) := by
  obtain ⟨e0, e1, -⟩ := blockIndex t
  show V c main_arg0 (((cfg0.win 0).blk t).view.emb (ix2 p j)) = _
  refine congrArg _ (funext fun a => Fin.ext ?_)
  match a with
  | ⟨0, _⟩ => show win0_0.index t (0 : Fin 2) * 2000 + 1 * p.val = r.val; omega
  | ⟨1, _⟩ => show win0_0.index t (1 : Fin 2) * 4 + 1 * j.val = j.val; omega

/-- The embedding weights' one block is the whole array, at every point. -/
theorem embWeightBlock_apply (c : Dev nD) (t : Fin cfg0.N) (j : Fin 4) (k : Fin 64) :
    (iblk0 V c 1 t : Vec Ideal S4x64 .f32) (ix2 j k) = (V c main_arg4 : Gnn.Arr2 4 64) (ix2 j k) := by
  obtain ⟨-, -, e0, e1, -⟩ := blockIndex t
  show V c main_arg4 (((cfg0.win 1).blk t).view.emb (ix2 j k)) = _
  refine congrArg _ (funext fun a => Fin.ext ?_)
  match a with
  | ⟨0, _⟩ => show win0_1.index t (0 : Fin 2) * 4 + 1 * j.val = j.val; omega
  | ⟨1, _⟩ => show win0_1.index t (1 : Fin 2) * 64 + 1 * k.val = k.val; omega

/-- So is the embedding bias's. -/
theorem embBiasBlock_apply (c : Dev nD) (t : Fin cfg0.N) (k : Fin 64) :
    (iblk0 V c 2 t : Vec Ideal S1x64 .f32) (ix2 (0 : Fin 1) k) = (V c main_v6 : Gnn.Arr2 1 64) (ix2 (0 : Fin 1) k) := by
  obtain ⟨-, -, -, -, e0, e1, -⟩ := blockIndex t
  show V c main_v6 (((cfg0.win 2).blk t).view.emb (ix2 (0 : Fin 1) k)) = _
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

/-- The first layer weight's. -/
theorem weightBlock3_apply (c : Dev nD) (t : Fin cfg0.N) (k q : Fin 64) :
    (iblk0 V c 3 t : Vec Ideal S64x64 .f32) (ix2 k q) = (V c main_v12 : Gnn.Arr2 64 64) (ix2 k q) := by
  obtain ⟨-, -, -, -, -, -, e0, e1, -⟩ := blockIndex t
  show V c main_v12 (((cfg0.win 3).blk t).view.emb (ix2 k q)) = _
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- The first layer bias's. -/
theorem biasBlock4_apply (c : Dev nD) (t : Fin cfg0.N) (q : Fin 64) :
    (iblk0 V c 4 t : Vec Ideal S1x64 .f32) (ix2 (0 : Fin 1) q) = (V c main_v14 : Gnn.Arr2 1 64) (ix2 (0 : Fin 1) q) := by
  obtain ⟨-, -, -, -, -, -, -, -, e0, e1, -⟩ := blockIndex t
  show V c main_v14 (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- The second layer weight's. -/
theorem weightBlock5_apply (c : Dev nD) (t : Fin cfg0.N) (k q : Fin 64) :
    (iblk0 V c 5 t : Vec Ideal S64x64 .f32) (ix2 k q) = (V c main_v16 : Gnn.Arr2 64 64) (ix2 k q) := by
  obtain ⟨-, -, -, -, -, -, -, -, -, -, e0, e1, -⟩ := blockIndex t
  show V c main_v16 (((cfg0.win 5).blk t).view.emb (ix2 k q)) = _
  refine congrArg _ (funext fun a => Fin.ext ?_)
  match a with
  | ⟨0, _⟩ => show win0_5.index t (0 : Fin 2) * 64 + 1 * k.val = k.val; omega
  | ⟨1, _⟩ => show win0_5.index t (1 : Fin 2) * 64 + 1 * q.val = q.val; omega

/-- The root weight's. -/
theorem weightBlock6_apply (c : Dev nD) (t : Fin cfg0.N) (k q : Fin 64) :
    (iblk0 V c 6 t : Vec Ideal S64x64 .f32) (ix2 k q) = (V c main_v18 : Gnn.Arr2 64 64) (ix2 k q) := by
  obtain ⟨-, -, -, -, -, -, -, -, -, -, -, -, e0, e1, -⟩ := blockIndex t
  show V c main_v18 (((cfg0.win 6).blk t).view.emb (ix2 k q)) = _
  refine congrArg _ (funext fun a => Fin.ext ?_)
  match a with
  | ⟨0, _⟩ => show win0_6.index t (0 : Fin 2) * 64 + 1 * k.val = k.val; omega
  | ⟨1, _⟩ => show win0_6.index t (1 : Fin 2) * 64 + 1 * q.val = q.val; omega

/-- The root bias's. -/
theorem biasBlock7_apply (c : Dev nD) (t : Fin cfg0.N) (q : Fin 64) :
    (iblk0 V c 7 t : Vec Ideal S1x64 .f32) (ix2 (0 : Fin 1) q) = (V c main_v20 : Gnn.Arr2 1 64) (ix2 (0 : Fin 1) q) := by
  obtain ⟨-, -, -, -, -, -, -, -, -, -, -, -, -, -, e0, e1, -⟩ := blockIndex t
  show V c main_v20 (((cfg0.win 7).blk t).view.emb (ix2 (0 : Fin 1) q)) = _
  refine congrArg _ (funext fun a => Fin.ext ?_)
  match a with
  | ⟨0, _⟩ => show win0_7.index t (0 : Fin 2) * 1 + 1 * 0 = 0; omega
  | ⟨1, _⟩ => show win0_7.index t (1 : Fin 2) * 64 + 1 * q.val = q.val; omega

/-! ## What a point writes back, and the arrays after the region -/

/-- Point `t` writes back, to the first output, block `t` of the first affine map of the embedding. -/
theorem flushed8_eq (c : Dev nD) (t : Fin cfg0.N) :
    (dat0 (F := Ideal) V c).flushed 8 t
      = ((cfg0.win 8).blk t).view.read (Elt Ideal) (Gnn.lin (h0 V c) (V c main_v12) (V c main_v14)) := by
  show (cfg0.win 8).cut (grid0.coords t) ((dat0 V c).after 8 t) = _
  rw [after0_8]
  unfold out0_8
  rw [View.canon_unit_zero zeroOffsets]
  simp only [View.ld_unit_zero (S := S2000x4) zeroOffsets, View.ld_unit_zero (S := S4x64) zeroOffsets,
    View.ld_unit_zero (S := S1x64) zeroOffsets, View.ld_unit_zero (S := S64x64) zeroOffsets]
  obtain ⟨-, -, -, -, -, -, -, -, -, -, -, -, -, -, -, -, e0, e1, -⟩ := blockIndex t
  funext y
  show k0_pay2 (iblk0 V c 0 t) (iblk0 V c 1 t) (iblk0 V c 2 t) (iblk0 V c 3 t) (iblk0 V c 4 t)
      ((cfg0.win 8).xinj (grid0.coords t) y)
    = Gnn.lin (h0 V c) (V c main_v12) (V c main_v14) (((cfg0.win 8).blk t).view.emb y)
  refine affineBlock_eq_lin (V c main_arg0) (V c main_arg4) (V c main_v6) (V c main_v12) (V c main_v14) _ _ _ _ _ t.val
    (rowsBlock_apply V c t) (embWeightBlock_apply V c t) (embBiasBlock_apply V c t) (weightBlock3_apply V c t)
    (biasBlock4_apply V c t) _ _ ?_ ?_
  · show win0_8.index t (0 : Fin 2) * 2000 + 1 * (y 0).val = t.val * 2000 + (y 0).val; omega
  · show win0_8.index t (1 : Fin 2) * 64 + 1 * (y 1).val = (y 1).val; omega

/-- A row of the output array lies in point `t`'s block of the first output iff it is one of that block's 2000 rows. -/
theorem mem_block8 (t : Fin cfg0.N) (i : S100000x64.Idx) :
    i ∈ ((cfg0.win 8).blk t).view.set ↔ ∀ a : Fin 2, win0_8.index t a * S2000x64.size a ≤ (i a).val ∧ (i a).val < win0_8.index t a * S2000x64.size a + S2000x64.size a := by
  show i ∈ ((View.whole main_v21_0).slice (win0_8.rect t)).set ↔ _
  rw [View.set_slice_whole, Rect.mem_set_unit]
  exact Iff.rfl

/-- Every block index below fifty is some point's. -/
theorem pointOfBlock (n : ℕ) (hn : n < 50) : ∃ t : Fin cfg0.N, t.val = n :=
  ⟨⟨n, by rw [show cfg0.N = 50 from N_0]; exact hn⟩, rfl⟩

/-- The fifty blocks cover the first output: row `r` is in the block of point `r / 2000`. -/
theorem cover8 (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  obtain ⟨t, ht⟩ := pointOfBlock ((i 0).val / 2000) (by omega)
  obtain ⟨-, -, -, -, -, -, -, -, -, -, -, -, -, -, -, -, e0, e1, -⟩ := blockIndex t
  refine ⟨t, flush0_8 t, ?_⟩
  rw [mem_block8]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 64 ≤ (i 1).val ∧ (i 1).val < win0_8.index t (1 : Fin 2) * 64 + 64; omega

/-- Output window 8 ends at the first affine map of the embedding. -/
theorem a_eq (c : Dev nD) :
    (dat0 (F := Ideal) V c).arrAt 8 cfg0.N = Gnn.lin (h0 V c) (V c main_v12) (V c main_v14) :=
  (dat0 (F := Ideal) V c).arrAt_eq_of_cover 8 (Gnn.lin (h0 V c) (V c main_v12) (V c main_v14))
    (fun t _ => flushed8_eq V c t) cover8

/-- Point `t` writes back, to the second output, block `t` of the embedding times the second weight. -/
theorem flushed9_eq (c : Dev nD) (t : Fin cfg0.N) :
    (dat0 (F := Ideal) V c).flushed 9 t
      = ((cfg0.win 9).blk t).view.read (Elt Ideal) (Gnn.mm (h0 V c) (V c main_v16)) := by
  show (cfg0.win 9).cut (grid0.coords t) ((dat0 V c).after 9 t) = _
  rw [after0_9]
  unfold out0_9
  rw [View.canon_unit_zero zeroOffsets]
  simp only [View.ld_unit_zero (S := S2000x4) zeroOffsets, View.ld_unit_zero (S := S4x64) zeroOffsets,
    View.ld_unit_zero (S := S1x64) zeroOffsets, View.ld_unit_zero (S := S64x64) zeroOffsets]
  obtain ⟨-, -, -, -, -, -, -, -, -, -, -, -, -, -, -, -, -, -, e0, e1, -⟩ := blockIndex t
  funext y
  show k0_pay3 (iblk0 V c 0 t) (iblk0 V c 1 t) (iblk0 V c 2 t) (iblk0 V c 5 t)
      ((cfg0.win 9).xinj (grid0.coords t) y)
    = Gnn.mm (h0 V c) (V c main_v16) (((cfg0.win 9).blk t).view.emb y)
  refine linearBlock_eq_mm (V c main_arg0) (V c main_arg4) (V c main_v6) (V c main_v16) _ _ _ _ t.val
    (rowsBlock_apply V c t) (embWeightBlock_apply V c t) (embBiasBlock_apply V c t) (weightBlock5_apply V c t) _ _ ?_ ?_
  · show win0_9.index t (0 : Fin 2) * 2000 + 1 * (y 0).val = t.val * 2000 + (y 0).val; omega
  · show win0_9.index t (1 : Fin 2) * 64 + 1 * (y 1).val = (y 1).val; omega

theorem mem_block9 (t : Fin cfg0.N) (i : S100000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v21_1).slice (win0_9.rect t)).set ↔ _
  rw [View.set_slice_whole, Rect.mem_set_unit]
  exact Iff.rfl

/-- The fifty blocks cover the second output. -/
theorem cover9 (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ := pointOfBlock ((i 0).val / 2000) (by omega)
  obtain ⟨-, -, -, -, -, -, -, -, -, -, -, -, -, -, -, -, -, -, e0, e1, -⟩ := blockIndex t
  refine ⟨t, flush0_9 t, ?_⟩
  rw [mem_block9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 64 ≤ (i 1).val ∧ (i 1).val < win0_9.index t (1 : Fin 2) * 64 + 64; omega

/-- Output window 9 ends at the second, which has no bias. -/
theorem b_eq (c : Dev nD) :
    (dat0 (F := Ideal) V c).arrAt 9 cfg0.N = Gnn.mm (h0 V c) (V c main_v16) :=
  (dat0 (F := Ideal) V c).arrAt_eq_of_cover 9 (Gnn.mm (h0 V c) (V c main_v16))
    (fun t _ => flushed9_eq V c t) cover9

/-- Point `t` writes back, to the third output, block `t` of the root term. -/
theorem flushed10_eq (c : Dev nD) (t : Fin cfg0.N) :
    (dat0 (F := Ideal) V c).flushed 10 t
      = ((cfg0.win 10).blk t).view.read (Elt Ideal) (Gnn.lin (h0 V c) (V c main_v18) (V c main_v20)) := by
  show (cfg0.win 10).cut (grid0.coords t) ((dat0 V c).after 10 t) = _
  rw [after0_10]
  unfold out0_10
  rw [View.canon_unit_zero zeroOffsets]
  simp only [View.ld_unit_zero (S := S2000x4) zeroOffsets, View.ld_unit_zero (S := S4x64) zeroOffsets,
    View.ld_unit_zero (S := S1x64) zeroOffsets, View.ld_unit_zero (S := S64x64) zeroOffsets]
  obtain ⟨-, -, -, -, -, -, -, -, -, -, -, -, -, -, -, -, -, -, -, -, e0, e1⟩ := blockIndex t
  funext y
  show k0_pay4 (iblk0 V c 0 t) (iblk0 V c 1 t) (iblk0 V c 2 t) (iblk0 V c 6 t) (iblk0 V c 7 t)
      ((cfg0.win 10).xinj (grid0.coords t) y)
    = Gnn.lin (h0 V c) (V c main_v18) (V c main_v20) (((cfg0.win 10).blk t).view.emb y)
  refine rootBlock_eq_lin (V c main_arg0) (V c main_arg4) (V c main_v6) (V c main_v18) (V c main_v20) _ _ _ _ _ t.val
    (rowsBlock_apply V c t) (embWeightBlock_apply V c t) (embBiasBlock_apply V c t) (weightBlock6_apply V c t)
    (biasBlock7_apply V c t) _ _ ?_ ?_
  · show win0_10.index t (0 : Fin 2) * 2000 + 1 * (y 0).val = t.val * 2000 + (y 0).val; omega
  · show win0_10.index t (1 : Fin 2) * 64 + 1 * (y 1).val = (y 1).val; omega

theorem mem_block10 (t : Fin cfg0.N) (i : S100000x64.Idx) :
    i ∈ ((cfg0.win 10).blk t).view.set ↔ ∀ a : Fin 2, win0_10.index t a * S2000x64.size a ≤ (i a).val ∧ (i a).val < win0_10.index t a * S2000x64.size a + S2000x64.size a := by
  show i ∈ ((View.whole main_v21_2).slice (win0_10.rect t)).set ↔ _
  rw [View.set_slice_whole, Rect.mem_set_unit]
  exact Iff.rfl

/-- The fifty blocks cover the third output. -/
theorem cover10 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  obtain ⟨t, ht⟩ := pointOfBlock ((i 0).val / 2000) (by omega)
  obtain ⟨-, -, -, -, -, -, -, -, -, -, -, -, -, -, -, -, -, -, -, -, e0, e1⟩ := blockIndex t
  refine ⟨t, flush0_10 t, ?_⟩
  rw [mem_block10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 64 ≤ (i 1).val ∧ (i 1).val < win0_10.index t (1 : Fin 2) * 64 + 64; omega

/-- Output window 10 ends at the root term. -/
theorem c_eq (c : Dev nD) :
    (dat0 (F := Ideal) V c).arrAt 10 cfg0.N = Gnn.lin (h0 V c) (V c main_v18) (V c main_v20) :=
  (dat0 (F := Ideal) V c).arrAt_eq_of_cover 10 (Gnn.lin (h0 V c) (V c main_v18) (V c main_v20))
    (fun t _ => flushed10_eq V c t) cover10

end Cert.KernelIdeal.Embed

end
-- ==== Proof.LayerRegion1.lean ====
/-
  The second kernel region, read as whole arrays: it joins the aggregated messages and the previous root term, clips at
  zero, and forms the three affine maps of the next layer from the result. Each grid point handles 2000 consecutive
  rows and the fifty row blocks tile the node axis.
-/
import proofs.«419727_j75720273429180_1_alg».proof.Proof.Gen.KernelIdeal.Frame
import proofs.«419727_j75720273429180_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Layer1

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The node table the region starts its maps from. -/
abbrev nodes (c : Dev nD) : Gnn.Arr2 100000 64 := Gnn.node (V c main_v29) (V c main_v21_2)

/-- Every access of the body starts at the corner of its block. -/
theorem hz : (![0, 0] : Fin 2 → Nat) = fun _ => 0 := funext fun a => by fin_cases a <;> rfl

/-! ## A block product at an index

The product of a 2000 × 64 block with a 64 × 64 matrix contracts the block's columns against the matrix's rows: the
left operand is read at (row of the result, contracted position), the right one at (contracted position, column of
the result). -/

theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A block product into a zero accumulator, read at row `p` and column `q`: the sum over the 64 contracted positions
    of the products of the operands' entries. -/
theorem blockProduct_apply (A : FVec Ideal S2000x64 .bf16) (W : FVec Ideal S64x64 .bf16) (p : Fin 2000) (q : Fin 64) :
    matmul dot_S2000x64_S64x64_S2000x64_1_0_0_1_n_n none A W (constant (F := Ideal) S2000x64 .f32 0x00000000#32) (ix2 p q)
      = ∑ k : Fin 64, A (ix2 p k) * W (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_row _ _
    | ⟨1, _⟩ => exact (lhs_col _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The body's stored values at an index

The body adds its two row blocks, clips the sum at zero (the maximum with the zero word, which is the real number 0),
and multiplies the result by each of three 64 × 64 matrices; two of the products get a bias row added to every row. The
changes of float format in between are the identity on extended reals. -/

/-- The clipped sum of the two row blocks. -/
theorem clipped_apply (x0 x1 : Vec Ideal S2000x64 .f32) (p : Fin 2000) (k : Fin 64) :
    k1_pay1 (F := Ideal) x0 x1 (ix2 p k) = max (x0 (ix2 p k) + x1 (ix2 p k)) 0 := by
  unfold k1_pay1
  simp only [shapeCast_self]
  show max (x0 (ix2 p k) + x1 (ix2 p k)) (Ideal.ofBits .f32 0x00000000#32) = _
  rw [Ideal.ofBits_zero_f32]

/-- The first stored block: the clipped sum times the first matrix, plus the first bias row. -/
theorem srcMap_apply (x0 x1 : Vec Ideal S2000x64 .f32) (w : Vec Ideal S64x64 .f32) (b : Vec Ideal S1x64 .f32) (p : Fin 2000) (q : Fin 64) :
    k1_pay2 (F := Ideal) x0 x1 w b (ix2 p q)
      = (∑ k : Fin 64, max (x0 (ix2 p k) + x1 (ix2 p k)) 0 * w (ix2 k q)) + b (ix2 (0 : Fin 1) q) := by
  unfold k1_pay2
  simp only [shapeCast_self]
  refine (addf_apply _ _ _).trans ?_
  refine congrArg₂ (· + ·) ?_ ?_
  · refine (blockProduct_apply _ _ p q).trans ?_
    refine Finset.sum_congr rfl fun k _ => ?_
    rw [clipped_apply]
    rfl
  · exact broadcastTo_1b_ab_apply _ _ p q

/-- The second stored block: the clipped sum times the second matrix. -/
theorem dstMap_apply (x0 x1 : Vec Ideal S2000x64 .f32) (w : Vec Ideal S64x64 .f32) (p : Fin 2000) (q : Fin 64) :
    k1_pay3 (F := Ideal) x0 x1 w (ix2 p q) = ∑ k : Fin 64, max (x0 (ix2 p k) + x1 (ix2 p k)) 0 * w (ix2 k q) := by
  unfold k1_pay3
  simp only [shapeCast_self]
  refine (blockProduct_apply _ _ p q).trans ?_
  refine Finset.sum_congr rfl fun k _ => ?_
  rw [clipped_apply]
  rfl

/-- The third stored block: the clipped sum times the third matrix, plus the second bias row. -/
theorem rootMap_apply (x0 x1 : Vec Ideal S2000x64 .f32) (w : Vec Ideal S64x64 .f32) (b : Vec Ideal S1x64 .f32) (p : Fin 2000) (q : Fin 64) :
    k1_pay4 (F := Ideal) x0 x1 w b (ix2 p q)
      = (∑ k : Fin 64, max (x0 (ix2 p k) + x1 (ix2 p k)) 0 * w (ix2 k q)) + b (ix2 (0 : Fin 1) q) := by
  unfold k1_pay4
  simp only [shapeCast_self]
  refine (addf_apply _ _ _).trans ?_
  refine congrArg₂ (· + ·) ?_ ?_
  · refine (blockProduct_apply _ _ p q).trans ?_
    refine Finset.sum_congr rfl fun k _ => ?_
    rw [clipped_apply]
    rfl
  · exact broadcastTo_1b_ab_apply _ _ p q

/-! ## The stored blocks against the specification, over plain blocks and arrays

If the two row blocks are rows `r`, `r + 1`, … of the aggregated messages `A` and of the root term `R`, and the weight
and bias blocks are the whole `W` and `B`, then entry `j` of a stored block is entry `i` of the corresponding map of the
node table `node A R`, where `i` is `j` moved down by `r` rows: a row of the product only reads the same row of the
node table. -/

theorem srcMap_block (x0 x1 : Vec Ideal S2000x64 .f32) (w : Vec Ideal S64x64 .f32) (b : Vec Ideal S1x64 .f32)
    (A R : Gnn.Arr2 100000 64) (W : Gnn.Arr2 64 64) (B : Gnn.Arr2 1 64) (r : ℕ)
    (hx0 : ∀ (y : S2000x64.Idx) (z : S100000x64.Idx), (z 0).val = r + (y 0).val → (z 1).val = (y 1).val → x0 y = A z)
    (hx1 : ∀ (y : S2000x64.Idx) (z : S100000x64.Idx), (z 0).val = r + (y 0).val → (z 1).val = (y 1).val → x1 y = R z)
    (hw : w = W) (hb : b = B)
    (j : S2000x64.Idx) (i : S100000x64.Idx) (hi0 : (i 0).val = r + (j 0).val) (hi1 : (i 1).val = (j 1).val) :
    k1_pay2 (F := Ideal) x0 x1 w b j = Gnn.lin (Gnn.node A R) W B i := by
  subst hw hb
  obtain ⟨p, q, rfl⟩ : ∃ (p : Fin 2000) (q : Fin 64), j = ix2 p q := ⟨j 0, j 1, eq_ix2 j⟩
  obtain ⟨r', q', rfl⟩ : ∃ (r' : Fin 100000) (q' : Fin 64), i = ix2 r' q' := ⟨i 0, i 1, eq_ix2 i⟩
  obtain rfl : q' = q := Fin.ext hi1
  rw [srcMap_apply]
  show _ = (∑ k : Fin 64, max (A (ix2 r' k) + R (ix2 r' k)) 0 * w (ix2 k q')) + b (ix2 (0 : Fin 1) q')
  refine congrArg (· + _) (Finset.sum_congr rfl fun k _ => ?_)
  rw [hx0 (ix2 p k) (ix2 r' k) hi0 rfl, hx1 (ix2 p k) (ix2 r' k) hi0 rfl]

theorem dstMap_block (x0 x1 : Vec Ideal S2000x64 .f32) (w : Vec Ideal S64x64 .f32)
    (A R : Gnn.Arr2 100000 64) (W : Gnn.Arr2 64 64) (r : ℕ)
    (hx0 : ∀ (y : S2000x64.Idx) (z : S100000x64.Idx), (z 0).val = r + (y 0).val → (z 1).val = (y 1).val → x0 y = A z)
    (hx1 : ∀ (y : S2000x64.Idx) (z : S100000x64.Idx), (z 0).val = r + (y 0).val → (z 1).val = (y 1).val → x1 y = R z)
    (hw : w = W)
    (j : S2000x64.Idx) (i : S100000x64.Idx) (hi0 : (i 0).val = r + (j 0).val) (hi1 : (i 1).val = (j 1).val) :
    k1_pay3 (F := Ideal) x0 x1 w j = Gnn.mm (Gnn.node A R) W i := by
  subst hw
  obtain ⟨p, q, rfl⟩ : ∃ (p : Fin 2000) (q : Fin 64), j = ix2 p q := ⟨j 0, j 1, eq_ix2 j⟩
  obtain ⟨r', q', rfl⟩ : ∃ (r' : Fin 100000) (q' : Fin 64), i = ix2 r' q' := ⟨i 0, i 1, eq_ix2 i⟩
  obtain rfl : q' = q := Fin.ext hi1
  rw [dstMap_apply]
  show _ = ∑ k : Fin 64, max (A (ix2 r' k) + R (ix2 r' k)) 0 * w (ix2 k q')
  refine Finset.sum_congr rfl fun k _ => ?_
  rw [hx0 (ix2 p k) (ix2 r' k) hi0 rfl, hx1 (ix2 p k) (ix2 r' k) hi0 rfl]

theorem rootMap_block (x0 x1 : Vec Ideal S2000x64 .f32) (w : Vec Ideal S64x64 .f32) (b : Vec Ideal S1x64 .f32)
    (A R : Gnn.Arr2 100000 64) (W : Gnn.Arr2 64 64) (B : Gnn.Arr2 1 64) (r : ℕ)
    (hx0 : ∀ (y : S2000x64.Idx) (z : S100000x64.Idx), (z 0).val = r + (y 0).val → (z 1).val = (y 1).val → x0 y = A z)
    (hx1 : ∀ (y : S2000x64.Idx) (z : S100000x64.Idx), (z 0).val = r + (y 0).val → (z 1).val = (y 1).val → x1 y = R z)
    (hw : w = W) (hb : b = B)
    (j : S2000x64.Idx) (i : S100000x64.Idx) (hi0 : (i 0).val = r + (j 0).val) (hi1 : (i 1).val = (j 1).val) :
    k1_pay4 (F := Ideal) x0 x1 w b j = Gnn.lin (Gnn.node A R) W B i := by
  subst hw hb
  obtain ⟨p, q, rfl⟩ : ∃ (p : Fin 2000) (q : Fin 64), j = ix2 p q := ⟨j 0, j 1, eq_ix2 j⟩
  obtain ⟨r', q', rfl⟩ : ∃ (r' : Fin 100000) (q' : Fin 64), i = ix2 r' q' := ⟨i 0, i 1, eq_ix2 i⟩
  obtain rfl : q' = q := Fin.ext hi1
  rw [rootMap_apply]
  show _ = (∑ k : Fin 64, max (A (ix2 r' k) + R (ix2 r' k)) 0 * w (ix2 k q')) + b (ix2 (0 : Fin 1) q')
  refine congrArg (· + _) (Finset.sum_congr rfl fun k _ => ?_)
  rw [hx0 (ix2 p k) (ix2 r' k) hi0 rfl, hx1 (ix2 p k) (ix2 r' k) hi0 rfl]

/-! ## The windows' blocks as parts of the arrays -/

/-- The block index maps over the fifty grid points: the two row-blocked inputs and the three outputs sit at row block
    `t`, the weights and biases at their one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

/-- Window 0's block at point `t` is rows 2000 t … 2000 t + 1999 of the aggregated messages. -/
theorem aggBlock_apply (c : Dev nD) (t : Fin cfg1.N) (y : S2000x64.Idx) (z : S100000x64.Idx)
    (h0 : (z 0).val = 2000 * t.val + (y 0).val) (h1 : (z 1).val = (y 1).val) :
    (iblk1 (F := Ideal) V c 0 t : Vec Ideal S2000x64 .f32) y = (V c main_v29 : S100000x64.Idx → EReal) z := by
  have hi := (idx_facts t).1
  unfold iblk1
  rw [View.read_apply]
  show V c main_v29 _ = V c main_v29 _
  congr 1
  funext a
  apply Fin.ext
  match a with
  | ⟨0, _⟩ => show win1_0.index t (0 : Fin 2) * 2000 + 1 * (y 0).val = (z 0).val; rw [hi.1, h0]; omega
  | ⟨1, _⟩ => show win1_0.index t (1 : Fin 2) * 64 + 1 * (y 1).val = (z 1).val; rw [hi.2, h1]; omega

/-- Window 1's block at point `t` is the same rows of the previous root term. -/
theorem rootBlock_apply (c : Dev nD) (t : Fin cfg1.N) (y : S2000x64.Idx) (z : S100000x64.Idx)
    (h0 : (z 0).val = 2000 * t.val + (y 0).val) (h1 : (z 1).val = (y 1).val) :
    (iblk1 (F := Ideal) V c 1 t : Vec Ideal S2000x64 .f32) y = (V c main_v21_2 : S100000x64.Idx → EReal) z := by
  have hi := (idx_facts t).2.1
  unfold iblk1
  rw [View.read_apply]
  show V c main_v21_2 _ = V c main_v21_2 _
  congr 1
  funext a
  apply Fin.ext
  match a with
  | ⟨0, _⟩ => show win1_1.index t (0 : Fin 2) * 2000 + 1 * (y 0).val = (z 0).val; rw [hi.1, h0]; omega
  | ⟨1, _⟩ => show win1_1.index t (1 : Fin 2) * 64 + 1 * (y 1).val = (z 1).val; rw [hi.2, h1]; omega

/-- Windows 2 to 6 hold their whole arrays at every point: the three matrices and the two bias rows. -/
theorem w1Block (c : Dev nD) (t : Fin cfg1.N) :
    (iblk1 (F := Ideal) V c 2 t : Vec Ideal S64x64 .f32) = (V c main_v31 : S64x64.Idx → EReal) := by
  have hi := (idx_facts t).2.2.1
  funext y
  unfold iblk1
  rw [View.read_apply]
  show V c main_v31 _ = V c main_v31 _
  congr 1
  funext a
  apply Fin.ext
  match a with
  | ⟨0, _⟩ => show win1_2.index t (0 : Fin 2) * 64 + 1 * (y 0).val = (y 0).val; rw [hi.1]; omega
  | ⟨1, _⟩ => show win1_2.index t (1 : Fin 2) * 64 + 1 * (y 1).val = (y 1).val; rw [hi.2]; omega

theorem b1Block (c : Dev nD) (t : Fin cfg1.N) :
    (iblk1 (F := Ideal) V c 3 t : Vec Ideal S1x64 .f32) = (V c main_v33 : S1x64.Idx → EReal) := by
  have hi := (idx_facts t).2.2.2.1
  funext y
  unfold iblk1
  rw [View.read_apply]
  show V c main_v33 _ = V c main_v33 _
  congr 1
  funext a
  apply Fin.ext
  match a with
  | ⟨0, _⟩ => show win1_3.index t (0 : Fin 2) * 1 + 1 * (y 0).val = (y 0).val; rw [hi.1]; omega
  | ⟨1, _⟩ => show win1_3.index t (1 : Fin 2) * 64 + 1 * (y 1).val = (y 1).val; rw [hi.2]; omega

theorem w2Block (c : Dev nD) (t : Fin cfg1.N) :
    (iblk1 (F := Ideal) V c 4 t : Vec Ideal S64x64 .f32) = (V c main_v35 : S64x64.Idx → EReal) := by
  have hi := (idx_facts t).2.2.2.2.1
  funext y
  unfold iblk1
  rw [View.read_apply]
  show V c main_v35 _ = V c main_v35 _
  congr 1
  funext a
  apply Fin.ext
  match a with
  | ⟨0, _⟩ => show win1_4.index t (0 : Fin 2) * 64 + 1 * (y 0).val = (y 0).val; rw [hi.1]; omega
  | ⟨1, _⟩ => show win1_4.index t (1 : Fin 2) * 64 + 1 * (y 1).val = (y 1).val; rw [hi.2]; omega

theorem w3Block (c : Dev nD) (t : Fin cfg1.N) :
    (iblk1 (F := Ideal) V c 5 t : Vec Ideal S64x64 .f32) = (V c main_v37 : S64x64.Idx → EReal) := by
  have hi := (idx_facts t).2.2.2.2.2.1
  funext y
  unfold iblk1
  rw [View.read_apply]
  show V c main_v37 _ = V c main_v37 _
  congr 1
  funext a
  apply Fin.ext
  match a with
  | ⟨0, _⟩ => show win1_5.index t (0 : Fin 2) * 64 + 1 * (y 0).val = (y 0).val; rw [hi.1]; omega
  | ⟨1, _⟩ => show win1_5.index t (1 : Fin 2) * 64 + 1 * (y 1).val = (y 1).val; rw [hi.2]; omega

theorem b3Block (c : Dev nD) (t : Fin cfg1.N) :
    (iblk1 (F := Ideal) V c 6 t : Vec Ideal S1x64 .f32) = (V c main_v39 : S1x64.Idx → EReal) := by
  have hi := (idx_facts t).2.2.2.2.2.2.1
  funext y
  unfold iblk1
  rw [View.read_apply]
  show V c main_v39 _ = V c main_v39 _
  congr 1
  funext a
  apply Fin.ext
  match a with
  | ⟨0, _⟩ => show win1_6.index t (0 : Fin 2) * 1 + 1 * (y 0).val = (y 0).val; rw [hi.1]; omega
  | ⟨1, _⟩ => show win1_6.index t (1 : Fin 2) * 64 + 1 * (y 1).val = (y 1).val; rw [hi.2]; omega

/-! ## What a point writes back

Point `t` writes back, into each output, rows 2000 t … 2000 t + 1999 of that output's map of the node table: the body's
one store covers its whole block, and the block's entry `j` sits at row 2000 t + (row of `j`) of the array. -/

theorem flushed7_eq (c : Dev nD) (t : Fin cfg1.N) :
    (dat1 (F := Ideal) V c).flushed 7 t
      = ((cfg1.win 7).blk t).view.read (Elt Ideal) (Gnn.lin (nodes V c) (V c main_v31) (V c main_v33)) := by
  show (cfg1.win 7).cut (grid1.coords t) ((dat1 (F := Ideal) V c).after 7 t) = _
  rw [after1_7]
  unfold out1_7
  rw [View.canon_unit_zero hz]
  simp only [View.ld_unit_zero (S := S2000x64) hz, View.ld_unit_zero (S := S64x64) hz, View.ld_unit_zero (S := S1x64) hz]
  have hi := (idx_facts t).2.2.2.2.2.2.2.1
  funext j
  show k1_pay2 (F := Ideal) (iblk1 (F := Ideal) V c 0 t) (iblk1 (F := Ideal) V c 1 t) (iblk1 (F := Ideal) V c 2 t) (iblk1 (F := Ideal) V c 3 t) j
    = Gnn.lin (Gnn.node (V c main_v29) (V c main_v21_2)) (V c main_v31) (V c main_v33) (((cfg1.win 7).blk t).view.emb j)
  refine srcMap_block (iblk1 (F := Ideal) V c 0 t) (iblk1 (F := Ideal) V c 1 t) (iblk1 (F := Ideal) V c 2 t) (iblk1 (F := Ideal) V c 3 t)
    (V c main_v29) (V c main_v21_2) (V c main_v31) (V c main_v33) (2000 * t.val)
    (fun y z h0 h1 => aggBlock_apply V c t y z h0 h1) (fun y z h0 h1 => rootBlock_apply V c t y z h0 h1)
    (w1Block V c t) (b1Block V c t) j (((cfg1.win 7).blk t).view.emb j) ?_ ?_
  · show win1_7.index t (0 : Fin 2) * 2000 + 1 * (j 0).val = 2000 * t.val + (j 0).val
    rw [hi.1]; omega
  · show win1_7.index t (1 : Fin 2) * 64 + 1 * (j 1).val = (j 1).val
    rw [hi.2]; omega

theorem flushed8_eq (c : Dev nD) (t : Fin cfg1.N) :
    (dat1 (F := Ideal) V c).flushed 8 t
      = ((cfg1.win 8).blk t).view.read (Elt Ideal) (Gnn.mm (nodes V c) (V c main_v35)) := by
  show (cfg1.win 8).cut (grid1.coords t) ((dat1 (F := Ideal) V c).after 8 t) = _
  rw [after1_8]
  unfold out1_8
  rw [View.canon_unit_zero hz]
  simp only [View.ld_unit_zero (S := S2000x64) hz, View.ld_unit_zero (S := S64x64) hz]
  have hi := (idx_facts t).2.2.2.2.2.2.2.2.1
  funext j
  show k1_pay3 (F := Ideal) (iblk1 (F := Ideal) V c 0 t) (iblk1 (F := Ideal) V c 1 t) (iblk1 (F := Ideal) V c 4 t) j
    = Gnn.mm (Gnn.node (V c main_v29) (V c main_v21_2)) (V c main_v35) (((cfg1.win 8).blk t).view.emb j)
  refine dstMap_block (iblk1 (F := Ideal) V c 0 t) (iblk1 (F := Ideal) V c 1 t) (iblk1 (F := Ideal) V c 4 t)
    (V c main_v29) (V c main_v21_2) (V c main_v35) (2000 * t.val)
    (fun y z h0 h1 => aggBlock_apply V c t y z h0 h1) (fun y z h0 h1 => rootBlock_apply V c t y z h0 h1)
    (w2Block V c t) j (((cfg1.win 8).blk t).view.emb j) ?_ ?_
  · show win1_8.index t (0 : Fin 2) * 2000 + 1 * (j 0).val = 2000 * t.val + (j 0).val
    rw [hi.1]; omega
  · show win1_8.index t (1 : Fin 2) * 64 + 1 * (j 1).val = (j 1).val
    rw [hi.2]; omega

theorem flushed9_eq (c : Dev nD) (t : Fin cfg1.N) :
    (dat1 (F := Ideal) V c).flushed 9 t
      = ((cfg1.win 9).blk t).view.read (Elt Ideal) (Gnn.lin (nodes V c) (V c main_v37) (V c main_v39)) := by
  show (cfg1.win 9).cut (grid1.coords t) ((dat1 (F := Ideal) V c).after 9 t) = _
  rw [after1_9]
  unfold out1_9
  rw [View.canon_unit_zero hz]
  simp only [View.ld_unit_zero (S := S2000x64) hz, View.ld_unit_zero (S := S64x64) hz, View.ld_unit_zero (S := S1x64) hz]
  have hi := (idx_facts t).2.2.2.2.2.2.2.2.2
  funext j
  show k1_pay4 (F := Ideal) (iblk1 (F := Ideal) V c 0 t) (iblk1 (F := Ideal) V c 1 t) (iblk1 (F := Ideal) V c 5 t) (iblk1 (F := Ideal) V c 6 t) j
    = Gnn.lin (Gnn.node (V c main_v29) (V c main_v21_2)) (V c main_v37) (V c main_v39) (((cfg1.win 9).blk t).view.emb j)
  refine rootMap_block (iblk1 (F := Ideal) V c 0 t) (iblk1 (F := Ideal) V c 1 t) (iblk1 (F := Ideal) V c 5 t) (iblk1 (F := Ideal) V c 6 t)
    (V c main_v29) (V c main_v21_2) (V c main_v37) (V c main_v39) (2000 * t.val)
    (fun y z h0 h1 => aggBlock_apply V c t y z h0 h1) (fun y z h0 h1 => rootBlock_apply V c t y z h0 h1)
    (w3Block V c t) (b3Block V c t) j (((cfg1.win 9).blk t).view.emb j) ?_ ?_
  · show win1_9.index t (0 : Fin 2) * 2000 + 1 * (j 0).val = 2000 * t.val + (j 0).val
    rw [hi.1]; omega
  · show win1_9.index t (1 : Fin 2) * 64 + 1 * (j 1).val = (j 1).val
    rw [hi.2]; omega

/-! ## The fifty row blocks tile the node axis

An index of an output array lies in point `t`'s block iff its row is among rows 2000 t … 2000 t + 1999; so the row `r`
lies in the block of point `r / 2000`, and every output array ends holding its map of the node table. -/

theorem mem_blk7 (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v40_0).slice (win1_7.rect t)).set ↔ _
  rw [View.set_slice_whole, Rect.mem_set_unit]
  exact Iff.rfl

theorem mem_blk8 (t : Fin cfg1.N) (i : S100000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v40_1).slice (win1_8.rect t)).set ↔ _
  rw [View.set_slice_whole, Rect.mem_set_unit]
  exact Iff.rfl

theorem mem_blk9 (t : Fin cfg1.N) (i : S100000x64.Idx) :
    i ∈ ((cfg1.win 9).blk t).view.set ↔ ∀ a : Fin 2, win1_9.index t a * S2000x64.size a ≤ (i a).val ∧ (i a).val < win1_9.index t a * S2000x64.size a + S2000x64.size a := by
  show i ∈ ((View.whole main_v40_2).slice (win1_9.rect t)).set ↔ _
  rw [View.set_slice_whole, Rect.mem_set_unit]
  exact Iff.rfl

theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  have ht : t.val = (i 0).val / 2000 := rfl
  have hi := (idx_facts t).2.2.2.2.2.2.2.1
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; rw [hi.1, ht]; omega
  | ⟨1, _⟩ => show win1_7.index t (1 : Fin 2) * 64 ≤ (i 1).val ∧ (i 1).val < win1_7.index t (1 : Fin 2) * 64 + 64; rw [hi.2]; omega

theorem cover8 (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  have ht : t.val = (i 0).val / 2000 := rfl
  have hi := (idx_facts t).2.2.2.2.2.2.2.2.1
  refine ⟨t, flush1_8 t, ?_⟩
  rw [mem_blk8]
  intro a
  match a with
  | ⟨0, _⟩ => show win1_8.index t (0 : Fin 2) * 2000 ≤ (i 0).val ∧ (i 0).val < win1_8.index t (0 : Fin 2) * 2000 + 2000; rw [hi.1, ht]; omega
  | ⟨1, _⟩ => show win1_8.index t (1 : Fin 2) * 64 ≤ (i 1).val ∧ (i 1).val < win1_8.index t (1 : Fin 2) * 64 + 64; rw [hi.2]; omega

theorem cover9 (i : S100000x64.Idx) : ∃ t : Fin cfg1.N, (cfg1.win 9).flush t = true ∧ i ∈ ((cfg1.win 9).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  have ht : t.val = (i 0).val / 2000 := rfl
  have hi := (idx_facts t).2.2.2.2.2.2.2.2.2
  refine ⟨t, flush1_9 t, ?_⟩
  rw [mem_blk9]
  intro a
  match a with
  | ⟨0, _⟩ => show win1_9.index t (0 : Fin 2) * 2000 ≤ (i 0).val ∧ (i 0).val < win1_9.index t (0 : Fin 2) * 2000 + 2000; rw [hi.1, ht]; omega
  | ⟨1, _⟩ => show win1_9.index t (1 : Fin 2) * 64 ≤ (i 1).val ∧ (i 1).val < win1_9.index t (1 : Fin 2) * 64 + 64; rw [hi.2]; omega

theorem a_eq (c : Dev nD) :
    (dat1 (F := Ideal) V c).arrAt 7 cfg1.N = Gnn.lin (nodes V c) (V c main_v31) (V c main_v33) :=
  (dat1 (F := Ideal) V c).arrAt_eq_of_cover 7 (Gnn.lin (nodes V c) (V c main_v31) (V c main_v33))
    (fun t _ => flushed7_eq V c t) cover7

theorem b_eq (c : Dev nD) :
    (dat1 (F := Ideal) V c).arrAt 8 cfg1.N = Gnn.mm (nodes V c) (V c main_v35) :=
  (dat1 (F := Ideal) V c).arrAt_eq_of_cover 8 (Gnn.mm (nodes V c) (V c main_v35))
    (fun t _ => flushed8_eq V c t) cover8

theorem c_eq (c : Dev nD) :
    (dat1 (F := Ideal) V c).arrAt 9 cfg1.N = Gnn.lin (nodes V c) (V c main_v37) (V c main_v39) :=
  (dat1 (F := Ideal) V c).arrAt_eq_of_cover 9 (Gnn.lin (nodes V c) (V c main_v37) (V c main_v39))
    (fun t _ => flushed9_eq V c t) cover9

end Cert.KernelIdeal.Layer1

end
-- ==== Proof.LayerRegion2.lean ====
/-
  The third kernel region, read as whole arrays: it joins the aggregated messages and the previous root term, clips at
  zero, and forms the three affine maps of the next layer from the result. Each grid point handles 2000 consecutive
  rows and the fifty row blocks tile the node axis.
-/
import proofs.«419727_j75720273429180_1_alg».proof.Proof.Gen.KernelIdeal.Frame
import proofs.«419727_j75720273429180_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Layer2

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The node table the region starts its maps from. -/
abbrev nodes (c : Dev nD) : Gnn.Arr2 100000 64 := Gnn.node (V c main_v48) (V c main_v40_2)

/-- Every access of the body starts at the corner of its block. -/
theorem hz : (![0, 0] : Fin 2 → Nat) = fun _ => 0 := funext fun a => by fin_cases a <;> rfl

/-! ## A block product at an index

The product of a 2000 × 64 block with a 64 × 64 matrix contracts the block's columns against the matrix's rows: the
left operand is read at (row of the result, contracted position), the right one at (contracted position, column of
the result). -/

theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A block product into a zero accumulator, read at row `p` and column `q`: the sum over the 64 contracted positions
    of the products of the operands' entries. -/
theorem blockProduct_apply (A : FVec Ideal S2000x64 .bf16) (W : FVec Ideal S64x64 .bf16) (p : Fin 2000) (q : Fin 64) :
    matmul dot_S2000x64_S64x64_S2000x64_1_0_0_1_n_n none A W (constant (F := Ideal) S2000x64 .f32 0x00000000#32) (ix2 p q)
      = ∑ k : Fin 64, A (ix2 p k) * W (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_row _ _
    | ⟨1, _⟩ => exact (lhs_col _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The body's stored values at an index

The body adds its two row blocks, clips the sum at zero (the maximum with the zero word, which is the real number 0),
and multiplies the result by each of three 64 × 64 matrices; two of the products get a bias row added to every row. The
changes of float format in between are the identity on extended reals. -/

/-- The clipped sum of the two row blocks. -/
theorem clipped_apply (x0 x1 : Vec Ideal S2000x64 .f32) (p : Fin 2000) (k : Fin 64) :
    k2_pay1 (F := Ideal) x0 x1 (ix2 p k) = max (x0 (ix2 p k) + x1 (ix2 p k)) 0 := by
  unfold k2_pay1
  simp only [shapeCast_self]
  show max (x0 (ix2 p k) + x1 (ix2 p k)) (Ideal.ofBits .f32 0x00000000#32) = _
  rw [Ideal.ofBits_zero_f32]

/-- The first stored block: the clipped sum times the first matrix, plus the first bias row. -/
theorem srcMap_apply (x0 x1 : Vec Ideal S2000x64 .f32) (w : Vec Ideal S64x64 .f32) (b : Vec Ideal S1x64 .f32) (p : Fin 2000) (q : Fin 64) :
    k2_pay2 (F := Ideal) x0 x1 w b (ix2 p q)
      = (∑ k : Fin 64, max (x0 (ix2 p k) + x1 (ix2 p k)) 0 * w (ix2 k q)) + b (ix2 (0 : Fin 1) q) := by
  unfold k2_pay2
  simp only [shapeCast_self]
  refine (addf_apply _ _ _).trans ?_
  refine congrArg₂ (· + ·) ?_ ?_
  · refine (blockProduct_apply _ _ p q).trans ?_
    refine Finset.sum_congr rfl fun k _ => ?_
    rw [clipped_apply]
    rfl
  · exact broadcastTo_1b_ab_apply _ _ p q

/-- The second stored block: the clipped sum times the second matrix. -/
theorem dstMap_apply (x0 x1 : Vec Ideal S2000x64 .f32) (w : Vec Ideal S64x64 .f32) (p : Fin 2000) (q : Fin 64) :
    k2_pay3 (F := Ideal) x0 x1 w (ix2 p q) = ∑ k : Fin 64, max (x0 (ix2 p k) + x1 (ix2 p k)) 0 * w (ix2 k q) := by
  unfold k2_pay3
  simp only [shapeCast_self]
  refine (blockProduct_apply _ _ p q).trans ?_
  refine Finset.sum_congr rfl fun k _ => ?_
  rw [clipped_apply]
  rfl

/-- The third stored block: the clipped sum times the third matrix, plus the second bias row. -/
theorem rootMap_apply (x0 x1 : Vec Ideal S2000x64 .f32) (w : Vec Ideal S64x64 .f32) (b : Vec Ideal S1x64 .f32) (p : Fin 2000) (q : Fin 64) :
    k2_pay4 (F := Ideal) x0 x1 w b (ix2 p q)
      = (∑ k : Fin 64, max (x0 (ix2 p k) + x1 (ix2 p k)) 0 * w (ix2 k q)) + b (ix2 (0 : Fin 1) q) := by
  unfold k2_pay4
  simp only [shapeCast_self]
  refine (addf_apply _ _ _).trans ?_
  refine congrArg₂ (· + ·) ?_ ?_
  · refine (blockProduct_apply _ _ p q).trans ?_
    refine Finset.sum_congr rfl fun k _ => ?_
    rw [clipped_apply]
    rfl
  · exact broadcastTo_1b_ab_apply _ _ p q

/-! ## The stored blocks against the specification, over plain blocks and arrays

If the two row blocks are rows `r`, `r + 1`, … of the aggregated messages `A` and of the root term `R`, and the weight
and bias blocks are the whole `W` and `B`, then entry `j` of a stored block is entry `i` of the corresponding map of the
node table `node A R`, where `i` is `j` moved down by `r` rows: a row of the product only reads the same row of the
node table. -/

theorem srcMap_block (x0 x1 : Vec Ideal S2000x64 .f32) (w : Vec Ideal S64x64 .f32) (b : Vec Ideal S1x64 .f32)
    (A R : Gnn.Arr2 100000 64) (W : Gnn.Arr2 64 64) (B : Gnn.Arr2 1 64) (r : ℕ)
    (hx0 : ∀ (y : S2000x64.Idx) (z : S100000x64.Idx), (z 0).val = r + (y 0).val → (z 1).val = (y 1).val → x0 y = A z)
    (hx1 : ∀ (y : S2000x64.Idx) (z : S100000x64.Idx), (z 0).val = r + (y 0).val → (z 1).val = (y 1).val → x1 y = R z)
    (hw : w = W) (hb : b = B)
    (j : S2000x64.Idx) (i : S100000x64.Idx) (hi0 : (i 0).val = r + (j 0).val) (hi1 : (i 1).val = (j 1).val) :
    k2_pay2 (F := Ideal) x0 x1 w b j = Gnn.lin (Gnn.node A R) W B i := by
  subst hw hb
  obtain ⟨p, q, rfl⟩ : ∃ (p : Fin 2000) (q : Fin 64), j = ix2 p q := ⟨j 0, j 1, eq_ix2 j⟩
  obtain ⟨r', q', rfl⟩ : ∃ (r' : Fin 100000) (q' : Fin 64), i = ix2 r' q' := ⟨i 0, i 1, eq_ix2 i⟩
  obtain rfl : q' = q := Fin.ext hi1
  rw [srcMap_apply]
  show _ = (∑ k : Fin 64, max (A (ix2 r' k) + R (ix2 r' k)) 0 * w (ix2 k q')) + b (ix2 (0 : Fin 1) q')
  refine congrArg (· + _) (Finset.sum_congr rfl fun k _ => ?_)
  rw [hx0 (ix2 p k) (ix2 r' k) hi0 rfl, hx1 (ix2 p k) (ix2 r' k) hi0 rfl]

theorem dstMap_block (x0 x1 : Vec Ideal S2000x64 .f32) (w : Vec Ideal S64x64 .f32)
    (A R : Gnn.Arr2 100000 64) (W : Gnn.Arr2 64 64) (r : ℕ)
    (hx0 : ∀ (y : S2000x64.Idx) (z : S100000x64.Idx), (z 0).val = r + (y 0).val → (z 1).val = (y 1).val → x0 y = A z)
    (hx1 : ∀ (y : S2000x64.Idx) (z : S100000x64.Idx), (z 0).val = r + (y 0).val → (z 1).val = (y 1).val → x1 y = R z)
    (hw : w = W)
    (j : S2000x64.Idx) (i : S100000x64.Idx) (hi0 : (i 0).val = r + (j 0).val) (hi1 : (i 1).val = (j 1).val) :
    k2_pay3 (F := Ideal) x0 x1 w j = Gnn.mm (Gnn.node A R) W i := by
  subst hw
  obtain ⟨p, q, rfl⟩ : ∃ (p : Fin 2000) (q : Fin 64), j = ix2 p q := ⟨j 0, j 1, eq_ix2 j⟩
  obtain ⟨r', q', rfl⟩ : ∃ (r' : Fin 100000) (q' : Fin 64), i = ix2 r' q' := ⟨i 0, i 1, eq_ix2 i⟩
  obtain rfl : q' = q := Fin.ext hi1
  rw [dstMap_apply]
  show _ = ∑ k : Fin 64, max (A (ix2 r' k) + R (ix2 r' k)) 0 * w (ix2 k q')
  refine Finset.sum_congr rfl fun k _ => ?_
  rw [hx0 (ix2 p k) (ix2 r' k) hi0 rfl, hx1 (ix2 p k) (ix2 r' k) hi0 rfl]

theorem rootMap_block (x0 x1 : Vec Ideal S2000x64 .f32) (w : Vec Ideal S64x64 .f32) (b : Vec Ideal S1x64 .f32)
    (A R : Gnn.Arr2 100000 64) (W : Gnn.Arr2 64 64) (B : Gnn.Arr2 1 64) (r : ℕ)
    (hx0 : ∀ (y : S2000x64.Idx) (z : S100000x64.Idx), (z 0).val = r + (y 0).val → (z 1).val = (y 1).val → x0 y = A z)
    (hx1 : ∀ (y : S2000x64.Idx) (z : S100000x64.Idx), (z 0).val = r + (y 0).val → (z 1).val = (y 1).val → x1 y = R z)
    (hw : w = W) (hb : b = B)
    (j : S2000x64.Idx) (i : S100000x64.Idx) (hi0 : (i 0).val = r + (j 0).val) (hi1 : (i 1).val = (j 1).val) :
    k2_pay4 (F := Ideal) x0 x1 w b j = Gnn.lin (Gnn.node A R) W B i := by
  subst hw hb
  obtain ⟨p, q, rfl⟩ : ∃ (p : Fin 2000) (q : Fin 64), j = ix2 p q := ⟨j 0, j 1, eq_ix2 j⟩
  obtain ⟨r', q', rfl⟩ : ∃ (r' : Fin 100000) (q' : Fin 64), i = ix2 r' q' := ⟨i 0, i 1, eq_ix2 i⟩
  obtain rfl : q' = q := Fin.ext hi1
  rw [rootMap_apply]
  show _ = (∑ k : Fin 64, max (A (ix2 r' k) + R (ix2 r' k)) 0 * w (ix2 k q')) + b (ix2 (0 : Fin 1) q')
  refine congrArg (· + _) (Finset.sum_congr rfl fun k _ => ?_)
  rw [hx0 (ix2 p k) (ix2 r' k) hi0 rfl, hx1 (ix2 p k) (ix2 r' k) hi0 rfl]

/-! ## The windows' blocks as parts of the arrays -/

/-- The block index maps over the fifty grid points: the two row-blocked inputs and the three outputs sit at row block
    `t`, the weights and biases at their one block. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0)
    ∧ (win2_9.index t (0 : Fin 2) = t.val ∧ win2_9.index t (1 : Fin 2) = 0) :=
  (by decide +kernel : ∀ t : Fin grid2.N, _)

/-- Window 0's block at point `t` is rows 2000 t … 2000 t + 1999 of the aggregated messages. -/
theorem aggBlock_apply (c : Dev nD) (t : Fin cfg2.N) (y : S2000x64.Idx) (z : S100000x64.Idx)
    (h0 : (z 0).val = 2000 * t.val + (y 0).val) (h1 : (z 1).val = (y 1).val) :
    (iblk2 (F := Ideal) V c 0 t : Vec Ideal S2000x64 .f32) y = (V c main_v48 : S100000x64.Idx → EReal) z := by
  have hi := (idx_facts t).1
  unfold iblk2
  rw [View.read_apply]
  show V c main_v48 _ = V c main_v48 _
  congr 1
  funext a
  apply Fin.ext
  match a with
  | ⟨0, _⟩ => show win2_0.index t (0 : Fin 2) * 2000 + 1 * (y 0).val = (z 0).val; rw [hi.1, h0]; omega
  | ⟨1, _⟩ => show win2_0.index t (1 : Fin 2) * 64 + 1 * (y 1).val = (z 1).val; rw [hi.2, h1]; omega

/-- Window 1's block at point `t` is the same rows of the previous root term. -/
theorem rootBlock_apply (c : Dev nD) (t : Fin cfg2.N) (y : S2000x64.Idx) (z : S100000x64.Idx)
    (h0 : (z 0).val = 2000 * t.val + (y 0).val) (h1 : (z 1).val = (y 1).val) :
    (iblk2 (F := Ideal) V c 1 t : Vec Ideal S2000x64 .f32) y = (V c main_v40_2 : S100000x64.Idx → EReal) z := by
  have hi := (idx_facts t).2.1
  unfold iblk2
  rw [View.read_apply]
  show V c main_v40_2 _ = V c main_v40_2 _
  congr 1
  funext a
  apply Fin.ext
  match a with
  | ⟨0, _⟩ => show win2_1.index t (0 : Fin 2) * 2000 + 1 * (y 0).val = (z 0).val; rw [hi.1, h0]; omega
  | ⟨1, _⟩ => show win2_1.index t (1 : Fin 2) * 64 + 1 * (y 1).val = (z 1).val; rw [hi.2, h1]; omega

/-- Windows 2 to 6 hold their whole arrays at every point: the three matrices and the two bias rows. -/
theorem w1Block (c : Dev nD) (t : Fin cfg2.N) :
    (iblk2 (F := Ideal) V c 2 t : Vec Ideal S64x64 .f32) = (V c main_v50 : S64x64.Idx → EReal) := by
  have hi := (idx_facts t).2.2.1
  funext y
  unfold iblk2
  rw [View.read_apply]
  show V c main_v50 _ = V c main_v50 _
  congr 1
  funext a
  apply Fin.ext
  match a with
  | ⟨0, _⟩ => show win2_2.index t (0 : Fin 2) * 64 + 1 * (y 0).val = (y 0).val; rw [hi.1]; omega
  | ⟨1, _⟩ => show win2_2.index t (1 : Fin 2) * 64 + 1 * (y 1).val = (y 1).val; rw [hi.2]; omega

theorem b1Block (c : Dev nD) (t : Fin cfg2.N) :
    (iblk2 (F := Ideal) V c 3 t : Vec Ideal S1x64 .f32) = (V c main_v52 : S1x64.Idx → EReal) := by
  have hi := (idx_facts t).2.2.2.1
  funext y
  unfold iblk2
  rw [View.read_apply]
  show V c main_v52 _ = V c main_v52 _
  congr 1
  funext a
  apply Fin.ext
  match a with
  | ⟨0, _⟩ => show win2_3.index t (0 : Fin 2) * 1 + 1 * (y 0).val = (y 0).val; rw [hi.1]; omega
  | ⟨1, _⟩ => show win2_3.index t (1 : Fin 2) * 64 + 1 * (y 1).val = (y 1).val; rw [hi.2]; omega

theorem w2Block (c : Dev nD) (t : Fin cfg2.N) :
    (iblk2 (F := Ideal) V c 4 t : Vec Ideal S64x64 .f32) = (V c main_v54 : S64x64.Idx → EReal) := by
  have hi := (idx_facts t).2.2.2.2.1
  funext y
  unfold iblk2
  rw [View.read_apply]
  show V c main_v54 _ = V c main_v54 _
  congr 1
  funext a
  apply Fin.ext
  match a with
  | ⟨0, _⟩ => show win2_4.index t (0 : Fin 2) * 64 + 1 * (y 0).val = (y 0).val; rw [hi.1]; omega
  | ⟨1, _⟩ => show win2_4.index t (1 : Fin 2) * 64 + 1 * (y 1).val = (y 1).val; rw [hi.2]; omega

theorem w3Block (c : Dev nD) (t : Fin cfg2.N) :
    (iblk2 (F := Ideal) V c 5 t : Vec Ideal S64x64 .f32) = (V c main_v56 : S64x64.Idx → EReal) := by
  have hi := (idx_facts t).2.2.2.2.2.1
  funext y
  unfold iblk2
  rw [View.read_apply]
  show V c main_v56 _ = V c main_v56 _
  congr 1
  funext a
  apply Fin.ext
  match a with
  | ⟨0, _⟩ => show win2_5.index t (0 : Fin 2) * 64 + 1 * (y 0).val = (y 0).val; rw [hi.1]; omega
  | ⟨1, _⟩ => show win2_5.index t (1 : Fin 2) * 64 + 1 * (y 1).val = (y 1).val; rw [hi.2]; omega

theorem b3Block (c : Dev nD) (t : Fin cfg2.N) :
    (iblk2 (F := Ideal) V c 6 t : Vec Ideal S1x64 .f32) = (V c main_v58 : S1x64.Idx → EReal) := by
  have hi := (idx_facts t).2.2.2.2.2.2.1
  funext y
  unfold iblk2
  rw [View.read_apply]
  show V c main_v58 _ = V c main_v58 _
  congr 1
  funext a
  apply Fin.ext
  match a with
  | ⟨0, _⟩ => show win2_6.index t (0 : Fin 2) * 1 + 1 * (y 0).val = (y 0).val; rw [hi.1]; omega
  | ⟨1, _⟩ => show win2_6.index t (1 : Fin 2) * 64 + 1 * (y 1).val = (y 1).val; rw [hi.2]; omega

/-! ## What a point writes back

Point `t` writes back, into each output, rows 2000 t … 2000 t + 1999 of that output's map of the node table: the body's
one store covers its whole block, and the block's entry `j` sits at row 2000 t + (row of `j`) of the array. -/

theorem flushed7_eq (c : Dev nD) (t : Fin cfg2.N) :
    (dat2 (F := Ideal) V c).flushed 7 t
      = ((cfg2.win 7).blk t).view.read (Elt Ideal) (Gnn.lin (nodes V c) (V c main_v50) (V c main_v52)) := by
  show (cfg2.win 7).cut (grid2.coords t) ((dat2 (F := Ideal) V c).after 7 t) = _
  rw [after2_7]
  unfold out2_7
  rw [View.canon_unit_zero hz]
  simp only [View.ld_unit_zero (S := S2000x64) hz, View.ld_unit_zero (S := S64x64) hz, View.ld_unit_zero (S := S1x64) hz]
  have hi := (idx_facts t).2.2.2.2.2.2.2.1
  funext j
  show k2_pay2 (F := Ideal) (iblk2 (F := Ideal) V c 0 t) (iblk2 (F := Ideal) V c 1 t) (iblk2 (F := Ideal) V c 2 t) (iblk2 (F := Ideal) V c 3 t) j
    = Gnn.lin (Gnn.node (V c main_v48) (V c main_v40_2)) (V c main_v50) (V c main_v52) (((cfg2.win 7).blk t).view.emb j)
  refine srcMap_block (iblk2 (F := Ideal) V c 0 t) (iblk2 (F := Ideal) V c 1 t) (iblk2 (F := Ideal) V c 2 t) (iblk2 (F := Ideal) V c 3 t)
    (V c main_v48) (V c main_v40_2) (V c main_v50) (V c main_v52) (2000 * t.val)
    (fun y z h0 h1 => aggBlock_apply V c t y z h0 h1) (fun y z h0 h1 => rootBlock_apply V c t y z h0 h1)
    (w1Block V c t) (b1Block V c t) j (((cfg2.win 7).blk t).view.emb j) ?_ ?_
  · show win2_7.index t (0 : Fin 2) * 2000 + 1 * (j 0).val = 2000 * t.val + (j 0).val
    rw [hi.1]; omega
  · show win2_7.index t (1 : Fin 2) * 64 + 1 * (j 1).val = (j 1).val
    rw [hi.2]; omega

theorem flushed8_eq (c : Dev nD) (t : Fin cfg2.N) :
    (dat2 (F := Ideal) V c).flushed 8 t
      = ((cfg2.win 8).blk t).view.read (Elt Ideal) (Gnn.mm (nodes V c) (V c main_v54)) := by
  show (cfg2.win 8).cut (grid2.coords t) ((dat2 (F := Ideal) V c).after 8 t) = _
  rw [after2_8]
  unfold out2_8
  rw [View.canon_unit_zero hz]
  simp only [View.ld_unit_zero (S := S2000x64) hz, View.ld_unit_zero (S := S64x64) hz]
  have hi := (idx_facts t).2.2.2.2.2.2.2.2.1
  funext j
  show k2_pay3 (F := Ideal) (iblk2 (F := Ideal) V c 0 t) (iblk2 (F := Ideal) V c 1 t) (iblk2 (F := Ideal) V c 4 t) j
    = Gnn.mm (Gnn.node (V c main_v48) (V c main_v40_2)) (V c main_v54) (((cfg2.win 8).blk t).view.emb j)
  refine dstMap_block (iblk2 (F := Ideal) V c 0 t) (iblk2 (F := Ideal) V c 1 t) (iblk2 (F := Ideal) V c 4 t)
    (V c main_v48) (V c main_v40_2) (V c main_v54) (2000 * t.val)
    (fun y z h0 h1 => aggBlock_apply V c t y z h0 h1) (fun y z h0 h1 => rootBlock_apply V c t y z h0 h1)
    (w2Block V c t) j (((cfg2.win 8).blk t).view.emb j) ?_ ?_
  · show win2_8.index t (0 : Fin 2) * 2000 + 1 * (j 0).val = 2000 * t.val + (j 0).val
    rw [hi.1]; omega
  · show win2_8.index t (1 : Fin 2) * 64 + 1 * (j 1).val = (j 1).val
    rw [hi.2]; omega

theorem flushed9_eq (c : Dev nD) (t : Fin cfg2.N) :
    (dat2 (F := Ideal) V c).flushed 9 t
      = ((cfg2.win 9).blk t).view.read (Elt Ideal) (Gnn.lin (nodes V c) (V c main_v56) (V c main_v58)) := by
  show (cfg2.win 9).cut (grid2.coords t) ((dat2 (F := Ideal) V c).after 9 t) = _
  rw [after2_9]
  unfold out2_9
  rw [View.canon_unit_zero hz]
  simp only [View.ld_unit_zero (S := S2000x64) hz, View.ld_unit_zero (S := S64x64) hz, View.ld_unit_zero (S := S1x64) hz]
  have hi := (idx_facts t).2.2.2.2.2.2.2.2.2
  funext j
  show k2_pay4 (F := Ideal) (iblk2 (F := Ideal) V c 0 t) (iblk2 (F := Ideal) V c 1 t) (iblk2 (F := Ideal) V c 5 t) (iblk2 (F := Ideal) V c 6 t) j
    = Gnn.lin (Gnn.node (V c main_v48) (V c main_v40_2)) (V c main_v56) (V c main_v58) (((cfg2.win 9).blk t).view.emb j)
  refine rootMap_block (iblk2 (F := Ideal) V c 0 t) (iblk2 (F := Ideal) V c 1 t) (iblk2 (F := Ideal) V c 5 t) (iblk2 (F := Ideal) V c 6 t)
    (V c main_v48) (V c main_v40_2) (V c main_v56) (V c main_v58) (2000 * t.val)
    (fun y z h0 h1 => aggBlock_apply V c t y z h0 h1) (fun y z h0 h1 => rootBlock_apply V c t y z h0 h1)
    (w3Block V c t) (b3Block V c t) j (((cfg2.win 9).blk t).view.emb j) ?_ ?_
  · show win2_9.index t (0 : Fin 2) * 2000 + 1 * (j 0).val = 2000 * t.val + (j 0).val
    rw [hi.1]; omega
  · show win2_9.index t (1 : Fin 2) * 64 + 1 * (j 1).val = (j 1).val
    rw [hi.2]; omega

/-! ## The fifty row blocks tile the node axis

An index of an output array lies in point `t`'s block iff its row is among rows 2000 t … 2000 t + 1999; so the row `r`
lies in the block of point `r / 2000`, and every output array ends holding its map of the node table. -/

theorem mem_blk7 (t : Fin cfg2.N) (i : S100000x64.Idx) :
    i ∈ ((cfg2.win 7).blk t).view.set ↔ ∀ a : Fin 2, win2_7.index t a * S2000x64.size a ≤ (i a).val ∧ (i a).val < win2_7.index t a * S2000x64.size a + S2000x64.size a := by
  show i ∈ ((View.whole main_v59_0).slice (win2_7.rect t)).set ↔ _
  rw [View.set_slice_whole, Rect.mem_set_unit]
  exact Iff.rfl

theorem mem_blk8 (t : Fin cfg2.N) (i : S100000x64.Idx) :
    i ∈ ((cfg2.win 8).blk t).view.set ↔ ∀ a : Fin 2, win2_8.index t a * S2000x64.size a ≤ (i a).val ∧ (i a).val < win2_8.index t a * S2000x64.size a + S2000x64.size a := by
  show i ∈ ((View.whole main_v59_1).slice (win2_8.rect t)).set ↔ _
  rw [View.set_slice_whole, Rect.mem_set_unit]
  exact Iff.rfl

theorem mem_blk9 (t : Fin cfg2.N) (i : S100000x64.Idx) :
    i ∈ ((cfg2.win 9).blk t).view.set ↔ ∀ a : Fin 2, win2_9.index t a * S2000x64.size a ≤ (i a).val ∧ (i a).val < win2_9.index t a * S2000x64.size a + S2000x64.size a := by
  show i ∈ ((View.whole main_v59_2).slice (win2_9.rect t)).set ↔ _
  rw [View.set_slice_whole, Rect.mem_set_unit]
  exact Iff.rfl

theorem cover7 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  have ht : t.val = (i 0).val / 2000 := rfl
  have hi := (idx_facts t).2.2.2.2.2.2.2.1
  refine ⟨t, flush2_7 t, ?_⟩
  rw [mem_blk7]
  intro a
  match a with
  | ⟨0, _⟩ => show win2_7.index t (0 : Fin 2) * 2000 ≤ (i 0).val ∧ (i 0).val < win2_7.index t (0 : Fin 2) * 2000 + 2000; rw [hi.1, ht]; omega
  | ⟨1, _⟩ => show win2_7.index t (1 : Fin 2) * 64 ≤ (i 1).val ∧ (i 1).val < win2_7.index t (1 : Fin 2) * 64 + 64; rw [hi.2]; omega

theorem cover8 (i : S100000x64.Idx) : ∃ t : Fin cfg2.N, (cfg2.win 8).flush t = true ∧ i ∈ ((cfg2.win 8).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  have ht : t.val = (i 0).val / 2000 := rfl
  have hi := (idx_facts t).2.2.2.2.2.2.2.2.1
  refine ⟨t, flush2_8 t, ?_⟩
  rw [mem_blk8]
  intro a
  match a with
  | ⟨0, _⟩ => show win2_8.index t (0 : Fin 2) * 2000 ≤ (i 0).val ∧ (i 0).val < win2_8.index t (0 : Fin 2) * 2000 + 2000; rw [hi.1, ht]; omega
  | ⟨1, _⟩ => show win2_8.index t (1 : Fin 2) * 64 ≤ (i 1).val ∧ (i 1).val < win2_8.index t (1 : Fin 2) * 64 + 64; rw [hi.2]; omega

theorem cover9 (i : S100000x64.Idx) : ∃ t : Fin cfg2.N, (cfg2.win 9).flush t = true ∧ i ∈ ((cfg2.win 9).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  have ht : t.val = (i 0).val / 2000 := rfl
  have hi := (idx_facts t).2.2.2.2.2.2.2.2.2
  refine ⟨t, flush2_9 t, ?_⟩
  rw [mem_blk9]
  intro a
  match a with
  | ⟨0, _⟩ => show win2_9.index t (0 : Fin 2) * 2000 ≤ (i 0).val ∧ (i 0).val < win2_9.index t (0 : Fin 2) * 2000 + 2000; rw [hi.1, ht]; omega
  | ⟨1, _⟩ => show win2_9.index t (1 : Fin 2) * 64 ≤ (i 1).val ∧ (i 1).val < win2_9.index t (1 : Fin 2) * 64 + 64; rw [hi.2]; omega

theorem a_eq (c : Dev nD) :
    (dat2 (F := Ideal) V c).arrAt 7 cfg2.N = Gnn.lin (nodes V c) (V c main_v50) (V c main_v52) :=
  (dat2 (F := Ideal) V c).arrAt_eq_of_cover 7 (Gnn.lin (nodes V c) (V c main_v50) (V c main_v52))
    (fun t _ => flushed7_eq V c t) cover7

theorem b_eq (c : Dev nD) :
    (dat2 (F := Ideal) V c).arrAt 8 cfg2.N = Gnn.mm (nodes V c) (V c main_v54) :=
  (dat2 (F := Ideal) V c).arrAt_eq_of_cover 8 (Gnn.mm (nodes V c) (V c main_v54))
    (fun t _ => flushed8_eq V c t) cover8

theorem c_eq (c : Dev nD) :
    (dat2 (F := Ideal) V c).arrAt 9 cfg2.N = Gnn.lin (nodes V c) (V c main_v56) (V c main_v58) :=
  (dat2 (F := Ideal) V c).arrAt_eq_of_cover 9 (Gnn.lin (nodes V c) (V c main_v56) (V c main_v58))
    (fun t _ => flushed9_eq V c t) cover9

end Cert.KernelIdeal.Layer2

end
-- ==== Proof.PoolRegion.lean ====
/-
  The pooling region, read as whole arrays: it joins the last layer's aggregated messages and root term, clips at zero,
  and accumulates over the fifty row blocks, for every graph, the sum of the rows whose label is that graph and their
  number. A row's label is compared with each graph number, so a label outside `[0, 512)` matches none.
-/
import proofs.«419727_j75720273429180_1_alg».proof.Proof.Gen.KernelIdeal.Frame
import proofs.«419727_j75720273429180_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.Pool

open Idealize.ShloMosaic Idealize.ShloMosaic.TcCoe Idealize.ShloMosaic.ValueIdx Cert.KernelIdeal Cert.KernelIdeal.Gen

section Pieces
variable {F : FTy → Type} [FloatOps F]

/-- Both offsets of a whole-buffer rectangle are zero. -/
theorem hz : (![0, 0] : Fin 2 → Nat) = fun _ => 0 := funext fun a => by fin_cases a <;> rfl

/-- At a later point the sums buffer, holding `xo3`, is left at the update of `xo3` by the point's blocks. -/
theorem out_B_3 (c : Dev nD) (i : grid3.Coords) (a1 : Memref sig .tc .vmem S2000x64 .f32) (h1 : a1.IsWhole)
    (a2 : Memref sig .tc .vmem S2000x64 .f32) (h2 : a2.IsWhole) (a3 : Memref sig .tc .vmem S2000x1 .i32) (h3 : a3.IsWhole)
    (a4 : Memref sig .tc .vmem S512x64 .f32) (h4 : a4.IsWhole) (a5 : Memref sig .tc .vmem S512x1 .f32) (h5 : a5.IsWhole)
    (hc : ¬cond3_0 i) (x0 x1 : Vec F S2000x64 .f32) (x2 : Vec F S2000x1 .i32) (xo3 : Vec F S512x64 .f32) (xo4 : Vec F S512x1 .f32) :
    out3_B_3 c i a1 h1 a2 h2 a3 h3 a4 h4 a5 h5 hc x0 x1 x2 xo3 xo4 = k3_pay4 x0 x1 x2 xo3 := by
  unfold out3_B_3
  rw [View.read_writes_eq_canon _ _ _ (cover3_B_3 c i a1 h1 a2 h2 a3 h3 a4 h4 a5 h5 hc x0 x1 x2 xo3 xo4)]
  unfold kernelRun3_B
  dsimp only
  sl_unfold_words
  rw [View.canon_unit_zero hz]
  simp only [View.readAt_eq_ld, h1.read_unread, h2.read_unread, h3.read_unread, h4.read_unread,
    View.ld_unit_zero (S := S2000x64) hz, View.ld_unit_zero (S := S2000x1) hz, View.ld_unit_zero (S := S512x64) hz]

/-- At a later point the counts buffer, holding `xo4`, is left at the update of `xo4` by the point's labels. -/
theorem out_B_4 (c : Dev nD) (i : grid3.Coords) (a1 : Memref sig .tc .vmem S2000x64 .f32) (h1 : a1.IsWhole)
    (a2 : Memref sig .tc .vmem S2000x64 .f32) (h2 : a2.IsWhole) (a3 : Memref sig .tc .vmem S2000x1 .i32) (h3 : a3.IsWhole)
    (a4 : Memref sig .tc .vmem S512x64 .f32) (h4 : a4.IsWhole) (a5 : Memref sig .tc .vmem S512x1 .f32) (h5 : a5.IsWhole)
    (hc : ¬cond3_0 i) (x0 x1 : Vec F S2000x64 .f32) (x2 : Vec F S2000x1 .i32) (xo3 : Vec F S512x64 .f32) (xo4 : Vec F S512x1 .f32) :
    out3_B_4 c i a1 h1 a2 h2 a3 h3 a4 h4 a5 h5 hc x0 x1 x2 xo3 xo4 = k3_pay5 x2 xo4 := by
  unfold out3_B_4
  rw [View.read_writes_eq_canon _ _ _ (cover3_B_4 c i a1 h1 a2 h2 a3 h3 a4 h4 a5 h5 hc x0 x1 x2 xo3 xo4)]
  unfold kernelRun3_B
  dsimp only
  sl_unfold_words
  rw [View.canon_unit_zero hz]
  simp only [View.readAt_eq_ld, h3.read_unread, h5.read_unread,
    View.ld_unit_zero (S := S2000x1) hz, View.ld_unit_zero (S := S512x1) hz]

/-- At the first point the sums buffer is reset to the zero block and then updated by the point's blocks. -/
theorem out_A_3 (c : Dev nD) (i : grid3.Coords) (a1 : Memref sig .tc .vmem S2000x64 .f32) (h1 : a1.IsWhole)
    (a2 : Memref sig .tc .vmem S2000x64 .f32) (h2 : a2.IsWhole) (a3 : Memref sig .tc .vmem S2000x1 .i32) (h3 : a3.IsWhole)
    (a4 : Memref sig .tc .vmem S512x64 .f32) (h4 : a4.IsWhole) (a5 : Memref sig .tc .vmem S512x1 .f32) (h5 : a5.IsWhole)
    (hc : cond3_0 i) (x0 x1 : Vec F S2000x64 .f32) (x2 : Vec F S2000x1 .i32) :
    out3_A_3 c i a1 h1 a2 h2 a3 h3 a4 h4 a5 h5 hc x0 x1 x2 = k3_pay4 x0 x1 x2 (k3_pay1 (F := F)) := by
  unfold out3_A_3
  rw [View.read_writes_eq_canon _ _ _ (cover3_A_3 c i a1 h1 a2 h2 a3 h3 a4 h4 a5 h5 hc x0 x1 x2)]
  unfold kernelRun3_A
  dsimp only
  sl_unfold_words
  rw [View.canon_cons_unit_zero (S := S512x64) hz, View.readCov_unit_zero (S := S512x64) _ hz]
  simp only [View.readAt_eq_ld, h1.read_unread, h2.read_unread, h3.read_unread,
    View.ld_unit_zero (S := S2000x64) hz, View.ld_unit_zero (S := S2000x1) hz]

/-- At the first point the counts buffer is reset to the zero column and then updated by the point's labels. -/
theorem out_A_4 (c : Dev nD) (i : grid3.Coords) (a1 : Memref sig .tc .vmem S2000x64 .f32) (h1 : a1.IsWhole)
    (a2 : Memref sig .tc .vmem S2000x64 .f32) (h2 : a2.IsWhole) (a3 : Memref sig .tc .vmem S2000x1 .i32) (h3 : a3.IsWhole)
    (a4 : Memref sig .tc .vmem S512x64 .f32) (h4 : a4.IsWhole) (a5 : Memref sig .tc .vmem S512x1 .f32) (h5 : a5.IsWhole)
    (hc : cond3_0 i) (x0 x1 : Vec F S2000x64 .f32) (x2 : Vec F S2000x1 .i32) :
    out3_A_4 c i a1 h1 a2 h2 a3 h3 a4 h4 a5 h5 hc x0 x1 x2 = k3_pay5 x2 (k3_pay2 (F := F)) := by
  unfold out3_A_4
  rw [View.read_writes_eq_canon _ _ _ (cover3_A_4 c i a1 h1 a2 h2 a3 h3 a4 h4 a5 h5 hc x0 x1 x2)]
  unfold kernelRun3_A
  dsimp only
  sl_unfold_words
  rw [View.canon_cons_unit_zero (S := S512x1) hz, View.readCov_unit_zero (S := S512x1) _ hz]
  simp only [View.readAt_eq_ld, h3.read_unread, View.ld_unit_zero (S := S2000x1) hz]

end Pieces

section Payload

/-- The widened, converted bit of a word comparison is one where the words agree and zero elsewhere. -/
theorem onehot_word (w v : BitVec 32) :
    ((((IntOp.cmpi .eq w v).setWidth 32).toInt : ℝ) : EReal) = if w = v then 1 else 0 := by
  by_cases h : w = v
  · subst h; rw [if_pos rfl]; simp [IntOp.cmpi]
  · rw [if_neg h]
    have hb : (w == v) = false := by simpa using h
    simp [IntOp.cmpi, hb]

/-- The one-hot matrix of a block of labels: entry `(r, g)` is one where row `r`'s label word is the word of `g`. -/
theorem pay3_apply (x2 : Vec Ideal S2000x1 .i32) (r : Fin 2000) (g : Fin 512) :
    (k3_pay3 (F := Ideal) x2) (ix2 r g) = if x2 (ix2 r (0 : Fin 1)) = BitVec.ofNat 32 g.val then (1 : EReal) else 0 := by
  unfold k3_pay3
  dsimp only
  show ((((IntOp.cmpi .eq (broadcastTo S2000x512 (shapeCast S2000x1 x2 shapeCasts_S2000x1_S2000x1) broadcasts_S2000x1_S2000x512 (ix2 r g))
    (iota .tc S2000x512 32 [1] iota_S2000x512_d1_w32 (ix2 r g))).setWidth 32).toInt : ℝ) : EReal) = _
  rw [onehot_word, shapeCast_self, iota_single_apply,
    broadcastTo_apply x2 broadcasts_S2000x1_S2000x512 (ix2 r g) (ix2 r (0 : Fin 1))
      (fun a => match a with | ⟨0, _⟩ => rfl | ⟨1, _⟩ => rfl)]

/-- The two products of the region: both contract the row axis of the one-hot matrix with the row axis of the other operand. -/
abbrev dotS := dot_S2000x512_S2000x64_S512x64_0_0_1_1_n_n
abbrev dotC := dot_S2000x512_S2000x1_S512x1_0_0_1_1_n_n

theorem dotS_rank : dotS.contr.rank = 1 := rfl
theorem dotS_size : dotS.contr.size ⟨0, by rw [dotS_rank]; omega⟩ = 2000 := rfl
theorem dotC_rank : dotC.contr.rank = 1 := rfl
theorem dotC_size : dotC.contr.size ⟨0, by rw [dotC_rank]; omega⟩ = 2000 := rfl

/-- At result entry `(g, d)` and contraction position `r` the sums product reads the one-hot matrix at `(r, g)` -/
theorem dotS_lhs (g : Fin 512) (d : Fin 64) (r : Fin 2000) :
    dotS.lhsIdx (ix2 g d) ((contrEquiv1 dotS 2000 dotS_rank dotS_size).symm r) = ix2 r g :=
  Shape.idx_ext₂ (contrEquiv1_symm_val dotS 2000 dotS_rank dotS_size r) rfl
/-- and the node block at `(r, d)`. -/
theorem dotS_rhs (g : Fin 512) (d : Fin 64) (r : Fin 2000) :
    dotS.rhsIdx (ix2 g d) ((contrEquiv1 dotS 2000 dotS_rank dotS_size).symm r) = ix2 r d :=
  Shape.idx_ext₂ (contrEquiv1_symm_val dotS 2000 dotS_rank dotS_size r) rfl
/-- Likewise the counts product reads the one-hot matrix at `(r, g)` -/
theorem dotC_lhs (g : Fin 512) (r : Fin 2000) :
    dotC.lhsIdx (ix2 g (0 : Fin 1)) ((contrEquiv1 dotC 2000 dotC_rank dotC_size).symm r) = ix2 r g :=
  Shape.idx_ext₂ (contrEquiv1_symm_val dotC 2000 dotC_rank dotC_size r) rfl
/-- and the column of ones at `(r, 0)`. -/
theorem dotC_rhs (g : Fin 512) (r : Fin 2000) :
    dotC.rhsIdx (ix2 g (0 : Fin 1)) ((contrEquiv1 dotC 2000 dotC_rank dotC_size).symm r) = ix2 r (0 : Fin 1) :=
  Shape.idx_ext₂ (contrEquiv1_symm_val dotC 2000 dotC_rank dotC_size r) rfl

/-- The sums update at entry `(g, d)`: the previous entry plus, over the block's rows, the one-hot entry times the clipped node entry. -/
theorem pay4_apply (x0 x1 : Vec Ideal S2000x64 .f32) (x2 : Vec Ideal S2000x1 .i32) (xo : Vec Ideal S512x64 .f32)
    (g : Fin 512) (d : Fin 64) :
    k3_pay4 (F := Ideal) x0 x1 x2 xo (ix2 g d)
      = xo (ix2 g d) + ∑ r : Fin 2000, (if x2 (ix2 r (0 : Fin 1)) = BitVec.ofNat 32 g.val then (1 : EReal) else 0)
          * max (x0 (ix2 r d) + x1 (ix2 r d)) 0 := by
  unfold k3_pay4
  show shapeCast S512x64 xo shapeCasts_S512x64_S512x64 (ix2 g d)
      + FloatOps.matmul dotS none (k3_pay3 (F := Ideal) x2) _ (constant S512x64 .f32 0x00000000#32) (ix2 g d) = _
  rw [shapeCast_self, Ideal.matmul_constant_zero_apply, ← Equiv.sum_comp (contrEquiv1 dotS 2000 dotS_rank dotS_size).symm]
  refine congrArg (xo (ix2 g d) + ·) (Finset.sum_congr rfl fun r _ => ?_)
  rw [dotS_lhs, dotS_rhs, pay3_apply]
  show _ * max (shapeCast S2000x64 x0 shapeCasts_S2000x64_S2000x64 (ix2 r d) + shapeCast S2000x64 x1 shapeCasts_S2000x64_S2000x64 (ix2 r d))
    (Ideal.ofBits .f32 0x00000000#32) = _
  rw [shapeCast_self, shapeCast_self, Ideal.ofBits_zero_f32]

/-- The counts update at entry `(g, 0)`: the previous entry plus the number of the block's rows whose label word is the word of `g`. -/
theorem pay5_apply (x2 : Vec Ideal S2000x1 .i32) (xo : Vec Ideal S512x1 .f32) (g : Fin 512) :
    k3_pay5 (F := Ideal) x2 xo (ix2 g (0 : Fin 1))
      = xo (ix2 g (0 : Fin 1)) + ∑ r : Fin 2000, (if x2 (ix2 r (0 : Fin 1)) = BitVec.ofNat 32 g.val then (1 : EReal) else 0) := by
  unfold k3_pay5
  show shapeCast S512x1 xo shapeCasts_S512x1_S512x1 (ix2 g (0 : Fin 1))
      + FloatOps.matmul dotC none (k3_pay3 (F := Ideal) x2) _ (constant S512x1 .f32 0x00000000#32) (ix2 g (0 : Fin 1)) = _
  rw [shapeCast_self, Ideal.matmul_constant_zero_apply, ← Equiv.sum_comp (contrEquiv1 dotC 2000 dotC_rank dotC_size).symm]
  refine congrArg (xo (ix2 g (0 : Fin 1)) + ·) (Finset.sum_congr rfl fun r _ => ?_)
  rw [dotC_lhs, dotC_rhs, pay3_apply]
  show _ * Ideal.ofBits .bf16 0x3F80#16 = _
  rw [Ideal.ofBits_one_bf16, mul_one]

end Payload

section Words

/-- For a graph number below 512 the label word is the word of the number exactly when, read signed, it is the number. -/
theorem label_iff (w : BitVec 32) (g : Fin 512) : w = BitVec.ofNat 32 g.val ↔ w.toInt = (g.val : ℤ) := by
  have hg := g.isLt
  have hw := w.isLt
  have e := BitVec.toInt_eq_toNat_cond w
  constructor
  · rintro rfl
    have hn : (BitVec.ofNat 32 g.val).toNat = g.val := by rw [BitVec.toNat_ofNat]; omega
    rw [hn] at e
    omega
  · intro h
    apply BitVec.eq_of_toNat_eq
    rw [BitVec.toNat_ofNat]
    omega

/-- A one-hot entry times `x` keeps `x` on the rows of the graph and nothing elsewhere. -/
theorem onehot_mul (w : BitVec 32) (g : Fin 512) (x : EReal) :
    (if w = BitVec.ofNat 32 g.val then (1 : EReal) else 0) * x = if w.toInt = (g.val : ℤ) then x else 0 := by
  by_cases h : w = BitVec.ofNat 32 g.val
  · rw [if_pos h, if_pos ((label_iff w g).mp h), one_mul]
  · rw [if_neg h, if_neg (fun h' => h ((label_iff w g).mpr h')), zero_mul]

/-- The one-hot entry alone counts the rows of the graph. -/
theorem onehot_one (w : BitVec 32) (g : Fin 512) :
    (if w = BitVec.ofNat 32 g.val then (1 : EReal) else 0) = if w.toInt = (g.val : ℤ) then 1 else 0 := by
  by_cases h : w = BitVec.ofNat 32 g.val
  · rw [if_pos h, if_pos ((label_iff w g).mp h)]
  · rw [if_neg h, if_neg (fun h' => h ((label_iff w g).mpr h'))]

/-- A sum over the hundred thousand rows, block by block: fifty blocks of two thousand rows. -/
theorem sum_blocks (f : Fin 100000 → EReal) :
    ∑ p, f p = ∑ t : Fin 50, ∑ r : Fin 2000, f ⟨2000 * t.val + r.val, by have := t.isLt; have := r.isLt; omega⟩ := by
  rw [← Equiv.sum_comp (finProdFinEquiv (m := 50) (n := 2000)) f, Fintype.sum_prod_type]
  refine Finset.sum_congr rfl fun t _ => Finset.sum_congr rfl fun r _ => congrArg f (Fin.ext ?_)
  show r.val + 2000 * t.val = 2000 * t.val + r.val
  omega

end Words

variable (V : (c : Dev nD) → (b : Ref sig .tc) → Buf (Elt Ideal) ((c : Thread nD τ).loc b))

/-- The node table the region pools. -/
abbrev nodes (c : Dev nD) : Gnn.Arr2 100000 64 := Gnn.node (V c main_v67) (V c main_v59_2)
/-- The label words, one per node. -/
abbrev labels (c : Dev nD) : Fin 100000 → BitVec 32 := fun p => (V c main_v4 : S100000x1.Idx → BitVec 32) (ix2 p (0 : Fin 1))

/-- The grid has fifty points. -/
theorem N50 : cfg3.N = 50 := N_3

/-- Row `r` of the block at point `t` is row `2000 t + r` of the table. -/
abbrev rowOf (t : Fin cfg3.N) (r : Fin 2000) : Fin 100000 :=
  ⟨2000 * t.val + r.val, by have := t.isLt; have := N50; have := r.isLt; omega⟩

/-- The three input windows walk down the rows: block index `(t, 0)` at point `t`. -/
theorem index3_0 : ∀ t : Fin cfg3.N, win3_0.index t 0 = t.val ∧ win3_0.index t 1 = 0 :=
  (by decide +kernel : ∀ t : Fin grid3.N, win3_0.index t 0 = t.val ∧ win3_0.index t 1 = 0)
theorem index3_1 : ∀ t : Fin cfg3.N, win3_1.index t 0 = t.val ∧ win3_1.index t 1 = 0 :=
  (by decide +kernel : ∀ t : Fin grid3.N, win3_1.index t 0 = t.val ∧ win3_1.index t 1 = 0)
theorem index3_2 : ∀ t : Fin cfg3.N, win3_2.index t 0 = t.val ∧ win3_2.index t 1 = 0 :=
  (by decide +kernel : ∀ t : Fin grid3.N, win3_2.index t 0 = t.val ∧ win3_2.index t 1 = 0)
/-- The two output windows stay at block `(0, 0)`. -/
theorem index3_3 : ∀ t : Fin cfg3.N, win3_3.index t 0 = 0 ∧ win3_3.index t 1 = 0 :=
  (by decide +kernel : ∀ t : Fin grid3.N, win3_3.index t 0 = 0 ∧ win3_3.index t 1 = 0)
theorem index3_4 : ∀ t : Fin cfg3.N, win3_4.index t 0 = 0 ∧ win3_4.index t 1 = 0 :=
  (by decide +kernel : ∀ t : Fin grid3.N, win3_4.index t 0 = 0 ∧ win3_4.index t 1 = 0)

/-- The blocks of the aggregated messages, of the root term and of the labels at point `t`. -/
abbrev xblk (c : Dev nD) (t : Fin cfg3.N) : Vec Ideal S2000x64 .f32 := iblk3 V c 0 t
abbrev yblk (c : Dev nD) (t : Fin cfg3.N) : Vec Ideal S2000x64 .f32 := iblk3 V c 1 t
abbrev lblk (c : Dev nD) (t : Fin cfg3.N) : Vec Ideal S2000x1 .i32 := iblk3 V c 2 t

theorem xblk_apply (c : Dev nD) (t : Fin cfg3.N) (r : Fin 2000) (d : Fin 64) :
    xblk V c t (ix2 r d) = (V c main_v67 : S100000x64.Idx → EReal) (ix2 (rowOf t r) d) := by
  show ((cfg3.win 0).blk t).view.read (Elt Ideal) (V c (Pipeline.arrRef spec3 0)) (ix2 r d) = _
  rw [View.read_apply]
  show (V c main_v67 : S100000x64.Idx → EReal) _ = _
  refine congrArg _ (Shape.idx_ext₂ ?_ ?_)
  · show win3_0.index t 0 * 2000 + 1 * r.val = 2000 * t.val + r.val
    rw [(index3_0 t).1]; omega
  · show win3_0.index t 1 * 64 + 1 * d.val = d.val
    rw [(index3_0 t).2]; omega

theorem yblk_apply (c : Dev nD) (t : Fin cfg3.N) (r : Fin 2000) (d : Fin 64) :
    yblk V c t (ix2 r d) = (V c main_v59_2 : S100000x64.Idx → EReal) (ix2 (rowOf t r) d) := by
  show ((cfg3.win 1).blk t).view.read (Elt Ideal) (V c (Pipeline.arrRef spec3 1)) (ix2 r d) = _
  rw [View.read_apply]
  show (V c main_v59_2 : S100000x64.Idx → EReal) _ = _
  refine congrArg _ (Shape.idx_ext₂ ?_ ?_)
  · show win3_1.index t 0 * 2000 + 1 * r.val = 2000 * t.val + r.val
    rw [(index3_1 t).1]; omega
  · show win3_1.index t 1 * 64 + 1 * d.val = d.val
    rw [(index3_1 t).2]; omega

theorem lblk_apply (c : Dev nD) (t : Fin cfg3.N) (r : Fin 2000) :
    lblk V c t (ix2 r (0 : Fin 1)) = labels V c (rowOf t r) := by
  show ((cfg3.win 2).blk t).view.read (Elt Ideal) (V c (Pipeline.arrRef spec3 2)) (ix2 r (0 : Fin 1)) = _
  rw [View.read_apply]
  show (V c main_v4 : S100000x1.Idx → BitVec 32) _ = (V c main_v4 : S100000x1.Idx → BitVec 32) _
  refine congrArg _ (Shape.idx_ext₂ ?_ ?_)
  · show win3_2.index t 0 * 2000 + 1 * r.val = 2000 * t.val + r.val
    rw [(index3_2 t).1]; omega
  · show win3_2.index t 1 * 1 + 1 * 0 = 0
    rw [(index3_2 t).2]

/-- What the block at point `t` adds to the sums entry `(g, d)`: the node entries of its rows whose label is `g`. -/
def addS (c : Dev nD) (t : Fin cfg3.N) (g : Fin 512) (d : Fin 64) : EReal :=
  ∑ r : Fin 2000, if (labels V c (rowOf t r)).toInt = (g.val : ℤ) then nodes V c (ix2 (rowOf t r) d) else 0
/-- What it adds to the counts entry `(g, 0)`: the number of those rows. -/
def addC (c : Dev nD) (t : Fin cfg3.N) (g : Fin 512) : EReal :=
  ∑ r : Fin 2000, if (labels V c (rowOf t r)).toInt = (g.val : ℤ) then (1 : EReal) else 0

/-- One point's update of the sums block `xo`: the word test becomes the signed test, the clipped sum the node entry. -/
theorem step_S (c : Dev nD) (t : Fin cfg3.N) (xo : Vec Ideal S512x64 .f32) (g : Fin 512) (d : Fin 64) :
    k3_pay4 (F := Ideal) (xblk V c t) (yblk V c t) (lblk V c t) xo (ix2 g d) = xo (ix2 g d) + addS V c t g d := by
  rw [pay4_apply]
  refine congrArg (xo (ix2 g d) + ·) (Finset.sum_congr rfl fun r _ => ?_)
  rw [xblk_apply, yblk_apply, lblk_apply]
  exact onehot_mul _ g _

/-- One point's update of the counts block `xo`. -/
theorem step_C (c : Dev nD) (t : Fin cfg3.N) (xo : Vec Ideal S512x1 .f32) (g : Fin 512) :
    k3_pay5 (F := Ideal) (lblk V c t) xo (ix2 g (0 : Fin 1)) = xo (ix2 g (0 : Fin 1)) + addC V c t g := by
  rw [pay5_apply]
  refine congrArg (xo (ix2 g (0 : Fin 1)) + ·) (Finset.sum_congr rfl fun r _ => ?_)
  rw [lblk_apply]
  exact onehot_one _ g

/-- The first point leaves the update of the zero blocks, -/
theorem outsA_1 (c : Dev nD) (t : Fin cfg3.N) (h0 : t.val % 50 = 0) :
    (outsAt3 V c t.val t.isLt).1 = k3_pay4 (F := Ideal) (xblk V c t) (yblk V c t) (lblk V c t) (k3_pay1 (F := Ideal)) := by
  rw [outsAt3_A V c t h0]; dsimp only
  exact out_A_3 (F := Ideal) c (grid3.coords t) (ms3_0 t) (hs3_0 t) (ms3_1 t) (hs3_1 t) (ms3_2 t) (hs3_2 t) (ms3_3 t) (hs3_3 t)
    (ms3_4 t) (hs3_4 t) ((hcond3_0 t).mpr h0) (iblk3 V c 0 t) (iblk3 V c 1 t) (iblk3 V c 2 t)
theorem outsA_2 (c : Dev nD) (t : Fin cfg3.N) (h0 : t.val % 50 = 0) :
    (outsAt3 V c t.val t.isLt).2 = k3_pay5 (F := Ideal) (lblk V c t) (k3_pay2 (F := Ideal)) := by
  rw [outsAt3_A V c t h0]; dsimp only
  exact out_A_4 (F := Ideal) c (grid3.coords t) (ms3_0 t) (hs3_0 t) (ms3_1 t) (hs3_1 t) (ms3_2 t) (hs3_2 t) (ms3_3 t) (hs3_3 t)
    (ms3_4 t) (hs3_4 t) ((hcond3_0 t).mpr h0) (iblk3 V c 0 t) (iblk3 V c 1 t) (iblk3 V c 2 t)
/-- a later point the update of what the point before left. -/
theorem outsB_1 (c : Dev nD) (t : Fin cfg3.N) (h0 : ¬t.val % 50 = 0) :
    (outsAt3 V c t.val t.isLt).1 = k3_pay4 (F := Ideal) (xblk V c t) (yblk V c t) (lblk V c t)
      (outsAt3 V c (t.val - 1) (Nat.lt_of_le_of_lt (Nat.sub_le _ _) t.isLt)).1 := by
  rw [outsAt3_B V c t h0]; dsimp only
  exact out_B_3 (F := Ideal) c (grid3.coords t) (ms3_0 t) (hs3_0 t) (ms3_1 t) (hs3_1 t) (ms3_2 t) (hs3_2 t) (ms3_3 t) (hs3_3 t)
    (ms3_4 t) (hs3_4 t) (fun h => h0 ((hcond3_0 t).mp h)) (iblk3 V c 0 t) (iblk3 V c 1 t) (iblk3 V c 2 t)
    (outsAt3 V c (t.val - 1) (Nat.lt_of_le_of_lt (Nat.sub_le _ _) t.isLt)).1
    (outsAt3 V c (t.val - 1) (Nat.lt_of_le_of_lt (Nat.sub_le _ _) t.isLt)).2
theorem outsB_2 (c : Dev nD) (t : Fin cfg3.N) (h0 : ¬t.val % 50 = 0) :
    (outsAt3 V c t.val t.isLt).2 = k3_pay5 (F := Ideal) (lblk V c t)
      (outsAt3 V c (t.val - 1) (Nat.lt_of_le_of_lt (Nat.sub_le _ _) t.isLt)).2 := by
  rw [outsAt3_B V c t h0]; dsimp only
  exact out_B_4 (F := Ideal) c (grid3.coords t) (ms3_0 t) (hs3_0 t) (ms3_1 t) (hs3_1 t) (ms3_2 t) (hs3_2 t) (ms3_3 t) (hs3_3 t)
    (ms3_4 t) (hs3_4 t) (fun h => h0 ((hcond3_0 t).mp h)) (iblk3 V c 0 t) (iblk3 V c 1 t) (iblk3 V c 2 t)
    (outsAt3 V c (t.val - 1) (Nat.lt_of_le_of_lt (Nat.sub_le _ _) t.isLt)).1
    (outsAt3 V c (t.val - 1) (Nat.lt_of_le_of_lt (Nat.sub_le _ _) t.isLt)).2

/-- After point `n` the sums block holds what the blocks up to `n` add, by induction on the point. -/
theorem sums_inv (c : Dev nD) (g : Fin 512) (d : Fin 64) : ∀ (n : ℕ) (h : n < cfg3.N),
    (outsAt3 V c n h).1 (ix2 g d) = ∑ s : Fin (n + 1), addS V c ⟨s.val, Nat.lt_of_lt_of_le s.isLt h⟩ g d
  | 0, h => by
    rw [Fin.sum_univ_one]
    refine (congrFun (outsA_1 V c ⟨0, h⟩ rfl) (ix2 g d)).trans ?_
    rw [step_S]
    show Ideal.ofBits .f32 0x00000000#32 + _ = _
    rw [Ideal.ofBits_zero_f32, zero_add]
    rfl
  | n + 1, h => by
    have hN := N50
    have hB : ¬(⟨n + 1, h⟩ : Fin cfg3.N).val % 50 = 0 := by dsimp only; omega
    rw [Fin.sum_univ_castSucc]
    refine (congrFun (outsB_1 V c ⟨n + 1, h⟩ hB) (ix2 g d)).trans ?_
    rw [step_S]
    exact congrArg₂ (· + ·) (sums_inv c g d n (Nat.lt_of_succ_lt h)) rfl

/-- Likewise the counts block. -/
theorem counts_inv (c : Dev nD) (g : Fin 512) : ∀ (n : ℕ) (h : n < cfg3.N),
    (outsAt3 V c n h).2 (ix2 g (0 : Fin 1)) = ∑ s : Fin (n + 1), addC V c ⟨s.val, Nat.lt_of_lt_of_le s.isLt h⟩ g
  | 0, h => by
    rw [Fin.sum_univ_one]
    refine (congrFun (outsA_2 V c ⟨0, h⟩ rfl) (ix2 g (0 : Fin 1))).trans ?_
    rw [step_C]
    show Ideal.ofBits .f32 0x00000000#32 + _ = _
    rw [Ideal.ofBits_zero_f32, zero_add]
    rfl
  | n + 1, h => by
    have hN := N50
    have hB : ¬(⟨n + 1, h⟩ : Fin cfg3.N).val % 50 = 0 := by dsimp only; omega
    rw [Fin.sum_univ_castSucc]
    refine (congrFun (outsB_2 V c ⟨n + 1, h⟩ hB) (ix2 g (0 : Fin 1))).trans ?_
    rw [step_C]
    exact congrArg₂ (· + ·) (counts_inv c g n (Nat.lt_of_succ_lt h)) rfl

/-- After the last point the fifty blocks are all the rows: the sums block is the segment sum, -/
theorem sums_last (c : Dev nD) (h : 49 < cfg3.N) (g : Fin 512) (d : Fin 64) :
    (outsAt3 V c 49 h).1 (ix2 g d) = Gnn.segSum (nodes V c) (labels V c) (ix2 g d) := by
  rw [sums_inv V c g d 49 h]
  show _ = ∑ p : Fin 100000, if (labels V c p).toInt = (g.val : ℤ) then nodes V c (ix2 p d) else 0
  rw [sum_blocks]
  exact Finset.sum_congr rfl fun t _ => rfl
/-- and the counts block the segment count. -/
theorem counts_last (c : Dev nD) (h : 49 < cfg3.N) (g : Fin 512) :
    (outsAt3 V c 49 h).2 (ix2 g (0 : Fin 1)) = Gnn.segCount (labels V c) (ix2 g (0 : Fin 1)) := by
  rw [counts_inv V c g 49 h]
  show _ = ∑ p : Fin 100000, if (labels V c p).toInt = (g.val : ℤ) then (1 : EReal) else 0
  rw [sum_blocks]
  exact Finset.sum_congr rfl fun t _ => rfl

/-- The outputs' one block sits at the origin, so an entry of the block is the same entry of the array. -/
theorem emb_S (t : Fin cfg3.N) (g : Fin 512) (d : Fin 64) :
    ((cfg3.win 3).blk t).view.emb (ix2 g d) = (ix2 g d : S512x64.Idx) :=
  Shape.idx_ext₂ (by show win3_3.index t 0 * 512 + 1 * g.val = g.val; rw [(index3_3 t).1]; omega)
    (by show win3_3.index t 1 * 64 + 1 * d.val = d.val; rw [(index3_3 t).2]; omega)
theorem emb_C (t : Fin cfg3.N) (g : Fin 512) :
    ((cfg3.win 4).blk t).view.emb (ix2 g (0 : Fin 1)) = (ix2 g (0 : Fin 1) : S512x1.Idx) :=
  Shape.idx_ext₂ (by show win3_4.index t 0 * 512 + 1 * g.val = g.val; rw [(index3_4 t).1]; omega)
    (by show win3_4.index t 1 * 1 + 1 * 0 = 0; rw [(index3_4 t).2])

/-- The blocks are not cut, so the write-back moves every entry of the buffer. -/
theorem xinj_S (t : Fin cfg3.N) (g : Fin 512) (d : Fin 64) :
    (cfg3.win 3).xinj (cfg3.grid.coords t) (ix2 g d) = (ix2 g d : S512x64.Idx) := Shape.idx_ext₂ rfl rfl
theorem xinj_C (t : Fin cfg3.N) (g : Fin 512) :
    (cfg3.win 4).xinj (cfg3.grid.coords t) (ix2 g (0 : Fin 1)) = (ix2 g (0 : Fin 1) : S512x1.Idx) := Shape.idx_ext₂ rfl rfl

/-- What a point writes back is what its body left in the buffer. -/
theorem flushed_S (c : Dev nD) (t : Fin cfg3.N) (g : Fin 512) (d : Fin 64) :
    (dat3 (F := Ideal) V c).flushed 3 t (ix2 g d) = (outsAt3 V c t.val t.isLt).1 (ix2 g d) := by
  show (cfg3.win 3).cut (cfg3.grid.coords t) ((dat3 (F := Ideal) V c).after 3 t) (ix2 g d) = _
  rw [after3_3]
  exact congrArg (outsAt3 V c t.val t.isLt).1 (xinj_S t g d)
theorem flushed_C (c : Dev nD) (t : Fin cfg3.N) (g : Fin 512) :
    (dat3 (F := Ideal) V c).flushed 4 t (ix2 g (0 : Fin 1)) = (outsAt3 V c t.val t.isLt).2 (ix2 g (0 : Fin 1)) := by
  show (cfg3.win 4).cut (cfg3.grid.coords t) ((dat3 (F := Ideal) V c).after 4 t) (ix2 g (0 : Fin 1)) = _
  rw [after3_4]
  exact congrArg (outsAt3 V c t.val t.isLt).2 (xinj_C t g)

/-- A whole-array table read through the outputs' block is the table. -/
theorem read_S (t : Fin cfg3.N) (G : Gnn.Arr2 512 64) (g : Fin 512) (d : Fin 64) :
    ((cfg3.win 3).blk t).view.read (Elt Ideal) G (ix2 g d) = G (ix2 g d) := by
  rw [View.read_apply]
  show G (((cfg3.win 3).blk t).view.emb (ix2 g d)) = _
  rw [emb_S]
theorem read_C (t : Fin cfg3.N) (G : Gnn.Arr2 512 1) (g : Fin 512) :
    ((cfg3.win 4).blk t).view.read (Elt Ideal) G (ix2 g (0 : Fin 1)) = G (ix2 g (0 : Fin 1)) := by
  rw [View.read_apply]
  show G (((cfg3.win 4).blk t).view.emb (ix2 g (0 : Fin 1))) = _
  rw [emb_C]

/-- The last point is the one that writes the blocks back. -/
theorem last_of_flush3 (t : Fin cfg3.N) (hf : (cfg3.win 3).flush t = true) : t.val = 49 := by
  have := (flush3_3 t).mp hf; have := t.isLt; have := N50; omega
theorem last_of_flush4 (t : Fin cfg3.N) (hf : (cfg3.win 4).flush t = true) : t.val = 49 := by
  have := (flush3_4 t).mp hf; have := t.isLt; have := N50; omega

theorem sums_eq (c : Dev nD) :
    (dat3 (F := Ideal) V c).arrAt 3 cfg3.N = Gnn.segSum (nodes V c) (labels V c) := by
  refine (dat3 (F := Ideal) V c).arrAt_eq_of_cover 3 (Gnn.segSum (nodes V c) (labels V c)) (fun t hf => ?_) (fun i => ?_)
  · -- what the last point writes back is the segment sum, entry by entry
    obtain ⟨n, hn⟩ := t
    obtain rfl : n = 49 := last_of_flush3 ⟨n, hn⟩ hf
    funext y
    obtain ⟨g, d, rfl⟩ : ∃ (g : Fin 512) (d : Fin 64), y = ix2 g d := ⟨y 0, y 1, eq_ix2 y⟩
    exact (flushed_S V c ⟨49, hn⟩ g d).trans ((sums_last V c hn g d).trans (read_S ⟨49, hn⟩ _ g d).symm)
  · -- and its block is the whole array
    obtain ⟨g, d, rfl⟩ : ∃ (g : Fin 512) (d : Fin 64), i = ix2 g d := ⟨i 0, i 1, eq_ix2 i⟩
    have h49 : 49 < cfg3.N := by rw [N50]; omega
    refine ⟨⟨49, h49⟩, (flush3_3 _).mpr rfl, ?_⟩
    rw [← emb_S ⟨49, h49⟩ g d]
    exact View.emb_mem_set _ _

theorem counts_eq (c : Dev nD) :
    (dat3 (F := Ideal) V c).arrAt 4 cfg3.N = Gnn.segCount (labels V c) := by
  refine (dat3 (F := Ideal) V c).arrAt_eq_of_cover 4 (Gnn.segCount (labels V c)) (fun t hf => ?_) (fun i => ?_)
  · obtain ⟨n, hn⟩ := t
    obtain rfl : n = 49 := last_of_flush4 ⟨n, hn⟩ hf
    funext y
    obtain ⟨g, z, rfl⟩ : ∃ (g : Fin 512) (z : Fin 1), y = ix2 g z := ⟨y 0, y 1, eq_ix2 y⟩
    obtain rfl : z = 0 := Subsingleton.elim _ _
    exact (flushed_C V c ⟨49, hn⟩ g).trans ((counts_last V c hn g).trans (read_C ⟨49, hn⟩ _ g).symm)
  · obtain ⟨g, z, rfl⟩ : ∃ (g : Fin 512) (z : Fin 1), i = ix2 g z := ⟨i 0, i 1, eq_ix2 i⟩
    obtain rfl : z = 0 := Subsingleton.elim _ _
    have h49 : 49 < cfg3.N := by rw [N50]; omega
    refine ⟨⟨49, h49⟩, (flush3_4 _).mpr rfl, ?_⟩
    rw [← emb_C ⟨49, h49⟩ g]
    exact View.emb_mem_set _ _

end Cert.KernelIdeal.Pool

end
-- ==== Proof.HeadRegion.lean ====
/-
  The last kernel region, one grid point: the mean of each graph's rows (its size taken as at least one) sent through
  the two-layer head.
-/
import proofs.«419727_j75720273429180_1_alg».proof.Proof.Gen.KernelIdeal.Frame
import proofs.«419727_j75720273429180_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.Head

open Idealize.ShloMosaic Idealize.ShloMosaic.TcCoe Idealize.ShloMosaic.ValueIdx Cert.KernelIdeal Cert.KernelIdeal.Gen

/-! ## The two matrix products at an index

For each product the four coordinate facts of its dimension numbers — the left operand is read at the output's row and the
contracted coordinate, the right operand at the contracted coordinate and the output's column — and then the product into the
zero accumulator as the sum over the contracted coordinate. -/

theorem lhsHidden_0 (i : S512x32.Idx) (q : dot_S512x64_S64x32_S512x32_1_0_0_1_n_n.contr.Idx) :
    (dot_S512x64_S64x32_S512x32_1_0_0_1_n_n.lhsIdx i q 0).val = (i 0).val := by
  unfold DotDims.lhsIdx
  rw [dif_neg (show ¬(0 : Fin S512x64.rank) ∈ dot_S512x64_S64x32_S512x32_1_0_0_1_n_n.lhsBatch by decide),
    dif_pos (show (0 : Fin S512x64.rank) ∈ dot_S512x64_S64x32_S512x32_1_0_0_1_n_n.lhsNonContracting by decide)]
  rfl
theorem lhsHidden_1 (i : S512x32.Idx) (q : dot_S512x64_S64x32_S512x32_1_0_0_1_n_n.contr.Idx) :
    (dot_S512x64_S64x32_S512x32_1_0_0_1_n_n.lhsIdx i q 1).val = (q ⟨0, by decide⟩).val :=
  dot_S512x64_S64x32_S512x32_1_0_0_1_n_n.lhsIdx_val_of_single rfl i q
theorem rhsHidden_0 (i : S512x32.Idx) (q : dot_S512x64_S64x32_S512x32_1_0_0_1_n_n.contr.Idx) :
    (dot_S512x64_S64x32_S512x32_1_0_0_1_n_n.rhsIdx i q 0).val = (q ⟨0, by decide⟩).val :=
  dot_S512x64_S64x32_S512x32_1_0_0_1_n_n.rhsIdx_val_of_single rfl i q
theorem rhsHidden_1 (i : S512x32.Idx) (q : dot_S512x64_S64x32_S512x32_1_0_0_1_n_n.contr.Idx) :
    (dot_S512x64_S64x32_S512x32_1_0_0_1_n_n.rhsIdx i q 1).val = (i 1).val := by
  unfold DotDims.rhsIdx
  rw [dif_neg (show ¬(1 : Fin S64x32.rank) ∈ dot_S512x64_S64x32_S512x32_1_0_0_1_n_n.rhsBatch by decide),
    dif_pos (show (1 : Fin S64x32.rank) ∈ dot_S512x64_S64x32_S512x32_1_0_0_1_n_n.rhsNonContracting by decide)]
  rfl

theorem matmulHidden_apply (A : FVec Ideal S512x64 .bf16) (B : FVec Ideal S64x32 .bf16) (p : Fin 512) (q : Fin 32) :
    matmul dot_S512x64_S64x32_S512x32_1_0_0_1_n_n none A B (constant (F := Ideal) S512x32 .f32 0x00000000#32) (ix2 p q)
      = ∑ k : Fin 64, A (ix2 p k) * B (ix2 k q) := by
  simp only [matmul]
  rw [Ideal.matmul_constant_zero_apply, ← Equiv.sum_comp (contrEquiv1 dot_S512x64_S64x32_S512x32_1_0_0_1_n_n 64 rfl rfl).symm]
  refine Finset.sum_congr rfl fun k _ => ?_
  have hk := contrEquiv1_symm_val dot_S512x64_S64x32_S512x32_1_0_0_1_n_n 64 rfl rfl k
  have el : dot_S512x64_S64x32_S512x32_1_0_0_1_n_n.lhsIdx (ix2 p q) ((contrEquiv1 dot_S512x64_S64x32_S512x32_1_0_0_1_n_n 64 rfl rfl).symm k) = ix2 p k :=
    funext fun a => Fin.ext (by
      match a with
      | ⟨0, _⟩ => exact lhsHidden_0 _ _
      | ⟨1, _⟩ => exact (lhsHidden_1 _ _).trans hk)
  have er : dot_S512x64_S64x32_S512x32_1_0_0_1_n_n.rhsIdx (ix2 p q) ((contrEquiv1 dot_S512x64_S64x32_S512x32_1_0_0_1_n_n 64 rfl rfl).symm k) = ix2 k q :=
    funext fun a => Fin.ext (by
      match a with
      | ⟨0, _⟩ => exact (rhsHidden_0 _ _).trans hk
      | ⟨1, _⟩ => exact rhsHidden_1 _ _)
  rw [el, er]

theorem lhsOut_0 (i : S512x3.Idx) (q : dot_S512x32_S32x3_S512x3_1_0_0_1_n_n.contr.Idx) :
    (dot_S512x32_S32x3_S512x3_1_0_0_1_n_n.lhsIdx i q 0).val = (i 0).val := by
  unfold DotDims.lhsIdx
  rw [dif_neg (show ¬(0 : Fin S512x32.rank) ∈ dot_S512x32_S32x3_S512x3_1_0_0_1_n_n.lhsBatch by decide),
    dif_pos (show (0 : Fin S512x32.rank) ∈ dot_S512x32_S32x3_S512x3_1_0_0_1_n_n.lhsNonContracting by decide)]
  rfl
theorem lhsOut_1 (i : S512x3.Idx) (q : dot_S512x32_S32x3_S512x3_1_0_0_1_n_n.contr.Idx) :
    (dot_S512x32_S32x3_S512x3_1_0_0_1_n_n.lhsIdx i q 1).val = (q ⟨0, by decide⟩).val :=
  dot_S512x32_S32x3_S512x3_1_0_0_1_n_n.lhsIdx_val_of_single rfl i q
theorem rhsOut_0 (i : S512x3.Idx) (q : dot_S512x32_S32x3_S512x3_1_0_0_1_n_n.contr.Idx) :
    (dot_S512x32_S32x3_S512x3_1_0_0_1_n_n.rhsIdx i q 0).val = (q ⟨0, by decide⟩).val :=
  dot_S512x32_S32x3_S512x3_1_0_0_1_n_n.rhsIdx_val_of_single rfl i q
theorem rhsOut_1 (i : S512x3.Idx) (q : dot_S512x32_S32x3_S512x3_1_0_0_1_n_n.contr.Idx) :
    (dot_S512x32_S32x3_S512x3_1_0_0_1_n_n.rhsIdx i q 1).val = (i 1).val := by
  unfold DotDims.rhsIdx
  rw [dif_neg (show ¬(1 : Fin S32x3.rank) ∈ dot_S512x32_S32x3_S512x3_1_0_0_1_n_n.rhsBatch by decide),
    dif_pos (show (1 : Fin S32x3.rank) ∈ dot_S512x32_S32x3_S512x3_1_0_0_1_n_n.rhsNonContracting by decide)]
  rfl

theorem matmulOut_apply (A : FVec Ideal S512x32 .bf16) (B : FVec Ideal S32x3 .bf16) (p : Fin 512) (q : Fin 3) :
    matmul dot_S512x32_S32x3_S512x3_1_0_0_1_n_n none A B (constant (F := Ideal) S512x3 .f32 0x00000000#32) (ix2 p q)
      = ∑ k : Fin 32, A (ix2 p k) * B (ix2 k q) := by
  simp only [matmul]
  rw [Ideal.matmul_constant_zero_apply, ← Equiv.sum_comp (contrEquiv1 dot_S512x32_S32x3_S512x3_1_0_0_1_n_n 32 rfl rfl).symm]
  refine Finset.sum_congr rfl fun k _ => ?_
  have hk := contrEquiv1_symm_val dot_S512x32_S32x3_S512x3_1_0_0_1_n_n 32 rfl rfl k
  have el : dot_S512x32_S32x3_S512x3_1_0_0_1_n_n.lhsIdx (ix2 p q) ((contrEquiv1 dot_S512x32_S32x3_S512x3_1_0_0_1_n_n 32 rfl rfl).symm k) = ix2 p k :=
    funext fun a => Fin.ext (by
      match a with
      | ⟨0, _⟩ => exact lhsOut_0 _ _
      | ⟨1, _⟩ => exact (lhsOut_1 _ _).trans hk)
  have er : dot_S512x32_S32x3_S512x3_1_0_0_1_n_n.rhsIdx (ix2 p q) ((contrEquiv1 dot_S512x32_S32x3_S512x3_1_0_0_1_n_n 32 rfl rfl).symm k) = ix2 k q :=
    funext fun a => Fin.ext (by
      match a with
      | ⟨0, _⟩ => exact (rhsOut_0 _ _).trans hk
      | ⟨1, _⟩ => exact rhsOut_1 _ _)
  rw [el, er]

/-! ## A column spread over the columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three stages of the body, each as one function of its operands -/

/-- The mean of each graph's rows: the sums divided by the size, the size taken as at least one. -/
theorem mean_eq (counts : Vec Ideal S512x1 .f32) (sums : Vec Ideal S512x64 .f32) :
    (divf (shapeCast S512x64 sums shapeCasts_S512x64_S512x64)
      (broadcastTo S512x64 (maximumf (shapeCast S512x1 counts shapeCasts_S512x1_S512x1)
        (broadcast S512x1 (Scalar.ofBits (F := Ideal) .f32 0x3F800000#32))) broadcasts_S512x1_S512x64) : FVec Ideal S512x64 .f32)
      = Gnn.poolMean sums counts := by
  funext j
  obtain ⟨p, k, rfl⟩ : ∃ (p : Fin 512) (k : Fin 64), j = ix2 p k := ⟨j 0, j 1, eq_ix2 j⟩
  rw [shapeCast_self, shapeCast_self, divf_apply, broadcastTo_a1_ab_apply, maximumf_apply, broadcast_apply]
  show Ideal.div (sums (ix2 p k)) (max (counts (ix2 p (0 : Fin 1))) (Ideal.ofBits .f32 0x3F800000#32)) = _
  rw [Ideal.ofBits_one_f32]
  rfl

/-- The clip at zero. -/
theorem clip_eq (Y : FVec Ideal S512x32 .f32) :
    (maximumf Y (broadcast S512x32 (Scalar.ofBits (F := Ideal) .f32 0x00000000#32)) : FVec Ideal S512x32 .f32) = Gnn.relu Y := by
  funext j
  rw [maximumf_apply, broadcast_apply]
  show max (Y j) (Ideal.ofBits .f32 0x00000000#32) = _
  rw [Ideal.ofBits_zero_f32]
  rfl

/-- The first affine map: the product with the weights (a change of float format is the identity on extended reals)
    plus the bias row on every row. -/
theorem affineHidden_eq (X : FVec Ideal S512x64 .f32) (W : FVec Ideal S64x32 .f32) (b : FVec Ideal S1x32 .f32) :
    (addf (matmul dot_S512x64_S64x32_S512x32_1_0_0_1_n_n none (truncf .bf16 X bitsLt_bf16_f32) (truncf .bf16 W bitsLt_bf16_f32)
        (constant (F := Ideal) S512x32 .f32 0x00000000#32))
      (broadcastTo S512x32 (shapeCast S1x32 b shapeCasts_S1x32_S1x32) broadcasts_S1x32_S512x32) : FVec Ideal S512x32 .f32)
      = Gnn.lin X W b := by
  funext j
  obtain ⟨p, q, rfl⟩ : ∃ (p : Fin 512) (q : Fin 32), j = ix2 p q := ⟨j 0, j 1, eq_ix2 j⟩
  rw [addf_apply, matmulHidden_apply, shapeCast_self, broadcastTo_1b_ab_apply]
  rfl

/-- The second affine map, likewise. -/
theorem affineOut_eq (H : FVec Ideal S512x32 .f32) (W : FVec Ideal S32x3 .f32) (b : FVec Ideal S1x3 .f32) :
    (addf (matmul dot_S512x32_S32x3_S512x3_1_0_0_1_n_n none (truncf .bf16 H bitsLt_bf16_f32) (truncf .bf16 W bitsLt_bf16_f32)
        (constant (F := Ideal) S512x3 .f32 0x00000000#32))
      (broadcastTo S512x3 (shapeCast S1x3 b shapeCasts_S1x3_S1x3) broadcasts_S1x3_S512x3) : FVec Ideal S512x3 .f32)
      = Gnn.lin H W b := by
  funext j
  obtain ⟨p, q, rfl⟩ : ∃ (p : Fin 512) (q : Fin 3), j = ix2 p q := ⟨j 0, j 1, eq_ix2 j⟩
  rw [addf_apply, matmulOut_apply, shapeCast_self, broadcastTo_1b_ab_apply]
  rfl

/-! ## The body's payload -/

/-- What the body stores is the head of the means. -/
theorem payload_eq (counts : Vec Ideal S512x1 .f32) (sums : Vec Ideal S512x64 .f32) (W1 : Vec Ideal S64x32 .f32)
    (b1 : Vec Ideal S1x32 .f32) (W2 : Vec Ideal S32x3 .f32) (b2 : Vec Ideal S1x3 .f32) :
    k4_pay1 (F := Ideal) counts sums W1 b1 W2 b2 = Gnn.head sums counts W1 b1 W2 b2 := by
  unfold k4_pay1 Gnn.head
  dsimp only
  rw [mean_eq, affineHidden_eq, clip_eq, affineOut_eq]

variable (V : (c : Dev nD) → (b : Ref sig .tc) → Buf (Elt Ideal) ((c : Thread nD τ).loc b))

/-! ## From the body's buffers to the array -/

theorem zeros2 : (![0, 0] : Fin 2 → Nat) = fun _ => 0 := funext fun a => by fin_cases a <;> rfl

/-- What the body leaves in the output's buffer, whatever its inputs' buffers hold: the body loads each buffer whole and
    stores the payload over the whole output buffer. -/
theorem block_eq (x0 : Vec Ideal S512x64 .f32) (x1 : Vec Ideal S512x1 .f32) (x2 : Vec Ideal S64x32 .f32)
    (x3 : Vec Ideal S1x32 .f32) (x4 : Vec Ideal S32x3 .f32) (x5 : Vec Ideal S1x3 .f32) :
    out4_6 (F := Ideal) x0 x1 x2 x3 x4 x5 = Gnn.head x0 x1 x2 x3 x4 x5 := by
  unfold out4_6
  rw [View.canon_unit_zero zeros2]
  simp only [View.ld_unit_zero (S := S512x1) zeros2, View.ld_unit_zero (S := S512x64) zeros2,
    View.ld_unit_zero (S := S64x32) zeros2, View.ld_unit_zero (S := S1x32) zeros2,
    View.ld_unit_zero (S := S32x3) zeros2, View.ld_unit_zero (S := S1x3) zeros2]
  exact payload_eq x1 x0 x2 x3 x4 x5

/-- Every window sits at block (0, 0) at every point of the grid. -/
theorem index_zero : ∀ t : Fin cfg4.N,
    (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-! Each input window's block is its whole array: at block (0, 0) a coordinate inside the block is the coordinate in the array. -/

theorem blk0_eq (c : Dev nD) (t : Fin cfg4.N) : (iblk4 V c 0 t : S512x64.Idx → EReal) = V c main_v68_0 := by
  funext y
  show V c main_v68_0 (((cfg4.win 0).blk t).view.emb y) = V c main_v68_0 y
  refine congrArg _ (funext fun a => Fin.ext ?_)
  match a with
  | ⟨0, _⟩ =>
    show win4_0.index t (0 : Fin 2) * 512 + 1 * (y 0).val = (y 0).val
    rw [(index_zero t).1.1]; omega
  | ⟨1, _⟩ =>
    show win4_0.index t (1 : Fin 2) * 64 + 1 * (y 1).val = (y 1).val
    rw [(index_zero t).1.2]; omega

theorem blk1_eq (c : Dev nD) (t : Fin cfg4.N) : (iblk4 V c 1 t : S512x1.Idx → EReal) = V c main_v68_1 := by
  funext y
  show V c main_v68_1 (((cfg4.win 1).blk t).view.emb y) = V c main_v68_1 y
  refine congrArg _ (funext fun a => Fin.ext ?_)
  match a with
  | ⟨0, _⟩ =>
    show win4_1.index t (0 : Fin 2) * 512 + 1 * (y 0).val = (y 0).val
    rw [(index_zero t).2.1.1]; omega
  | ⟨1, _⟩ =>
    show win4_1.index t (1 : Fin 2) * 1 + 1 * (y 1).val = (y 1).val
    rw [(index_zero t).2.1.2]; omega

theorem blk2_eq (c : Dev nD) (t : Fin cfg4.N) : (iblk4 V c 2 t : S64x32.Idx → EReal) = V c main_arg11 := by
  funext y
  show V c main_arg11 (((cfg4.win 2).blk t).view.emb y) = V c main_arg11 y
  refine congrArg _ (funext fun a => Fin.ext ?_)
  match a with
  | ⟨0, _⟩ =>
    show win4_2.index t (0 : Fin 2) * 64 + 1 * (y 0).val = (y 0).val
    rw [(index_zero t).2.2.1.1]; omega
  | ⟨1, _⟩ =>
    show win4_2.index t (1 : Fin 2) * 32 + 1 * (y 1).val = (y 1).val
    rw [(index_zero t).2.2.1.2]; omega

theorem blk3_eq (c : Dev nD) (t : Fin cfg4.N) : (iblk4 V c 3 t : S1x32.Idx → EReal) = V c main_v9 := by
  funext y
  show V c main_v9 (((cfg4.win 3).blk t).view.emb y) = V c main_v9 y
  refine congrArg _ (funext fun a => Fin.ext ?_)
  match a with
  | ⟨0, _⟩ =>
    show win4_3.index t (0 : Fin 2) * 1 + 1 * (y 0).val = (y 0).val
    rw [(index_zero t).2.2.2.1.1]; omega
  | ⟨1, _⟩ =>
    show win4_3.index t (1 : Fin 2) * 32 + 1 * (y 1).val = (y 1).val
    rw [(index_zero t).2.2.2.1.2]; omega

theorem blk4_eq (c : Dev nD) (t : Fin cfg4.N) : (iblk4 V c 4 t : S32x3.Idx → EReal) = V c main_arg13 := by
  funext y
  show V c main_arg13 (((cfg4.win 4).blk t).view.emb y) = V c main_arg13 y
  refine congrArg _ (funext fun a => Fin.ext ?_)
  match a with
  | ⟨0, _⟩ =>
    show win4_4.index t (0 : Fin 2) * 32 + 1 * (y 0).val = (y 0).val
    rw [(index_zero t).2.2.2.2.1.1]; omega
  | ⟨1, _⟩ =>
    show win4_4.index t (1 : Fin 2) * 3 + 1 * (y 1).val = (y 1).val
    rw [(index_zero t).2.2.2.2.1.2]; omega

theorem blk5_eq (c : Dev nD) (t : Fin cfg4.N) : (iblk4 V c 5 t : S1x3.Idx → EReal) = V c main_v10 := by
  funext y
  show V c main_v10 (((cfg4.win 5).blk t).view.emb y) = V c main_v10 y
  refine congrArg _ (funext fun a => Fin.ext ?_)
  match a with
  | ⟨0, _⟩ =>
    show win4_5.index t (0 : Fin 2) * 1 + 1 * (y 0).val = (y 0).val
    rw [(index_zero t).2.2.2.2.2.1.1]; omega
  | ⟨1, _⟩ =>
    show win4_5.index t (1 : Fin 2) * 3 + 1 * (y 1).val = (y 1).val
    rw [(index_zero t).2.2.2.2.2.1.2]; omega

/-- The output's block is its whole array too: cutting a function of the array's index to the block is reading it through
    the block. -/
theorem cut_eq_read (t : Fin cfg4.N) (G : S512x3.Idx → EReal) :
    (cfg4.win 6).cut (grid4.coords t) G = ((cfg4.win 6).blk t).view.read (Elt Ideal) G := by
  funext j
  show G ((cfg4.win 6).xinj (grid4.coords t) j) = G (((cfg4.win 6).blk t).view.emb j)
  refine congrArg G (funext fun a => Fin.ext ?_)
  match a with
  | ⟨0, _⟩ =>
    show (j 0).val = win4_6.index t (0 : Fin 2) * 512 + 1 * (j 0).val
    rw [(index_zero t).2.2.2.2.2.2.1]; omega
  | ⟨1, _⟩ =>
    show (j 1).val = win4_6.index t (1 : Fin 2) * 3 + 1 * (j 1).val
    rw [(index_zero t).2.2.2.2.2.2.2]; omega

/-- What the one point writes back is its block of the head of the arrays the region finds. -/
theorem flushed_eq (c : Dev nD) (t : Fin cfg4.N) :
    (dat4 (F := Ideal) V c).flushed 6 t = ((cfg4.win 6).blk t).view.read (Elt Ideal)
      (Gnn.head (V c main_v68_0) (V c main_v68_1) (V c main_arg11) (V c main_v9) (V c main_arg13) (V c main_v10)) := by
  show (cfg4.win 6).cut (grid4.coords t) ((dat4 V c).after 6 t) = _
  rw [after4_6, block_eq, blk0_eq, blk1_eq, blk2_eq, blk3_eq, blk4_eq, blk5_eq]
  exact cut_eq_read t _

/-- An index of the output array is in point `t`'s block iff each coordinate is in the block's range on its axis. -/
theorem mem_blk (t : Fin cfg4.N) (i : S512x3.Idx) :
    i ∈ ((cfg4.win 6).blk t).view.set ↔ ∀ a : Fin 2, win4_6.index t a * S512x3.size a ≤ (i a).val
      ∧ (i a).val < win4_6.index t a * S512x3.size a + S512x3.size a := by
  show i ∈ ((View.whole main_v69).slice (win4_6.rect t)).set ↔ _
  rw [View.set_slice_whole, Rect.mem_set_unit]
  exact Iff.rfl

/-- The one block covers the output array. -/
theorem covered (i : S512x3.Idx) :
    ∃ t : Fin cfg4.N, (cfg4.win 6).flush t = true ∧ i ∈ ((cfg4.win 6).blk t).view.set := by
  refine ⟨t4_0, flush4_6 t4_0, ?_⟩
  rw [mem_blk]
  intro a
  match a with
  | ⟨0, _⟩ =>
    show win4_6.index t4_0 (0 : Fin 2) * 512 ≤ (i 0).val ∧ (i 0).val < win4_6.index t4_0 (0 : Fin 2) * 512 + 512
    rw [(index_zero t4_0).2.2.2.2.2.2.1]; have h0 : (i 0).val < 512 := (i 0).isLt; omega
  | ⟨1, _⟩ =>
    show win4_6.index t4_0 (1 : Fin 2) * 3 ≤ (i 1).val ∧ (i 1).val < win4_6.index t4_0 (1 : Fin 2) * 3 + 3
    rw [(index_zero t4_0).2.2.2.2.2.2.2]; have h1 : (i 1).val < 3 := (i 1).isLt; omega

/-! ## The output array after the region -/

theorem out_eq (c : Dev nD) :
    (dat4 (F := Ideal) V c).arrAt 6 cfg4.N
      = Gnn.head (V c main_v68_0) (V c main_v68_1) (V c main_arg11) (V c main_v9) (V c main_arg13) (V c main_v10) :=
  (dat4 (F := Ideal) V c).arrAt_eq_of_cover 6
    (Gnn.head (V c main_v68_0) (V c main_v68_1) (V c main_arg11) (V c main_v9) (V c main_arg13) (V c main_v10))
    (fun t _ => flushed_eq V c t) covered

end Cert.KernelIdeal.Head

end
-- ==== Proof.KernelHostDense.lean ====
/-
  What each kernel region finds in its dense operands, in terms of the launch memory: the host program only slices
  the stacked weights and biases and reshapes vectors into one-row matrices, and no region writes any of those buffers,
  so each is the matching slab, row or vector of an argument whatever has run before.
-/
import proofs.«419727_j75720273429180_1_alg».proof.Proof.Gen.KernelIdeal.Frame
import proofs.«419727_j75720273429180_1_alg».proof.Proof.Spec
import proofs.«419727_j75720273429180_1_alg».proof.Proof.KernelArgs
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.HostDense

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

open Cert.KernelIdeal.Args

/-! ## Slices and one-row reshapes read at an index -/

/-- Matrix `l` of a stack, cut out as a one-matrix stack and reshaped to a matrix, is that matrix. -/
theorem slab_read (W : S3x64x64.Idx → EReal) (o : Nat) (l : Fin 3) (ho : o = l.val)
    (h : S3x64x64.Slices ![o, 0, 0] S1x64x64) (hc : S1x64x64.ShapeCasts S64x64) :
    shapeCast S64x64 (extractStridedSlice S1x64x64 ![o, 0, 0] W h) hc = Gnn.slab W l := by
  funext i
  obtain ⟨a, b, rfl⟩ : ∃ a b, i = ix2 a b := ⟨i 0, i 1, eq_ix2 i⟩
  rw [shapeCast_1ab_ab_apply]
  refine extractStridedSlice_apply _ _ _ _ (ix3 l a b) (fun ax => ?_)
  match ax with
  | ⟨0, _⟩ => exact ho.symm.trans (Nat.add_zero _).symm
  | ⟨1, _⟩ => exact (Nat.zero_add _).symm
  | ⟨2, _⟩ => exact (Nat.zero_add _).symm

/-- Row `l` of a three-row table, the table first given a unit middle axis, then cut to one row and reshaped to a
    one-row matrix, is that row. -/
theorem row3_read (B : S3x64.Idx → EReal) (o : Nat) (l : Fin 3) (ho : o = l.val)
    (h1 : S3x64.ShapeCasts S3x1x64) (h : S3x1x64.Slices ![o, 0, 0] S1x1x64) (hc : S1x1x64.ShapeCasts S1x64) :
    shapeCast S1x64 (extractStridedSlice S1x1x64 ![o, 0, 0] (shapeCast S3x1x64 B h1) h) hc = Gnn.row3 B l := by
  funext i
  obtain ⟨u, q, rfl⟩ : ∃ u q, i = ix2 u q := ⟨i 0, i 1, eq_ix2 i⟩
  rw [shapeCast_1ab_ab_apply]
  refine (extractStridedSlice_apply _ _ _ _ (ix3 l u q) (fun ax => ?_)).trans ?_
  · match ax with
    | ⟨0, _⟩ => exact ho.symm.trans (Nat.add_zero _).symm
    | ⟨1, _⟩ => exact (Nat.zero_add _).symm
    | ⟨2, _⟩ => exact (Nat.zero_add _).symm
  · refine shapeCast_apply B h1 _ (ix2 l q) ?_
    have hu : u.val = 0 := by omega
    rw [Shape.rowMajor_val_two, Shape.rowMajor_val_three]
    show l.val * 64 + q.val = (l.val * 1 + u.val) * 64 + q.val
    rw [hu, Nat.mul_one, Nat.add_zero]

/-- A vector reshaped to a one-row matrix is that row. -/
theorem row1_read {a : ℕ} (B : (⟨1, ![a]⟩ : Shape).Idx → EReal) (h : (⟨1, ![a]⟩ : Shape).ShapeCasts ⟨2, ![1, a]⟩) :
    shapeCast ⟨2, ![1, a]⟩ B h = Gnn.row1 B := by
  funext i
  obtain ⟨u, q, rfl⟩ : ∃ u q, i = ix2 u q := ⟨i 0, i 1, eq_ix2 i⟩
  exact shapeCast_a_1a_apply B h u q

/-- A vector reshaped to a one-column matrix reads, at row `p`, the vector at `p`. -/
theorem col1_read {α : Type} {a : ℕ} (B : (⟨1, ![a]⟩ : Shape).Idx → α) (h : (⟨1, ![a]⟩ : Shape).ShapeCasts ⟨2, ![a, 1]⟩)
    (p : Fin a) : shapeCast ⟨2, ![a, 1]⟩ B h (ix2 p (0 : Fin 1)) = B (ix1 p) :=
  shapeCast_apply B h _ _ (by
    rw [Shape.rowMajor_val_two, Shape.rowMajor_val_one]
    show p.val = p.val * 1 + 0
    rw [Nat.mul_one, Nat.add_zero])

/-! ## Walking a buffer back through the host stretches and the regions that do not write it -/

/-- A buffer outside the list of those a stretch's operations write is, after the stretch, what it was before: each
    operation writes one buffer, a member of the list, hence another than the given one. -/
local macro "stretch_keeps" ops:ident hb:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (Ne.symm (ne_of_mem_of_not_mem (by decide) $hb)))))

/-- The buffers written by the opening slices and reshapes of the arguments. -/
abbrev host0_writes : List (Ref sig .tc) :=
  [
    main_v0, main_v1, main_v2, main_v3, main_v4, main_v5,
    main_v6, main_v7, main_v8, main_v9, main_v10, main_v11,
    main_v12, main_v13, main_v14, main_v15, main_v16, main_v17,
    main_v18, main_v19, main_v20 ]
theorem host0_keeps (V : Valuation τ sig (Elt Ideal)) (b : Ref sig .tc) (hb : b ∉ host0_writes) :
    StableHlo.after hostOps0 V (Proc.devRef .tc b) = V (Proc.devRef .tc b) := by
  stretch_keeps hostOps0 hb

/-- The buffers written by the first layer's gather of source rows. -/
abbrev take1a_writes : List (Ref sig .tc) :=
  [
    main_call0_c, main_call0_v0, main_call0_v1, main_call0_c_0, main_call0_v2, main_call0_v3,
    main_call0_v4, main_call0_v5, main_call0_c_1, main_call0_c_2, main_call0_v6, main_call0_v7,
    main_call0_v8, main_call0_v9, main_call0_v10, main_call0_v11, main_call0_c_3, main_call0_v12,
    main_call0_v13, main_call0_v14, main_call0_cst, main_call0_v15, main_v22 ]
theorem take1a_keeps (V : Valuation τ sig (Elt Ideal)) (b : Ref sig .tc) (hb : b ∉ take1a_writes) :
    StableHlo.after hostOps1 V (Proc.devRef .tc b) = V (Proc.devRef .tc b) := by
  stretch_keeps hostOps1 hb

/-- The buffers written by the first layer's gather of target rows. -/
abbrev take1b_writes : List (Ref sig .tc) :=
  [
    main_call1_c, main_call1_v0, main_call1_v1, main_call1_c_0, main_call1_v2, main_call1_v3,
    main_call1_v4, main_call1_v5, main_call1_c_1, main_call1_c_2, main_call1_v6, main_call1_v7,
    main_call1_v8, main_call1_v9, main_call1_v10, main_call1_v11, main_call1_c_3, main_call1_v12,
    main_call1_v13, main_call1_v14, main_call1_cst, main_call1_v15, main_v23 ]
theorem take1b_keeps (V : Valuation τ sig (Elt Ideal)) (b : Ref sig .tc) (hb : b ∉ take1b_writes) :
    StableHlo.after hostOps1_1 V (Proc.devRef .tc b) = V (Proc.devRef .tc b) := by
  stretch_keeps hostOps1_1 hb

/-- The buffers written by the first layer's messages, their sum into the nodes, and the second layer's slices. -/
abbrev host1_writes : List (Ref sig .tc) :=
  [
    main_v24, main_v25, main_v26, main_cst, main_v27, main_v28,
    main_v29, main_v30, main_v31, main_v32, main_v33, main_v34,
    main_v35, main_v36, main_v37, main_v38, main_v39 ]
theorem host1_keeps (V : Valuation τ sig (Elt Ideal)) (b : Ref sig .tc) (hb : b ∉ host1_writes) :
    StableHlo.after hostOps1_2 V (Proc.devRef .tc b) = V (Proc.devRef .tc b) := by
  stretch_keeps hostOps1_2 hb

/-- The buffers written by the second layer's gather of source rows. -/
abbrev take2a_writes : List (Ref sig .tc) :=
  [
    main_call2_c, main_call2_v0, main_call2_v1, main_call2_c_0, main_call2_v2, main_call2_v3,
    main_call2_v4, main_call2_v5, main_call2_c_1, main_call2_c_2, main_call2_v6, main_call2_v7,
    main_call2_v8, main_call2_v9, main_call2_v10, main_call2_v11, main_call2_c_3, main_call2_v12,
    main_call2_v13, main_call2_v14, main_call2_cst, main_call2_v15, main_v41 ]
theorem take2a_keeps (V : Valuation τ sig (Elt Ideal)) (b : Ref sig .tc) (hb : b ∉ take2a_writes) :
    StableHlo.after hostOps2 V (Proc.devRef .tc b) = V (Proc.devRef .tc b) := by
  stretch_keeps hostOps2 hb

/-- The buffers written by the second layer's gather of target rows. -/
abbrev take2b_writes : List (Ref sig .tc) :=
  [
    main_call3_c, main_call3_v0, main_call3_v1, main_call3_c_0, main_call3_v2, main_call3_v3,
    main_call3_v4, main_call3_v5, main_call3_c_1, main_call3_c_2, main_call3_v6, main_call3_v7,
    main_call3_v8, main_call3_v9, main_call3_v10, main_call3_v11, main_call3_c_3, main_call3_v12,
    main_call3_v13, main_call3_v14, main_call3_cst, main_call3_v15, main_v42 ]
theorem take2b_keeps (V : Valuation τ sig (Elt Ideal)) (b : Ref sig .tc) (hb : b ∉ take2b_writes) :
    StableHlo.after hostOps2_1 V (Proc.devRef .tc b) = V (Proc.devRef .tc b) := by
  stretch_keeps hostOps2_1 hb

/-- The buffers written by the second layer's messages, their sum into the nodes, and the third layer's slices. -/
abbrev host2_writes : List (Ref sig .tc) :=
  [
    main_v43, main_v44, main_v45, main_cst_0, main_v46, main_v47,
    main_v48, main_v49, main_v50, main_v51, main_v52, main_v53,
    main_v54, main_v55, main_v56, main_v57, main_v58 ]
theorem host2_keeps (V : Valuation τ sig (Elt Ideal)) (b : Ref sig .tc) (hb : b ∉ host2_writes) :
    StableHlo.after hostOps2_2 V (Proc.devRef .tc b) = V (Proc.devRef .tc b) := by
  stretch_keeps hostOps2_2 hb

/-- The buffers written by the third layer's gather of source rows. -/
abbrev take3a_writes : List (Ref sig .tc) :=
  [
    main_call4_c, main_call4_v0, main_call4_v1, main_call4_c_0, main_call4_v2, main_call4_v3,
    main_call4_v4, main_call4_v5, main_call4_c_1, main_call4_c_2, main_call4_v6, main_call4_v7,
    main_call4_v8, main_call4_v9, main_call4_v10, main_call4_v11, main_call4_c_3, main_call4_v12,
    main_call4_v13, main_call4_v14, main_call4_cst, main_call4_v15, main_v60 ]
theorem take3a_keeps (V : Valuation τ sig (Elt Ideal)) (b : Ref sig .tc) (hb : b ∉ take3a_writes) :
    StableHlo.after hostOps3 V (Proc.devRef .tc b) = V (Proc.devRef .tc b) := by
  stretch_keeps hostOps3 hb

/-- The buffers written by the third layer's gather of target rows. -/
abbrev take3b_writes : List (Ref sig .tc) :=
  [
    main_call5_c, main_call5_v0, main_call5_v1, main_call5_c_0, main_call5_v2, main_call5_v3,
    main_call5_v4, main_call5_v5, main_call5_c_1, main_call5_c_2, main_call5_v6, main_call5_v7,
    main_call5_v8, main_call5_v9, main_call5_v10, main_call5_v11, main_call5_c_3, main_call5_v12,
    main_call5_v13, main_call5_v14, main_call5_cst, main_call5_v15, main_v61 ]
theorem take3b_keeps (V : Valuation τ sig (Elt Ideal)) (b : Ref sig .tc) (hb : b ∉ take3b_writes) :
    StableHlo.after hostOps3_1 V (Proc.devRef .tc b) = V (Proc.devRef .tc b) := by
  stretch_keeps hostOps3_1 hb

/-- The buffers written by the third layer's messages and their sum into the nodes. -/
abbrev host3_writes : List (Ref sig .tc) :=
  [
    main_v62, main_v63, main_v64, main_cst_1, main_v65, main_v66,
    main_v67 ]
theorem host3_keeps (V : Valuation τ sig (Elt Ideal)) (b : Ref sig .tc) (hb : b ∉ host3_writes) :
    StableHlo.after hostOps3_2 V (Proc.devRef .tc b) = V (Proc.devRef .tc b) := by
  stretch_keeps hostOps3_2 hb

/-! ## The fold between the regions' entries, at a buffer nothing in between writes -/

/-- An argument is, at the first region's entry, as launched. -/
theorem W1_arg (c : Dev nD) (b : Ref sig .tc) (h : b ∉ host0_writes := by decide) :
    W1 m ρ c (Proc.devRef .tc b) = m ((c.tc : Thread nD τ).loc b) :=
  host0_keeps _ b h

/-- From the first region's entry to the end of the first layer's two gathers. -/
theorem W4_eq_W1 (c : Dev nD) (b : Ref sig .tc) (h0 : ∀ w, Pipeline.arrRef spec0 w ≠ b := by decide)
    (ha : b ∉ take1a_writes := by decide) (hb : b ∉ take1b_writes := by decide) :
    W4 m ρ c (Proc.devRef .tc b) = W1 m ρ c (Proc.devRef .tc b) :=
  (take1b_keeps _ b hb).trans ((take1a_keeps _ b ha).trans (W2_of_ne m ρ c b h0))

/-- From there through the second region to the end of the second layer's two gathers. -/
theorem W8_eq_W4 (c : Dev nD) (b : Ref sig .tc) (h : b ∉ host1_writes := by decide)
    (h1 : ∀ w, Pipeline.arrRef spec1 w ≠ b := by decide)
    (ha : b ∉ take2a_writes := by decide) (hb : b ∉ take2b_writes := by decide) :
    W8 m ρ c (Proc.devRef .tc b) = W4 m ρ c (Proc.devRef .tc b) :=
  (take2b_keeps _ b hb).trans ((take2a_keeps _ b ha).trans ((W6_of_ne m ρ c b h1).trans (host1_keeps _ b h)))

/-- From there through the third region to the end of the third layer's two gathers. -/
theorem W12_eq_W8 (c : Dev nD) (b : Ref sig .tc) (h : b ∉ host2_writes := by decide)
    (h2 : ∀ w, Pipeline.arrRef spec2 w ≠ b := by decide)
    (ha : b ∉ take3a_writes := by decide) (hb : b ∉ take3b_writes := by decide) :
    W12 m ρ c (Proc.devRef .tc b) = W8 m ρ c (Proc.devRef .tc b) :=
  (take3b_keeps _ b hb).trans ((take3a_keeps _ b ha).trans ((W10_of_ne m ρ c b h2).trans (host2_keeps _ b h)))

/-- From there to the pooling region's entry. -/
theorem W13_eq_W12 (c : Dev nD) (b : Ref sig .tc) (h : b ∉ host3_writes := by decide) :
    W13 m ρ c (Proc.devRef .tc b) = W12 m ρ c (Proc.devRef .tc b) :=
  host3_keeps _ b h

/-- And through the pooling region to the head's entry. -/
theorem W14_eq_W13 (c : Dev nD) (b : Ref sig .tc) (h3 : ∀ w, Pipeline.arrRef spec3 w ≠ b := by decide) :
    W14 m ρ c (Proc.devRef .tc b) = W13 m ρ c (Proc.devRef .tc b) :=
  W14_of_ne m ρ c b h3

/-! ## The first region's operands -/
theorem e0_x (c : Dev nD) : V1 m ρ c main_arg0 = (m ((c.tc : Thread nD τ).loc main_arg0)) := by
  show StableHlo.after hostOps0 _ (Proc.devRef .tc main_arg0) = _
  after_results
theorem e0_wemb (c : Dev nD) : V1 m ρ c main_arg4 = (m ((c.tc : Thread nD τ).loc main_arg4)) := by
  show StableHlo.after hostOps0 _ (Proc.devRef .tc main_arg4) = _
  after_results
theorem e0_bemb (c : Dev nD) : V1 m ρ c main_v6 = Gnn.row1 (m ((c.tc : Thread nD τ).loc main_arg5)) := by
  show StableHlo.after hostOps0 _ (Proc.devRef .tc main_v6) = _
  after_results
  exact row1_read _ _
theorem e0_w1 (c : Dev nD) : V1 m ρ c main_v12 = Gnn.slab (m ((c.tc : Thread nD τ).loc main_arg6)) 0 := by
  show StableHlo.after hostOps0 _ (Proc.devRef .tc main_v12) = _
  after_results
  exact slab_read _ 0 0 rfl _ _
theorem e0_b1 (c : Dev nD) : V1 m ρ c main_v14 = Gnn.row3 (m ((c.tc : Thread nD τ).loc main_arg7)) 0 := by
  show StableHlo.after hostOps0 _ (Proc.devRef .tc main_v14) = _
  after_results
  exact row3_read _ 0 0 rfl _ _ _
theorem e0_w2 (c : Dev nD) : V1 m ρ c main_v16 = Gnn.slab (m ((c.tc : Thread nD τ).loc main_arg8)) 0 := by
  show StableHlo.after hostOps0 _ (Proc.devRef .tc main_v16) = _
  after_results
  exact slab_read _ 0 0 rfl _ _
theorem e0_w3 (c : Dev nD) : V1 m ρ c main_v18 = Gnn.slab (m ((c.tc : Thread nD τ).loc main_arg9)) 0 := by
  show StableHlo.after hostOps0 _ (Proc.devRef .tc main_v18) = _
  after_results
  exact slab_read _ 0 0 rfl _ _
theorem e0_b3 (c : Dev nD) : V1 m ρ c main_v20 = Gnn.row3 (m ((c.tc : Thread nD τ).loc main_arg10)) 0 := by
  show StableHlo.after hostOps0 _ (Proc.devRef .tc main_v20) = _
  after_results
  exact row3_read _ 0 0 rfl _ _ _

/-! ## The reshaped bias tables, label column and bias rows at the first region's entry -/

theorem W1_b1 (c : Dev nD) : (W1 m ρ c (Proc.devRef .tc main_v7) : S3x1x64.Idx → EReal)
    = shapeCast S3x1x64 (m ((c.tc : Thread nD τ).loc main_arg7)) shapeCasts_S3x64_S3x1x64 := by
  show StableHlo.after hostOps0 _ (Proc.devRef .tc main_v7) = _
  after_results
  all_goals rfl
theorem W1_b3 (c : Dev nD) : (W1 m ρ c (Proc.devRef .tc main_v8) : S3x1x64.Idx → EReal)
    = shapeCast S3x1x64 (m ((c.tc : Thread nD τ).loc main_arg10)) shapeCasts_S3x64_S3x1x64 := by
  show StableHlo.after hostOps0 _ (Proc.devRef .tc main_v8) = _
  after_results
  all_goals rfl
theorem W1_lab (c : Dev nD) : (W1 m ρ c (Proc.devRef .tc main_v4) : S100000x1.Idx → BitVec 32)
    = shapeCast S100000x1 (m ((c.tc : Thread nD τ).loc main_arg3)) shapeCasts_S100000_S100000x1 := by
  show StableHlo.after hostOps0 _ (Proc.devRef .tc main_v4) = _
  after_results
  all_goals rfl
theorem W1_bl1 (c : Dev nD) : (W1 m ρ c (Proc.devRef .tc main_v9) : S1x32.Idx → EReal)
    = Gnn.row1 (m ((c.tc : Thread nD τ).loc main_arg12)) := by
  show StableHlo.after hostOps0 _ (Proc.devRef .tc main_v9) = _
  after_results
  exact row1_read _ _
theorem W1_bl2 (c : Dev nD) : (W1 m ρ c (Proc.devRef .tc main_v10) : S1x3.Idx → EReal)
    = Gnn.row1 (m ((c.tc : Thread nD τ).loc main_arg14)) := by
  show StableHlo.after hostOps0 _ (Proc.devRef .tc main_v10) = _
  after_results
  exact row1_read _ _

/-! ## The second region's weights and biases -/

/-- What the second layer's slices hold after their stretch, in terms of the stretch's entry contents. -/
theorem slices1_w1 (V : Valuation τ sig (Elt Ideal)) :
    (StableHlo.after hostOps1_2 V (Proc.devRef .tc main_v31) : S64x64.Idx → EReal)
      = Gnn.slab (V (Proc.devRef .tc main_arg6)) 1 := by
  after_results
  exact slab_read _ 1 1 rfl _ _
theorem slices1_b1 (V : Valuation τ sig (Elt Ideal)) (B : S3x64.Idx → EReal)
    (h : (V (Proc.devRef .tc main_v7) : S3x1x64.Idx → EReal) = shapeCast S3x1x64 B shapeCasts_S3x64_S3x1x64) :
    (StableHlo.after hostOps1_2 V (Proc.devRef .tc main_v33) : S1x64.Idx → EReal) = Gnn.row3 B 1 := by
  after_results
  rw [h]
  exact row3_read _ 1 1 rfl _ _ _
theorem slices1_w2 (V : Valuation τ sig (Elt Ideal)) :
    (StableHlo.after hostOps1_2 V (Proc.devRef .tc main_v35) : S64x64.Idx → EReal)
      = Gnn.slab (V (Proc.devRef .tc main_arg8)) 1 := by
  after_results
  exact slab_read _ 1 1 rfl _ _
theorem slices1_w3 (V : Valuation τ sig (Elt Ideal)) :
    (StableHlo.after hostOps1_2 V (Proc.devRef .tc main_v37) : S64x64.Idx → EReal)
      = Gnn.slab (V (Proc.devRef .tc main_arg9)) 1 := by
  after_results
  exact slab_read _ 1 1 rfl _ _
theorem slices1_b3 (V : Valuation τ sig (Elt Ideal)) (B : S3x64.Idx → EReal)
    (h : (V (Proc.devRef .tc main_v8) : S3x1x64.Idx → EReal) = shapeCast S3x1x64 B shapeCasts_S3x64_S3x1x64) :
    (StableHlo.after hostOps1_2 V (Proc.devRef .tc main_v39) : S1x64.Idx → EReal) = Gnn.row3 B 1 := by
  after_results
  rw [h]
  exact row3_read _ 1 1 rfl _ _ _

theorem e1_w1 (c : Dev nD) : V5 m ρ c main_v31 = Gnn.slab (m ((c.tc : Thread nD τ).loc main_arg6)) 1 :=
  (slices1_w1 (W4 m ρ c)).trans (congrArg (fun X : S3x64x64.Idx → EReal => Gnn.slab X 1)
    ((W4_eq_W1 m ρ c main_arg6).trans (W1_arg m ρ c main_arg6)))
theorem e1_b1 (c : Dev nD) : V5 m ρ c main_v33 = Gnn.row3 (m ((c.tc : Thread nD τ).loc main_arg7)) 1 :=
  slices1_b1 (W4 m ρ c) _ ((W4_eq_W1 m ρ c main_v7).trans (W1_b1 m ρ c))
theorem e1_w2 (c : Dev nD) : V5 m ρ c main_v35 = Gnn.slab (m ((c.tc : Thread nD τ).loc main_arg8)) 1 :=
  (slices1_w2 (W4 m ρ c)).trans (congrArg (fun X : S3x64x64.Idx → EReal => Gnn.slab X 1)
    ((W4_eq_W1 m ρ c main_arg8).trans (W1_arg m ρ c main_arg8)))
theorem e1_w3 (c : Dev nD) : V5 m ρ c main_v37 = Gnn.slab (m ((c.tc : Thread nD τ).loc main_arg9)) 1 :=
  (slices1_w3 (W4 m ρ c)).trans (congrArg (fun X : S3x64x64.Idx → EReal => Gnn.slab X 1)
    ((W4_eq_W1 m ρ c main_arg9).trans (W1_arg m ρ c main_arg9)))
theorem e1_b3 (c : Dev nD) : V5 m ρ c main_v39 = Gnn.row3 (m ((c.tc : Thread nD τ).loc main_arg10)) 1 :=
  slices1_b3 (W4 m ρ c) _ ((W4_eq_W1 m ρ c main_v8).trans (W1_b3 m ρ c))

/-! ## The third region's weights and biases -/

/-- What the third layer's slices hold after their stretch, in terms of the stretch's entry contents. -/
theorem slices2_w1 (V : Valuation τ sig (Elt Ideal)) :
    (StableHlo.after hostOps2_2 V (Proc.devRef .tc main_v50) : S64x64.Idx → EReal)
      = Gnn.slab (V (Proc.devRef .tc main_arg6)) 2 := by
  after_results
  exact slab_read _ 2 2 rfl _ _
theorem slices2_b1 (V : Valuation τ sig (Elt Ideal)) (B : S3x64.Idx → EReal)
    (h : (V (Proc.devRef .tc main_v7) : S3x1x64.Idx → EReal) = shapeCast S3x1x64 B shapeCasts_S3x64_S3x1x64) :
    (StableHlo.after hostOps2_2 V (Proc.devRef .tc main_v52) : S1x64.Idx → EReal) = Gnn.row3 B 2 := by
  after_results
  rw [h]
  exact row3_read _ 2 2 rfl _ _ _
theorem slices2_w2 (V : Valuation τ sig (Elt Ideal)) :
    (StableHlo.after hostOps2_2 V (Proc.devRef .tc main_v54) : S64x64.Idx → EReal)
      = Gnn.slab (V (Proc.devRef .tc main_arg8)) 2 := by
  after_results
  exact slab_read _ 2 2 rfl _ _
theorem slices2_w3 (V : Valuation τ sig (Elt Ideal)) :
    (StableHlo.after hostOps2_2 V (Proc.devRef .tc main_v56) : S64x64.Idx → EReal)
      = Gnn.slab (V (Proc.devRef .tc main_arg9)) 2 := by
  after_results
  exact slab_read _ 2 2 rfl _ _
theorem slices2_b3 (V : Valuation τ sig (Elt Ideal)) (B : S3x64.Idx → EReal)
    (h : (V (Proc.devRef .tc main_v8) : S3x1x64.Idx → EReal) = shapeCast S3x1x64 B shapeCasts_S3x64_S3x1x64) :
    (StableHlo.after hostOps2_2 V (Proc.devRef .tc main_v58) : S1x64.Idx → EReal) = Gnn.row3 B 2 := by
  after_results
  rw [h]
  exact row3_read _ 2 2 rfl _ _ _

theorem e2_w1 (c : Dev nD) : V9 m ρ c main_v50 = Gnn.slab (m ((c.tc : Thread nD τ).loc main_arg6)) 2 :=
  (slices2_w1 (W8 m ρ c)).trans (congrArg (fun X : S3x64x64.Idx → EReal => Gnn.slab X 2)
    (((W8_eq_W4 m ρ c main_arg6).trans (W4_eq_W1 m ρ c main_arg6)).trans (W1_arg m ρ c main_arg6)))
theorem e2_b1 (c : Dev nD) : V9 m ρ c main_v52 = Gnn.row3 (m ((c.tc : Thread nD τ).loc main_arg7)) 2 :=
  slices2_b1 (W8 m ρ c) _ (((W8_eq_W4 m ρ c main_v7).trans (W4_eq_W1 m ρ c main_v7)).trans (W1_b1 m ρ c))
theorem e2_w2 (c : Dev nD) : V9 m ρ c main_v54 = Gnn.slab (m ((c.tc : Thread nD τ).loc main_arg8)) 2 :=
  (slices2_w2 (W8 m ρ c)).trans (congrArg (fun X : S3x64x64.Idx → EReal => Gnn.slab X 2)
    (((W8_eq_W4 m ρ c main_arg8).trans (W4_eq_W1 m ρ c main_arg8)).trans (W1_arg m ρ c main_arg8)))
theorem e2_w3 (c : Dev nD) : V9 m ρ c main_v56 = Gnn.slab (m ((c.tc : Thread nD τ).loc main_arg9)) 2 :=
  (slices2_w3 (W8 m ρ c)).trans (congrArg (fun X : S3x64x64.Idx → EReal => Gnn.slab X 2)
    (((W8_eq_W4 m ρ c main_arg9).trans (W4_eq_W1 m ρ c main_arg9)).trans (W1_arg m ρ c main_arg9)))
theorem e2_b3 (c : Dev nD) : V9 m ρ c main_v58 = Gnn.row3 (m ((c.tc : Thread nD τ).loc main_arg10)) 2 :=
  slices2_b3 (W8 m ρ c) _ (((W8_eq_W4 m ρ c main_v8).trans (W4_eq_W1 m ρ c main_v8)).trans (W1_b3 m ρ c))

/-! ## The pooling region's labels -/

/-- From the first region's entry to the pooling region's. -/
theorem W13_eq_W1 (c : Dev nD) (b : Ref sig .tc) (h0 : ∀ w, Pipeline.arrRef spec0 w ≠ b := by decide)
    (h1a : b ∉ take1a_writes := by decide) (h1b : b ∉ take1b_writes := by decide) (h1 : b ∉ host1_writes := by decide)
    (hr1 : ∀ w, Pipeline.arrRef spec1 w ≠ b := by decide)
    (h2a : b ∉ take2a_writes := by decide) (h2b : b ∉ take2b_writes := by decide) (h2 : b ∉ host2_writes := by decide)
    (hr2 : ∀ w, Pipeline.arrRef spec2 w ≠ b := by decide)
    (h3a : b ∉ take3a_writes := by decide) (h3b : b ∉ take3b_writes := by decide) (h3 : b ∉ host3_writes := by decide) :
    W13 m ρ c (Proc.devRef .tc b) = W1 m ρ c (Proc.devRef .tc b) :=
  (W13_eq_W12 m ρ c b h3).trans ((W12_eq_W8 m ρ c b h2 hr2 h3a h3b).trans
    ((W8_eq_W4 m ρ c b h1 hr1 h2a h2b).trans (W4_eq_W1 m ρ c b h0 h1a h1b)))

theorem e3_lab (c : Dev nD) (p : Fin 100000) :
    (V13 m ρ c main_v4 : S100000x1.Idx → BitVec 32) (ix2 p (0 : Fin 1)) = labW m c p := by
  have h : (W13 m ρ c (Proc.devRef .tc main_v4) : S100000x1.Idx → BitVec 32)
      = shapeCast S100000x1 (m ((c.tc : Thread nD τ).loc main_arg3)) shapeCasts_S100000_S100000x1 :=
    (W13_eq_W1 m ρ c main_v4).trans (W1_lab m ρ c)
  show (W13 m ρ c (Proc.devRef .tc main_v4) : S100000x1.Idx → BitVec 32) (ix2 p (0 : Fin 1)) = _
  rw [h]
  exact col1_read _ _ p

/-! ## The head's weights and biases -/

/-- From the first region's entry to the head's. -/
theorem W14_eq_W1 (c : Dev nD) (b : Ref sig .tc) (h0 : ∀ w, Pipeline.arrRef spec0 w ≠ b := by decide)
    (h1a : b ∉ take1a_writes := by decide) (h1b : b ∉ take1b_writes := by decide) (h1 : b ∉ host1_writes := by decide)
    (hr1 : ∀ w, Pipeline.arrRef spec1 w ≠ b := by decide)
    (h2a : b ∉ take2a_writes := by decide) (h2b : b ∉ take2b_writes := by decide) (h2 : b ∉ host2_writes := by decide)
    (hr2 : ∀ w, Pipeline.arrRef spec2 w ≠ b := by decide)
    (h3a : b ∉ take3a_writes := by decide) (h3b : b ∉ take3b_writes := by decide) (h3 : b ∉ host3_writes := by decide)
    (hr3 : ∀ w, Pipeline.arrRef spec3 w ≠ b := by decide) :
    W14 m ρ c (Proc.devRef .tc b) = W1 m ρ c (Proc.devRef .tc b) :=
  (W14_eq_W13 m ρ c b hr3).trans (W13_eq_W1 m ρ c b h0 h1a h1b h1 hr1 h2a h2b h2 hr2 h3a h3b h3)

theorem e4_w1 (c : Dev nD) : V14 m ρ c main_arg11 = (m ((c.tc : Thread nD τ).loc main_arg11)) :=
  (W14_eq_W1 m ρ c main_arg11).trans (W1_arg m ρ c main_arg11)
theorem e4_b1 (c : Dev nD) : V14 m ρ c main_v9 = Gnn.row1 (m ((c.tc : Thread nD τ).loc main_arg12)) :=
  (W14_eq_W1 m ρ c main_v9).trans (W1_bl1 m ρ c)
theorem e4_w2 (c : Dev nD) : V14 m ρ c main_arg13 = (m ((c.tc : Thread nD τ).loc main_arg13)) :=
  (W14_eq_W1 m ρ c main_arg13).trans (W1_arg m ρ c main_arg13)
theorem e4_b2 (c : Dev nD) : V14 m ρ c main_v10 = Gnn.row1 (m ((c.tc : Thread nD τ).loc main_arg14)) :=
  (W14_eq_W1 m ρ c main_v10).trans (W1_bl2 m ρ c)

end Cert.KernelIdeal.HostDense

end
-- ==== Proof.Sparse.lean ====
/-
  The host's row gather and its accumulating scatters, read as the plain mathematics of `Gnn`: a gather of rows reads the
  row its index word names, clamped into the table; a scatter-add of rows is the operand plus the segment sum of the
  updates, an update whose index word names no row counted nowhere. Then the few facts about 32-bit index words the
  programs' index handling needs.
-/
import proofs.«419727_j75720273429180_1_alg».proof.Proof.Spec
import Idealize.ShloMosaic.Lib.ValueIdx
import Idealize.ShloMosaic.PureOps.Ideal.Laws

noncomputable section

open scoped BigOperators

namespace Gnn

open Idealize.ShloMosaic Idealize.ShloMosaic.ValueIdx

/-! ## The scatter of whole rows

On the operand's row axis the landing coordinate is the index word read signed (the axis is inserted, so the window adds
nothing there); on the column axis nothing is named by the word and the window coordinate is the update's column. -/

/-- The dimension numbers of a scatter of whole rows: the updates' column axis is the window, the operand's row axis is
    inserted and is the one the index word names. -/
private abbrev rowDims (n c e : ℕ) (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ := ⟨[1], [0], [0], 1, wf⟩

/-- On the row axis the window starts at the update row's index word, read signed. -/
private theorem rowDims_start0 {n c e : ℕ} (wf : ScatterDims.WF ⟨2, ![n, c]⟩ ⟨2, ![e, 1]⟩ ⟨2, ![e, c]⟩ [1] [0] [0] 1)
    (j : (⟨2, ![e, c]⟩ : Shape).Idx) (idx : IVec ⟨2, ![e, 1]⟩ 32) :
    (rowDims n c e wf).start j idx 0 = (idx (ix2 (j 0) (0 : Fin 1))).toInt := by
  unfold ScatterDims.start
  rw [dif_pos (List.mem_singleton.mpr rfl)]
  have hsi : ∀ hc, (rowDims n c e wf).siIdx j ⟨List.idxOf (0 : Fin 2) [(0 : Fin 2)], hc⟩ = ix2 (j 0) (0 : Fin 1) := by
    intro hc; funext b; refine Fin.ext ?_
    match b with
    | ⟨0, _⟩ => rfl
    | ⟨1, _⟩ => rfl
  rw [hsi]
  rfl

/-- On the column axis the window starts at zero: the index word does not name that axis. -/
private theorem rowDims_start1 {n c e : ℕ} (wf : ScatterDims.WF ⟨2, ![n, c]⟩ ⟨2, ![e, 1]⟩ ⟨2, ![e, c]⟩ [1] [0] [0] 1)
    (j : (⟨2, ![e, c]⟩ : Shape).Idx) (idx : IVec ⟨2, ![e, 1]⟩ 32) :
    (rowDims n c e wf).start j idx 1 = 0 := by
  unfold ScatterDims.start
  rw [dif_neg (show (1 : Fin 2) ∉ [(0 : Fin 2)] by decide)]

/-- The inserted row axis has no window coordinate. -/
private theorem rowDims_window0 {n c e : ℕ} (wf : ScatterDims.WF ⟨2, ![n, c]⟩ ⟨2, ![e, 1]⟩ ⟨2, ![e, c]⟩ [1] [0] [0] 1)
    (j : (⟨2, ![e, c]⟩ : Shape).Idx) : (rowDims n c e wf).window j 0 = 0 := by
  rfl

/-- The column axis' window coordinate is the update's column. -/
private theorem rowDims_window1 {n c e : ℕ} (wf : ScatterDims.WF ⟨2, ![n, c]⟩ ⟨2, ![e, 1]⟩ ⟨2, ![e, c]⟩ [1] [0] [0] 1)
    (j : (⟨2, ![e, c]⟩ : Shape).Idx) : (rowDims n c e wf).window j 1 = (j 1).val := by
  rfl

/-- An update entry lands on the operand entry `i` exactly when its row's index word reads as the row of `i` and its
    column is the column of `i`; a word that is negative or too large lands nowhere. -/
private theorem rowDims_resultIdx {n c e : ℕ} (wf : ScatterDims.WF ⟨2, ![n, c]⟩ ⟨2, ![e, 1]⟩ ⟨2, ![e, c]⟩ [1] [0] [0] 1)
    (j : (⟨2, ![e, c]⟩ : Shape).Idx) (idx : IVec ⟨2, ![e, 1]⟩ 32) (i : (⟨2, ![n, c]⟩ : Shape).Idx) :
    (rowDims n c e wf).resultIdx? j idx = some i ↔
      (idx (ix2 (j 0) (0 : Fin 1))).toInt = ((i 0).val : ℤ) ∧ (j 1).val = (i 1).val := by
  have hi0 := idx2_lt0 i
  have hi1 := idx2_lt1 i
  have hj1 := idx2_lt1 j
  unfold ScatterDims.resultIdx?
  constructor
  · intro h
    split at h
    · rename_i hb
      have hi := Option.some.inj h
      have h0 := hb 0
      have h1 := hb 1
      rw [rowDims_start0, rowDims_window0] at h0
      rw [rowDims_start1, rowDims_window1] at h1
      have e0 := congrArg (fun f => (f 0).val) hi
      have e1 := congrArg (fun f => (f 1).val) hi
      simp only [rowDims_start0, rowDims_window0, rowDims_start1, rowDims_window1] at e0 e1
      constructor <;> omega
    · exact absurd h (by simp)
  · rintro ⟨h0, h1⟩
    have hb : ∀ a, 0 ≤ (rowDims n c e wf).start j idx a + (rowDims n c e wf).window j a ∧
        (rowDims n c e wf).start j idx a + (rowDims n c e wf).window j a < (⟨2, ![n, c]⟩ : Shape).size a := by
      intro a
      match a with
      | ⟨0, _⟩ =>
        show 0 ≤ (rowDims n c e wf).start j idx 0 + (rowDims n c e wf).window j 0 ∧
          (rowDims n c e wf).start j idx 0 + (rowDims n c e wf).window j 0 < (n : ℤ)
        rw [rowDims_start0, rowDims_window0]
        omega
      | ⟨1, _⟩ =>
        show 0 ≤ (rowDims n c e wf).start j idx 1 + (rowDims n c e wf).window j 1 ∧
          (rowDims n c e wf).start j idx 1 + (rowDims n c e wf).window j 1 < (c : ℤ)
        rw [rowDims_start1, rowDims_window1]
        omega
    rw [dif_pos hb]
    congr 1
    funext a
    refine Fin.ext ?_
    match a with
    | ⟨0, _⟩ =>
      show ((rowDims n c e wf).start j idx 0 + (rowDims n c e wf).window j 0).toNat = (i 0).val
      rw [rowDims_start0, rowDims_window0]
      omega
    | ⟨1, _⟩ =>
      show ((rowDims n c e wf).start j idx 1 + (rowDims n c e wf).window j 1).toNat = (i 1).val
      rw [rowDims_start1, rowDims_window1]
      omega

/-- A scatter-add of rows (one index word per update row, the row axis inserted) is the operand plus the segment sum. -/
theorem scatterAdd_rows {n c e : ℕ} (d : ScatterDims ⟨2, ![n, c]⟩ ⟨2, ![e, 1]⟩ ⟨2, ![e, c]⟩)
    (h1 : d.updateWindowDims = [1]) (h2 : d.insertedWindowDims = [0]) (h3 : d.scatterDimsToOperandDims = [0])
    (h4 : d.indexVectorDim = 1) (x : Arr2 n c) (idx : IVec ⟨2, ![e, 1]⟩ 32) (upd : Arr2 e c) :
    Host.scatterAdd (F := Ideal) (φ := .f32) d x idx upd
      = fun i => x i + segSum upd (fun p => idx (ix2 p (0 : Fin 1))) i := by
  obtain ⟨uw, iw, sd, ivd, wf⟩ := d
  simp only at h1 h2 h3 h4
  subst h1 h2 h3 h4
  funext i
  obtain ⟨r, s, rfl⟩ : ∃ (r : Fin n) (s : Fin c), i = ix2 r s := ⟨i 0, i 1, eq_ix2 i⟩
  -- both sides are the operand entry plus a sum; the sums are compared
  show x (ix2 r s) + ∑ j ∈ Finset.univ.filter (fun j => (rowDims n c e wf).resultIdx? j idx = some (ix2 r s)), upd j
    = x (ix2 r s) + ∑ p : Fin e, if (idx (ix2 p (0 : Fin 1))).toInt = (r.val : ℤ) then upd (ix2 p s) else 0
  congr 1
  -- the sum over the landing update entries, split by row and column of the update
  rw [Finset.sum_filter, sum_idx2]
  refine Finset.sum_congr rfl fun p _ => ?_
  simp only [rowDims_resultIdx]
  show (∑ q : Fin c, if (idx (ix2 p (0 : Fin 1))).toInt = (r.val : ℤ) ∧ q.val = s.val then upd (ix2 p q) else 0) = _
  by_cases hp : (idx (ix2 p (0 : Fin 1))).toInt = (r.val : ℤ)
  · -- a row that lands contributes its one entry in the column asked for
    rw [if_pos hp]
    rw [Finset.sum_eq_single s]
    · rw [if_pos ⟨hp, rfl⟩]
    · intro q _ hq
      rw [if_neg]
      rintro ⟨_, hq'⟩
      exact hq (Fin.ext hq')
    · intro h; exact absurd (Finset.mem_univ _) h
  · -- a row that does not land contributes nothing
    rw [if_neg hp]
    refine Finset.sum_eq_zero fun q _ => ?_
    rw [if_neg]
    exact fun h => hp h.1

/-! ## The scatter of scalars into a vector -/

/-- A sum over the indices of a vector is the sum over its one coordinate. -/
private theorem sum_ix1 {M : Type*} [AddCommMonoid M] {n : ℕ} (f : (⟨1, ![n]⟩ : Shape).Idx → M) :
    ∑ j, f j = ∑ p : Fin n, f (ix1 p) := by
  refine Fintype.sum_equiv ⟨fun j => j 0, ix1, fun j => (eq_ix1 j).symm, fun _ => rfl⟩ _ _ fun j => ?_
  exact congrArg f (eq_ix1 j)

/-- The dimension numbers of a scatter of scalars into a vector: no window, the operand's one axis inserted and named by
    the index word. -/
private abbrev vecDims (n e : ℕ) (wf : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, wf⟩

/-- The window starts at the update's index word, read signed. -/
private theorem vecDims_start {n e : ℕ} (wf : ScatterDims.WF ⟨1, ![n]⟩ ⟨2, ![e, 1]⟩ ⟨1, ![e]⟩ [] [0] [0] 1)
    (j : (⟨1, ![e]⟩ : Shape).Idx) (idx : IVec ⟨2, ![e, 1]⟩ 32) :
    (vecDims n e wf).start j idx 0 = (idx (ix2 (j 0) (0 : Fin 1))).toInt := by
  unfold ScatterDims.start
  rw [dif_pos (List.mem_singleton.mpr rfl)]
  have hsi : ∀ hc, (vecDims n e wf).siIdx j ⟨List.idxOf (0 : Fin 1) [(0 : Fin 1)], hc⟩ = ix2 (j 0) (0 : Fin 1) := by
    intro hc; funext b; refine Fin.ext ?_
    match b with
    | ⟨0, _⟩ => rfl
    | ⟨1, _⟩ => rfl
  rw [hsi]
  rfl

/-- The inserted axis has no window coordinate. -/
private theorem vecDims_window {n e : ℕ} (wf : ScatterDims.WF ⟨1, ![n]⟩ ⟨2, ![e, 1]⟩ ⟨1, ![e]⟩ [] [0] [0] 1)
    (j : (⟨1, ![e]⟩ : Shape).Idx) : (vecDims n e wf).window j 0 = 0 := by
  rfl

/-- Update `j` lands on entry `r` exactly when its index word reads as `r`. -/
private theorem vecDims_resultIdx {n e : ℕ} (wf : ScatterDims.WF ⟨1, ![n]⟩ ⟨2, ![e, 1]⟩ ⟨1, ![e]⟩ [] [0] [0] 1)
    (j : (⟨1, ![e]⟩ : Shape).Idx) (idx : IVec ⟨2, ![e, 1]⟩ 32) (r : Fin n) :
    (vecDims n e wf).resultIdx? j idx = some (ix1 r) ↔ (idx (ix2 (j 0) (0 : Fin 1))).toInt = (r.val : ℤ) := by
  have hr := r.isLt
  unfold ScatterDims.resultIdx?
  constructor
  · intro h
    split at h
    · rename_i hb
      have hi := Option.some.inj h
      have h0 := hb 0
      rw [vecDims_start, vecDims_window] at h0
      have e0 := congrArg (fun f => (f 0).val) hi
      simp only [vecDims_start, vecDims_window] at e0
      have e0' : ((idx (ix2 (j 0) (0 : Fin 1))).toInt + ((0 : ℕ) : ℤ)).toNat = r.val := e0
      omega
    · exact absurd h (by simp)
  · intro h0
    have hb : ∀ a, 0 ≤ (vecDims n e wf).start j idx a + (vecDims n e wf).window j a ∧
        (vecDims n e wf).start j idx a + (vecDims n e wf).window j a < (⟨1, ![n]⟩ : Shape).size a := by
      intro a
      match a with
      | ⟨0, _⟩ =>
        show 0 ≤ (vecDims n e wf).start j idx 0 + (vecDims n e wf).window j 0 ∧
          (vecDims n e wf).start j idx 0 + (vecDims n e wf).window j 0 < (n : ℤ)
        rw [vecDims_start, vecDims_window]
        omega
    rw [dif_pos hb]
    congr 1
    funext a
    refine Fin.ext ?_
    match a with
    | ⟨0, _⟩ =>
      show ((vecDims n e wf).start j idx 0 + (vecDims n e wf).window j 0).toNat = r.val
      rw [vecDims_start, vecDims_window]
      omega

/-- A scatter-add of scalars into a vector is the operand plus, at each entry, the sum of the updates whose word names it. -/
theorem scatterAdd_vec {n e : ℕ} (d : ScatterDims ⟨1, ![n]⟩ ⟨2, ![e, 1]⟩ ⟨1, ![e]⟩)
    (h1 : d.updateWindowDims = []) (h2 : d.insertedWindowDims = [0]) (h3 : d.scatterDimsToOperandDims = [0])
    (h4 : d.indexVectorDim = 1) (x : Arr1 n) (idx : IVec ⟨2, ![e, 1]⟩ 32) (upd : Arr1 e) :
    Host.scatterAdd (F := Ideal) (φ := .f32) d x idx upd
      = fun i => x i + ∑ p : Fin e, if (idx (ix2 p (0 : Fin 1))).toInt = ((i 0).val : ℤ) then upd (ix1 p) else 0 := by
  obtain ⟨uw, iw, sd, ivd, wf⟩ := d
  simp only at h1 h2 h3 h4
  subst h1 h2 h3 h4
  funext i
  obtain ⟨r, rfl⟩ : ∃ r : Fin n, i = ix1 r := ⟨i 0, eq_ix1 i⟩
  show x (ix1 r) + ∑ j ∈ Finset.univ.filter (fun j => (vecDims n e wf).resultIdx? j idx = some (ix1 r)), upd j
    = x (ix1 r) + ∑ p : Fin e, if (idx (ix2 p (0 : Fin 1))).toInt = (r.val : ℤ) then upd (ix1 p) else 0
  congr 1
  rw [Finset.sum_filter, sum_ix1]
  refine Finset.sum_congr rfl fun p _ => ?_
  simp only [vecDims_resultIdx]
  rfl

/-! ## The gather of whole rows -/

/-- A gather of whole rows reads, at row `p`, the row its index word names, clamped into the table. -/
theorem gather_rows {α : Type} {n c e : ℕ} (hn : 0 < n) (d : GatherDims ⟨2, ![n, c]⟩ ⟨2, ![e, 1]⟩ ⟨2, ![e, c]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, c]) (A : (⟨2, ![n, c]⟩ : Shape).Idx → α) (idx : IVec ⟨2, ![e, 1]⟩ 32)
    (i : (⟨2, ![e, c]⟩ : Shape).Idx) :
    Host.gather d A idx i = A (ix2 (clampRow n hn (idx (ix2 (i 0) (0 : Fin 1)))) (i 1)) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: the start index clamped into the table; the axis is collapsed, so no offset
    show GatherDims.start _ i idx 0 + GatherDims.batchCoord _ i 0 + GatherDims.offCoord _ i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (hc : List.idxOf (0 : Fin 2) [(0 : Fin 2)] < [(0 : Fin 2)].length),
        GatherDims.siIdx (s := ⟨2, ![n, c]⟩) (si := ⟨2, ![e, 1]⟩) (t := ⟨2, ![e, c]⟩)
          ⟨[1], [0], [], [], [0], 1, ![1, c], wf⟩ i ⟨List.idxOf (0 : Fin 2) [(0 : Fin 2)], hc⟩ = ix2 (i 0) (0 : Fin 1) := by
      intro hc
      funext b; refine Fin.ext ?_
      match b with
      | ⟨0, _⟩ => rfl
      | ⟨1, _⟩ => rfl
    rw [hsi]
    rfl
  | ⟨1, _⟩ =>
    -- the column axis: start zero, the offset is the result's column
    show GatherDims.start _ i idx 1 + GatherDims.batchCoord _ i 1 + GatherDims.offCoord _ i 1 = _
    rw [GatherDims.batchCoord_eq_zero _ _ _ List.not_mem_nil]
    unfold GatherDims.start
    rw [dif_neg (show (1 : Fin 2) ∉ [(0 : Fin 2)] by decide)]
    simp only [Nat.add_zero, Nat.zero_add]
    unfold GatherDims.offCoord
    rw [dif_pos ((GatherDims.mem_sKept _ _).mpr ⟨show (1 : Fin 2) ∉ [(0 : Fin 2)] by decide, List.not_mem_nil⟩)]
    rfl

/-! ## Index words -/

/-- An index word in range names its own row. -/
theorem clampRow_val {n : ℕ} (hn : 0 < n) (w : BitVec 32) (h0 : 0 ≤ w.toInt) (h1 : w.toInt < (n : ℤ)) :
    ((clampRow n hn w).val : ℤ) = w.toInt := by
  unfold clampRow
  simp only
  omega

/-- An index word that reads as the row `r` names `r`. -/
theorem clampRow_eq {n : ℕ} (hn : 0 < n) (w : BitVec 32) (r : Fin n) (h : w.toInt = (r.val : ℤ)) : clampRow n hn w = r := by
  refine Fin.ext ?_
  have hr := r.isLt
  unfold clampRow
  simp only
  omega

/-- A non-negative word is not below zero … -/
theorem slt_zero_of_nonneg (w : BitVec 32) (h : 0 ≤ w.toInt) : IntOp.cmpi .slt w 0#32 = 0#1 := by
  unfold IntOp.cmpi
  simp only [BitVec.slt]
  have : (0#32).toInt = 0 := by decide
  rw [this]
  have : decide (w.toInt < 0) = false := by simpa using h
  rw [this]; rfl

/-- … and is at least zero; -/
theorem sge_zero_of_nonneg (w : BitVec 32) (h : 0 ≤ w.toInt) : IntOp.cmpi .sge w 0#32 = 1#1 := by
  unfold IntOp.cmpi
  simp only [BitVec.sle]
  have : (0#32).toInt = 0 := by decide
  rw [this]
  have : decide (0 ≤ w.toInt) = true := by simpa using h
  rw [this]; rfl

/-- a word below 100000 is at most 99999. -/
theorem sle_of_lt (w : BitVec 32) (h : w.toInt < 100000) : IntOp.cmpi .sle w 99999#32 = 1#1 := by
  unfold IntOp.cmpi
  simp only [BitVec.sle]
  have : (99999#32).toInt = 99999 := by decide
  rw [this]
  have : decide (w.toInt ≤ 99999) = true := by simp; omega
  rw [this]; rfl

end Gnn

end
-- ==== Proof.KernelHostSparse.lean ====
/-
  What each later kernel region finds in its aggregated-messages operand and in its root-term operand, in terms of
  what the region before left. Between two regions the host program gathers the rows of the two maps at the edge
  list's words (an index out of range filled with a marker value instead of a row), weighs their difference by the
  edge weight and sums the messages into the rows the target words name. An edge whose target word names no row is
  dropped by that sum whatever its message, and where every source word names a node (it lies in `[-100000, 100000)`,
  a negative word counting from the end) the remaining gathers read the rows their normalised words name: the result is
  the aggregation of `Gnn`. The root term is carried unchanged.
-/
import proofs.«419727_j75720273429180_1_alg».proof.Proof.Gen.KernelIdeal.Frame
import proofs.«419727_j75720273429180_1_alg».proof.Proof.Spec
import proofs.«419727_j75720273429180_1_alg».proof.Proof.Sparse
import proofs.«419727_j75720273429180_1_alg».proof.Proof.Wrap
import proofs.«419727_j75720273429180_1_alg».proof.Proof.KernelArgs
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Reduce

set_option maxRecDepth 16384

noncomputable section

open scoped BigOperators

namespace Cert.KernelIdeal.HostSparse

open Idealize.ShloMosaic Idealize.ShloMosaic.TcCoe Idealize.ShloMosaic.ValueIdx Cert.KernelIdeal Cert.KernelIdeal.Gen

/-! ## An `and`-reduce of bits that are all one -/

/-- A fold by `and` from the bit 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from rfl]
    exact foldl_andi_one f l fun n hn => h n (List.mem_cons_of_mem _ hn)

/-- An `and`-reduce from the bit 1 is 1 at `j` when every operand index that drops to `j` holds 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  exact foldl_andi_one x _ fun i hi => hx i (by simpa using (List.mem_filter.mp hi).2)

/-! ## The printed row lookup and message sum, as functions of their operands -/

/-- The index words as the lookup uses them: a negative word moved up by the table's height, then one word per row. -/
def wrapWords (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The bit per row that says its wrapped word names a row of the table. -/
def inTable (s : IVec S1600000 32) : IVec S1600000 1 :=
  Host.reduce IntOp.andi
    (andi
      (cmpi .sge (wrapWords s) (broadcastInDim S1600000x1 ![] bcast_S_S1600000x1 (constantI S_ 32 0#32)))
      (cmpi .sle (wrapWords s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The row lookup as printed: the rows gathered at the wrapped words, a row whose wrapped word is still outside the
    table replaced by the marker value. -/
def takeRows (A : S100000x64.Idx → EReal) (s : IVec S1600000 32) : S1600000x64.Idx → EReal :=
  select (broadcastInDim S1600000x64 ![0] bcast_S1600000_S1600000x64_0 (inTable s))
    (Host.gather gather_S100000x64_S1600000x1_S1600000x64_1_0_n_n_0_1_164 A (wrapWords s))
    (broadcastInDim S1600000x64 ![] bcast_S_S1600000x64 (constant (F := Ideal) S_ .f32 0x7FC00000#32))

/-- The message sum as printed: the weighted differences of the two looked-up tables scatter-added into a zero table
    at the target words. -/
def sumMessages (ga gb : S1600000x64.Idx → EReal) (d : IVec S1600000 32) (w : S1600000x1.Idx → EReal) : S100000x64.Idx → EReal :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (mulf (broadcastInDim S1600000x64 ![0, 1] bcast_S1600000x1_S1600000x64_0_1 w) (subf ga gb))

/-- A wrapped word read at its row: the normalised word. -/
theorem wrapWords_apply (s : IVec S1600000 32) (p : Fin 1600000) (k : Fin 1) :
    wrapWords s (ix2 p k) = Gnn.wrapW (s (ix1 p)) := by
  unfold wrapWords
  refine (broadcastInDim_apply _ _ _ (ix2 p k) (ix1 p) fun a => match a with | ⟨0, _⟩ => rfl).trans ?_
  rfl

/-- A row whose normalised word names a row of the table has its bit set. -/
theorem inTable_apply (s : IVec S1600000 32) (p : Fin 1600000) (h0 : 0 ≤ (Gnn.wrapW (s (ix1 p))).toInt)
    (h1 : (Gnn.wrapW (s (ix1 p))).toInt < 100000) : inTable s (ix1 p) = 1#1 := by
  unfold inTable
  refine reduce_andi_one _ _ _ _ _ rfl fun i hi => ?_
  have hv : ((reducesTo_S1600000x1_S1600000_d1.drop i) 0 : Nat) = i 0 := Shape.ReducesTo.drop_apply_val_of_eq _ i 0 0
  have hp0 : i 0 = p := Fin.ext (by rw [← hv, hi])
  obtain ⟨k, hk⟩ : ∃ k : Fin 1, i = ix2 p k := ⟨i 1, (eq_ix2 i).trans (congrArg (fun a => ix2 a (i 1)) hp0)⟩
  rw [hk]
  show IntOp.andi (IntOp.cmpi .sge (wrapWords s (ix2 p k)) 0#32) (IntOp.cmpi .sle (wrapWords s (ix2 p k)) 99999#32) = 1#1
  rw [wrapWords_apply s p k, Gnn.sge_zero_of_nonneg _ h0, Gnn.sle_of_lt _ h1]
  rfl

/-- The lookup at a row whose normalised word names a row of the table reads that row. -/
theorem takeRows_apply (A : S100000x64.Idx → EReal) (s : IVec S1600000 32) (p : Fin 1600000) (q : Fin 64)
    (h0 : 0 ≤ (Gnn.wrapW (s (ix1 p))).toInt) (h1 : (Gnn.wrapW (s (ix1 p))).toInt < 100000) :
    takeRows A s (ix2 p q) = A (ix2 (Gnn.clampRow 100000 (by decide) (Gnn.wrapW (s (ix1 p)))) q) := by
  unfold takeRows
  rw [select_apply,
    (broadcastInDim_apply _ _ _ (ix2 p q) (ix1 p) fun a => match a with | ⟨0, _⟩ => rfl).trans (inTable_apply s p h0 h1),
    select_one]
  refine (Gnn.gather_rows (by decide) _ rfl rfl rfl rfl rfl rfl rfl A (wrapWords s) (ix2 p q)).trans ?_
  show A (ix2 (Gnn.clampRow 100000 _ (wrapWords s (ix2 p 0))) q) = _
  rw [wrapWords_apply s p 0]

/-- With every source word naming a node, the printed message sum over the two printed lookups is the aggregation at
    the normalised source words. A target word that lands is not negative, so it is its own normalised word. -/
theorem sumMessages_eq (A B : S100000x64.Idx → EReal) (s d : IVec S1600000 32) (w : S1600000x1.Idx → EReal)
    (hs : ∀ p : Fin 1600000, -100000 ≤ (s (ix1 p)).toInt ∧ (s (ix1 p)).toInt < 100000) :
    sumMessages (takeRows A s) (takeRows B d) d w
      = Gnn.agg (by decide) (fun p => w (ix2 p (0 : Fin 1))) A B (fun p => Gnn.wrapW (s (ix1 p))) (fun p => d (ix1 p)) := by
  unfold sumMessages
  rw [Gnn.scatterAdd_rows _ rfl rfl rfl rfl]
  funext i
  have hz : broadcastInDim S100000x64 ![] bcast_S_S100000x64 (constant (F := Ideal) S_ .f32 0x00000000#32) i = 0 :=
    Ideal.ofBits_zero_f32
  have hseg : (fun p : Fin 1600000 => broadcastInDim S1600000x1 ![0] bcast_S1600000_S1600000x1_0 d (ix2 p (0 : Fin 1)))
      = fun p => d (ix1 p) :=
    funext fun p => broadcastInDim_apply _ _ _ (ix2 p 0) (ix1 p) fun a => match a with | ⟨0, _⟩ => rfl
  rw [hz, zero_add, hseg]
  unfold Gnn.agg
  refine congrFun (Gnn.segSum_congr _ _ _ fun p q h0 h1 => ?_) i
  have hw := Gnn.wrapW_inRange _ (hs p).1 (hs p).2
  have hd : Gnn.wrapW (d (ix1 p)) = d (ix1 p) := Gnn.wrapW_of_nonneg _ h0
  rw [mulf_apply, subf_apply, takeRows_apply A s p q hw.1 hw.2,
    takeRows_apply B d p q (by rw [hd]; exact h0) (by rw [hd]; exact h1), hd,
    broadcastInDim_apply _ _ _ (ix2 p q) (ix2 p 0) fun a => match a with | ⟨0, _⟩ => rfl | ⟨1, _⟩ => rfl]
  rfl

/-! ## The stretches read at the buffer they end in, from any entry contents -/

/-- Contents moved to a buffer's own type and back are unchanged. -/
theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

/-- The first layer's lookup of the first map at the source words. -/
theorem lookup1a (V : Valuation τ sig (Elt Ideal)) :
    (StableHlo.after hostOps1 V (Proc.devRef .tc main_v22) : S1600000x64.Idx → EReal)
      = takeRows (V (Proc.devRef .tc main_v21_0)) (V (Proc.devRef .tc main_v1)) := by
  after_results_simp
  simp only [ofBuf_toBuf]
  rw [show (StableHlo.TRef.of main_v1 : StableHlo.TRef sig ⟨S1600000, .i32⟩).ofBuf (V (Proc.devRef .tc main_v1))
        = V (Proc.devRef .tc main_v1) from cast_eq _ _,
    show (StableHlo.TRef.of main_v21_0 : StableHlo.TRef sig ⟨S100000x64, .f32⟩).ofBuf (V (Proc.devRef .tc main_v21_0))
        = V (Proc.devRef .tc main_v21_0) from cast_eq _ _]
  refine (cast_eq _ _).trans ?_
  rfl

/-- The first layer's lookup of the second map at the target words. -/
theorem lookup1b (V : Valuation τ sig (Elt Ideal)) :
    (StableHlo.after hostOps1_1 V (Proc.devRef .tc main_v23) : S1600000x64.Idx → EReal)
      = takeRows (V (Proc.devRef .tc main_v21_1)) (V (Proc.devRef .tc main_v3)) := by
  after_results_simp
  simp only [ofBuf_toBuf]
  rw [show (StableHlo.TRef.of main_v3 : StableHlo.TRef sig ⟨S1600000, .i32⟩).ofBuf (V (Proc.devRef .tc main_v3))
        = V (Proc.devRef .tc main_v3) from cast_eq _ _,
    show (StableHlo.TRef.of main_v21_1 : StableHlo.TRef sig ⟨S100000x64, .f32⟩).ofBuf (V (Proc.devRef .tc main_v21_1))
        = V (Proc.devRef .tc main_v21_1) from cast_eq _ _]
  refine (cast_eq _ _).trans ?_
  rfl

/-- The first layer's message sum. -/
theorem msgs1 (V : Valuation τ sig (Elt Ideal)) :
    (StableHlo.after hostOps1_2 V (Proc.devRef .tc main_v29) : S100000x64.Idx → EReal)
      = sumMessages (V (Proc.devRef .tc main_v22)) (V (Proc.devRef .tc main_v23)) (V (Proc.devRef .tc main_v3))
          (V (Proc.devRef .tc main_v5)) := by
  after_results
  rfl

/-- The second layer's lookup of the first map at the source words. -/
theorem lookup2a (V : Valuation τ sig (Elt Ideal)) :
    (StableHlo.after hostOps2 V (Proc.devRef .tc main_v41) : S1600000x64.Idx → EReal)
      = takeRows (V (Proc.devRef .tc main_v40_0)) (V (Proc.devRef .tc main_v1)) := by
  after_results_simp
  simp only [ofBuf_toBuf]
  rw [show (StableHlo.TRef.of main_v1 : StableHlo.TRef sig ⟨S1600000, .i32⟩).ofBuf (V (Proc.devRef .tc main_v1))
        = V (Proc.devRef .tc main_v1) from cast_eq _ _,
    show (StableHlo.TRef.of main_v40_0 : StableHlo.TRef sig ⟨S100000x64, .f32⟩).ofBuf (V (Proc.devRef .tc main_v40_0))
        = V (Proc.devRef .tc main_v40_0) from cast_eq _ _]
  refine (cast_eq _ _).trans ?_
  rfl

/-- The second layer's lookup of the second map at the target words. -/
theorem lookup2b (V : Valuation τ sig (Elt Ideal)) :
    (StableHlo.after hostOps2_1 V (Proc.devRef .tc main_v42) : S1600000x64.Idx → EReal)
      = takeRows (V (Proc.devRef .tc main_v40_1)) (V (Proc.devRef .tc main_v3)) := by
  after_results_simp
  simp only [ofBuf_toBuf]
  rw [show (StableHlo.TRef.of main_v3 : StableHlo.TRef sig ⟨S1600000, .i32⟩).ofBuf (V (Proc.devRef .tc main_v3))
        = V (Proc.devRef .tc main_v3) from cast_eq _ _,
    show (StableHlo.TRef.of main_v40_1 : StableHlo.TRef sig ⟨S100000x64, .f32⟩).ofBuf (V (Proc.devRef .tc main_v40_1))
        = V (Proc.devRef .tc main_v40_1) from cast_eq _ _]
  refine (cast_eq _ _).trans ?_
  rfl

/-- The second layer's message sum. -/
theorem msgs2 (V : Valuation τ sig (Elt Ideal)) :
    (StableHlo.after hostOps2_2 V (Proc.devRef .tc main_v48) : S100000x64.Idx → EReal)
      = sumMessages (V (Proc.devRef .tc main_v41)) (V (Proc.devRef .tc main_v42)) (V (Proc.devRef .tc main_v3))
          (V (Proc.devRef .tc main_v5)) := by
  after_results
  rfl

/-- The third layer's lookup of the first map at the source words. -/
theorem lookup3a (V : Valuation τ sig (Elt Ideal)) :
    (StableHlo.after hostOps3 V (Proc.devRef .tc main_v60) : S1600000x64.Idx → EReal)
      = takeRows (V (Proc.devRef .tc main_v59_0)) (V (Proc.devRef .tc main_v1)) := by
  after_results_simp
  simp only [ofBuf_toBuf]
  rw [show (StableHlo.TRef.of main_v1 : StableHlo.TRef sig ⟨S1600000, .i32⟩).ofBuf (V (Proc.devRef .tc main_v1))
        = V (Proc.devRef .tc main_v1) from cast_eq _ _,
    show (StableHlo.TRef.of main_v59_0 : StableHlo.TRef sig ⟨S100000x64, .f32⟩).ofBuf (V (Proc.devRef .tc main_v59_0))
        = V (Proc.devRef .tc main_v59_0) from cast_eq _ _]
  refine (cast_eq _ _).trans ?_
  rfl

/-- The third layer's lookup of the second map at the target words. -/
theorem lookup3b (V : Valuation τ sig (Elt Ideal)) :
    (StableHlo.after hostOps3_1 V (Proc.devRef .tc main_v61) : S1600000x64.Idx → EReal)
      = takeRows (V (Proc.devRef .tc main_v59_1)) (V (Proc.devRef .tc main_v3)) := by
  after_results_simp
  simp only [ofBuf_toBuf]
  rw [show (StableHlo.TRef.of main_v3 : StableHlo.TRef sig ⟨S1600000, .i32⟩).ofBuf (V (Proc.devRef .tc main_v3))
        = V (Proc.devRef .tc main_v3) from cast_eq _ _,
    show (StableHlo.TRef.of main_v59_1 : StableHlo.TRef sig ⟨S100000x64, .f32⟩).ofBuf (V (Proc.devRef .tc main_v59_1))
        = V (Proc.devRef .tc main_v59_1) from cast_eq _ _]
  refine (cast_eq _ _).trans ?_
  rfl

/-- The third layer's message sum. -/
theorem msgs3 (V : Valuation τ sig (Elt Ideal)) :
    (StableHlo.after hostOps3_2 V (Proc.devRef .tc main_v67) : S100000x64.Idx → EReal)
      = sumMessages (V (Proc.devRef .tc main_v60)) (V (Proc.devRef .tc main_v61)) (V (Proc.devRef .tc main_v3))
          (V (Proc.devRef .tc main_v5)) := by
  after_results
  rfl

/-! ## What a stretch does not write it leaves alone -/

/-- The stretch `ops` leaves the buffer `b` as it found it, whatever the entry contents. -/
def Keeps (ops : List (HloOp τ sig (Elt Ideal))) (b : Ref sig .tc) : Prop :=
  ∀ V : Valuation τ sig (Elt Ideal), StableHlo.after ops V (Proc.devRef .tc b) = V (Proc.devRef .tc b)

/-- No operation of the stretch writes the buffer: it differs from each operation's result buffer. -/
macro "stretch_keeps " ops:ident : tactic =>
  `(tactic| (intro V
             exact StableHlo.after_of_forall_not_mem _ _ (List.forall_iff_forall_mem.mp (by
               simp only [$ops:ident, List.Forall, StableHlo.nullary_writes, StableHlo.unary_writes, StableHlo.binary_writes,
                 StableHlo.ternary_writes, StableHlo.reshape_writes, Finset.mem_singleton]
               repeat' apply And.intro
               all_goals exact StableHlo.devRef_ne_of_ne (by decide)))))

theorem k1_src : Keeps hostOps1 main_v1 := by stretch_keeps hostOps1
theorem k1_dst : Keeps hostOps1 main_v3 := by stretch_keeps hostOps1
theorem k1_wgt : Keeps hostOps1 main_v5 := by stretch_keeps hostOps1
theorem k1_tbl : Keeps hostOps1 main_v21_1 := by stretch_keeps hostOps1
theorem k1_root : Keeps hostOps1 main_v21_2 := by stretch_keeps hostOps1
theorem k11_src : Keeps hostOps1_1 main_v1 := by stretch_keeps hostOps1_1
theorem k11_dst : Keeps hostOps1_1 main_v3 := by stretch_keeps hostOps1_1
theorem k11_wgt : Keeps hostOps1_1 main_v5 := by stretch_keeps hostOps1_1
theorem k11_tbl : Keeps hostOps1_1 main_v22 := by stretch_keeps hostOps1_1
theorem k11_root : Keeps hostOps1_1 main_v21_2 := by stretch_keeps hostOps1_1
theorem k12_src : Keeps hostOps1_2 main_v1 := by stretch_keeps hostOps1_2
theorem k12_dst : Keeps hostOps1_2 main_v3 := by stretch_keeps hostOps1_2
theorem k12_wgt : Keeps hostOps1_2 main_v5 := by stretch_keeps hostOps1_2
theorem k12_root : Keeps hostOps1_2 main_v21_2 := by stretch_keeps hostOps1_2
theorem k2_src : Keeps hostOps2 main_v1 := by stretch_keeps hostOps2
theorem k2_dst : Keeps hostOps2 main_v3 := by stretch_keeps hostOps2
theorem k2_wgt : Keeps hostOps2 main_v5 := by stretch_keeps hostOps2
theorem k2_tbl : Keeps hostOps2 main_v40_1 := by stretch_keeps hostOps2
theorem k2_root : Keeps hostOps2 main_v40_2 := by stretch_keeps hostOps2
theorem k21_src : Keeps hostOps2_1 main_v1 := by stretch_keeps hostOps2_1
theorem k21_dst : Keeps hostOps2_1 main_v3 := by stretch_keeps hostOps2_1
theorem k21_wgt : Keeps hostOps2_1 main_v5 := by stretch_keeps hostOps2_1
theorem k21_tbl : Keeps hostOps2_1 main_v41 := by stretch_keeps hostOps2_1
theorem k21_root : Keeps hostOps2_1 main_v40_2 := by stretch_keeps hostOps2_1
theorem k22_src : Keeps hostOps2_2 main_v1 := by stretch_keeps hostOps2_2
theorem k22_dst : Keeps hostOps2_2 main_v3 := by stretch_keeps hostOps2_2
theorem k22_wgt : Keeps hostOps2_2 main_v5 := by stretch_keeps hostOps2_2
theorem k22_root : Keeps hostOps2_2 main_v40_2 := by stretch_keeps hostOps2_2
theorem k3_src : Keeps hostOps3 main_v1 := by stretch_keeps hostOps3
theorem k3_dst : Keeps hostOps3 main_v3 := by stretch_keeps hostOps3
theorem k3_wgt : Keeps hostOps3 main_v5 := by stretch_keeps hostOps3
theorem k3_tbl : Keeps hostOps3 main_v59_1 := by stretch_keeps hostOps3
theorem k3_root : Keeps hostOps3 main_v59_2 := by stretch_keeps hostOps3
theorem k31_src : Keeps hostOps3_1 main_v1 := by stretch_keeps hostOps3_1
theorem k31_dst : Keeps hostOps3_1 main_v3 := by stretch_keeps hostOps3_1
theorem k31_wgt : Keeps hostOps3_1 main_v5 := by stretch_keeps hostOps3_1
theorem k31_tbl : Keeps hostOps3_1 main_v60 := by stretch_keeps hostOps3_1
theorem k31_root : Keeps hostOps3_1 main_v59_2 := by stretch_keeps hostOps3_1
theorem k32_root : Keeps hostOps3_2 main_v59_2 := by stretch_keeps hostOps3_2

/-! ## The edge list's words and weights, from the launch memory to every boundary -/

/-- The source words as the opening stretch leaves them: row 0 of the edge list. -/
theorem src_read (V : Valuation τ sig (Elt Ideal)) (p : Fin 1600000) :
    (StableHlo.after hostOps0 V (Proc.devRef .tc main_v1) : IVec S1600000 32) (ix1 p)
      = (V (Proc.devRef .tc main_arg1) : S2x1600000.Idx → BitVec 32) (ix2 (0 : Fin 2) p) := by
  have e : (StableHlo.after hostOps0 V (Proc.devRef .tc main_v1) : IVec S1600000 32)
      = shapeCast S1600000 (extractStridedSlice S1x1600000 ![0, 0] (V (Proc.devRef .tc main_arg1)) slices_S2x1600000_S1x1600000_0_0)
          shapeCasts_S1x1600000_S1600000 := by
    after_results
    rfl
  rw [e]
  refine (shapeCast_apply _ _ (ix1 p) (ix2 (0 : Fin 1) p) ?_).trans ?_
  · rw [Shape.rowMajor_val_two, Shape.rowMajor_val_one]
    show 0 * 1600000 + p.val = p.val
    omega
  · exact extractStridedSlice_apply _ _ _ (ix2 (0 : Fin 1) p) (ix2 (0 : Fin 2) p) fun a =>
      match a with | ⟨0, _⟩ => rfl | ⟨1, _⟩ => (Nat.zero_add _).symm

/-- The target words as the opening stretch leaves them: row 1 of the edge list. -/
theorem dst_read (V : Valuation τ sig (Elt Ideal)) (p : Fin 1600000) :
    (StableHlo.after hostOps0 V (Proc.devRef .tc main_v3) : IVec S1600000 32) (ix1 p)
      = (V (Proc.devRef .tc main_arg1) : S2x1600000.Idx → BitVec 32) (ix2 (1 : Fin 2) p) := by
  have e : (StableHlo.after hostOps0 V (Proc.devRef .tc main_v3) : IVec S1600000 32)
      = shapeCast S1600000 (extractStridedSlice S1x1600000 ![1, 0] (V (Proc.devRef .tc main_arg1)) slices_S2x1600000_S1x1600000_1_0)
          shapeCasts_S1x1600000_S1600000 := by
    after_results
    rfl
  rw [e]
  refine (shapeCast_apply _ _ (ix1 p) (ix2 (0 : Fin 1) p) ?_).trans ?_
  · rw [Shape.rowMajor_val_two, Shape.rowMajor_val_one]
    show 0 * 1600000 + p.val = p.val
    omega
  · exact extractStridedSlice_apply _ _ _ (ix2 (0 : Fin 1) p) (ix2 (1 : Fin 2) p) fun a =>
      match a with | ⟨0, _⟩ => rfl | ⟨1, _⟩ => (Nat.zero_add _).symm

/-- The edge weights as the opening stretch leaves them: the weight vector as one column. -/
theorem wgt_read (V : Valuation τ sig (Elt Ideal)) (p : Fin 1600000) :
    (StableHlo.after hostOps0 V (Proc.devRef .tc main_v5) : S1600000x1.Idx → EReal) (ix2 p (0 : Fin 1))
      = (V (Proc.devRef .tc main_arg2) : S1600000.Idx → EReal) (ix1 p) := by
  have e : (StableHlo.after hostOps0 V (Proc.devRef .tc main_v5) : S1600000x1.Idx → EReal)
      = shapeCast S1600000x1 (V (Proc.devRef .tc main_arg2)) shapeCasts_S1600000_S1600000x1 := by
    after_results
    rfl
  rw [e]
  refine shapeCast_apply _ _ (ix2 p (0 : Fin 1)) (ix1 p) ?_
  rw [Shape.rowMajor_val_two, Shape.rowMajor_val_one]
  show p.val = p.val * 1 + 0
  omega

variable (m : (ℓ : Loc nD τ sig) → Buf (Elt Ideal) ℓ) (ρ : Dev nD → PrngReg)

open Cert.KernelIdeal.Args

/-- The source words at the first region's entry. -/
abbrev srcA (c : Dev nD) : IVec S1600000 32 := W1 m ρ c (Proc.devRef .tc main_v1)
/-- The target words at the first region's entry. -/
abbrev dstA (c : Dev nD) : IVec S1600000 32 := W1 m ρ c (Proc.devRef .tc main_v3)
/-- The edge weights at the first region's entry. -/
abbrev wgtA (c : Dev nD) : S1600000x1.Idx → EReal := W1 m ρ c (Proc.devRef .tc main_v5)

theorem srcA_apply (c : Dev nD) (p : Fin 1600000) : srcA m ρ c (ix1 p) = rawSrcW m c p := src_read (W0 m ρ c) p
theorem dstA_apply (c : Dev nD) (p : Fin 1600000) : dstA m ρ c (ix1 p) = dstW m c p := dst_read (W0 m ρ c) p
theorem wgtA_apply (c : Dev nD) (p : Fin 1600000) : wgtA m ρ c (ix2 p (0 : Fin 1)) = attrW m c p := wgt_read (W0 m ρ c) p

/-- The contents `X` hold the words and weights the first region's entry held. -/
structure WordsAt (X : Valuation τ sig (Elt Ideal)) (c : Dev nD) : Prop where
  src : X (Proc.devRef .tc main_v1) = srcA m ρ c
  dst : X (Proc.devRef .tc main_v3) = dstA m ρ c
  wgt : X (Proc.devRef .tc main_v5) = wgtA m ρ c

variable {m ρ} in
/-- A stretch that writes none of the three keeps them. -/
theorem WordsAt.step {X : Valuation τ sig (Elt Ideal)} {c : Dev nD} (h : WordsAt m ρ X c)
    {ops : List (HloOp τ sig (Elt Ideal))} (k1 : Keeps ops main_v1) (k3 : Keeps ops main_v3) (k5 : Keeps ops main_v5) :
    WordsAt m ρ (StableHlo.after ops X) c :=
  ⟨(k1 X).trans h.src, (k3 X).trans h.dst, (k5 X).trans h.wgt⟩

theorem words2 (c : Dev nD) : WordsAt m ρ (W2 m ρ c) c :=
  ⟨W2_of_ne m ρ c main_v1 (by decide), W2_of_ne m ρ c main_v3 (by decide), W2_of_ne m ρ c main_v5 (by decide)⟩
theorem words3 (c : Dev nD) : WordsAt m ρ (W3 m ρ c) c := (words2 m ρ c).step k1_src k1_dst k1_wgt
theorem words4 (c : Dev nD) : WordsAt m ρ (W4 m ρ c) c := (words3 m ρ c).step k11_src k11_dst k11_wgt
theorem words5 (c : Dev nD) : WordsAt m ρ (W5 m ρ c) c := (words4 m ρ c).step k12_src k12_dst k12_wgt
theorem words6 (c : Dev nD) : WordsAt m ρ (W6 m ρ c) c :=
  ⟨(W6_of_ne m ρ c main_v1 (by decide)).trans (words5 m ρ c).src, (W6_of_ne m ρ c main_v3 (by decide)).trans (words5 m ρ c).dst,
    (W6_of_ne m ρ c main_v5 (by decide)).trans (words5 m ρ c).wgt⟩
theorem words7 (c : Dev nD) : WordsAt m ρ (W7 m ρ c) c := (words6 m ρ c).step k2_src k2_dst k2_wgt
theorem words8 (c : Dev nD) : WordsAt m ρ (W8 m ρ c) c := (words7 m ρ c).step k21_src k21_dst k21_wgt
theorem words9 (c : Dev nD) : WordsAt m ρ (W9 m ρ c) c := (words8 m ρ c).step k22_src k22_dst k22_wgt
theorem words10 (c : Dev nD) : WordsAt m ρ (W10 m ρ c) c :=
  ⟨(W10_of_ne m ρ c main_v1 (by decide)).trans (words9 m ρ c).src, (W10_of_ne m ρ c main_v3 (by decide)).trans (words9 m ρ c).dst,
    (W10_of_ne m ρ c main_v5 (by decide)).trans (words9 m ρ c).wgt⟩
theorem words11 (c : Dev nD) : WordsAt m ρ (W11 m ρ c) c := (words10 m ρ c).step k3_src k3_dst k3_wgt
theorem words12 (c : Dev nD) : WordsAt m ρ (W12 m ρ c) c := (words11 m ρ c).step k31_src k31_dst k31_wgt

/-- With every source word naming a node, the printed message sum over the printed lookups at the entry's words and
    weights is the aggregation at the launch memory's. -/
theorem agg_of_words (c : Dev nD) (h : SrcInRange m c) (A B : S100000x64.Idx → EReal) :
    sumMessages (takeRows A (srcA m ρ c)) (takeRows B (dstA m ρ c)) (dstA m ρ c) (wgtA m ρ c)
      = Gnn.agg (by decide) (attrW m c) A B (srcW m c) (dstW m c) := by
  have e1 : (fun p : Fin 1600000 => wgtA m ρ c (ix2 p (0 : Fin 1))) = attrW m c := funext fun p => wgtA_apply m ρ c p
  have e2 : (fun p : Fin 1600000 => Gnn.wrapW (srcA m ρ c (ix1 p))) = srcW m c :=
    funext fun p => congrArg Gnn.wrapW (srcA_apply m ρ c p)
  have e3 : (fun p : Fin 1600000 => dstA m ρ c (ix1 p)) = dstW m c := funext fun p => dstA_apply m ρ c p
  rw [sumMessages_eq _ _ _ _ _ (fun p => by rw [srcA_apply]; exact h p), e1, e2, e3]

/-! ## Between the first and the second region -/
theorem e1_agg (c : Dev nD) (h : SrcInRange m c) :
    V5 m ρ c main_v29 = Gnn.agg (by decide) (attrW m c) (V2 m ρ c main_v21_0) (V2 m ρ c main_v21_1) (srcW m c) (dstW m c) := by
  refine ((msgs1 (W4 m ρ c)).trans ?_).trans (agg_of_words m ρ c h (V2 m ρ c main_v21_0) (V2 m ρ c main_v21_1))
  rw [(words4 m ρ c).dst, (words4 m ρ c).wgt,
    show W4 m ρ c (Proc.devRef .tc main_v22) = W3 m ρ c (Proc.devRef .tc main_v22) from k11_tbl _,
    show W3 m ρ c (Proc.devRef .tc main_v22) = _ from lookup1a (W2 m ρ c),
    show W4 m ρ c (Proc.devRef .tc main_v23) = _ from lookup1b (W3 m ρ c),
    show W3 m ρ c (Proc.devRef .tc main_v21_1) = W2 m ρ c (Proc.devRef .tc main_v21_1) from k1_tbl _,
    (words2 m ρ c).src, (words3 m ρ c).dst]
theorem e1_root (c : Dev nD) : V5 m ρ c main_v21_2 = V2 m ρ c main_v21_2 :=
  (k12_root _).trans ((k11_root _).trans (k1_root _))

/-! ## Between the second and the third region -/
theorem e2_agg (c : Dev nD) (h : SrcInRange m c) :
    V9 m ρ c main_v48 = Gnn.agg (by decide) (attrW m c) (V6 m ρ c main_v40_0) (V6 m ρ c main_v40_1) (srcW m c) (dstW m c) := by
  refine ((msgs2 (W8 m ρ c)).trans ?_).trans (agg_of_words m ρ c h (V6 m ρ c main_v40_0) (V6 m ρ c main_v40_1))
  rw [(words8 m ρ c).dst, (words8 m ρ c).wgt,
    show W8 m ρ c (Proc.devRef .tc main_v41) = W7 m ρ c (Proc.devRef .tc main_v41) from k21_tbl _,
    show W7 m ρ c (Proc.devRef .tc main_v41) = _ from lookup2a (W6 m ρ c),
    show W8 m ρ c (Proc.devRef .tc main_v42) = _ from lookup2b (W7 m ρ c),
    show W7 m ρ c (Proc.devRef .tc main_v40_1) = W6 m ρ c (Proc.devRef .tc main_v40_1) from k2_tbl _,
    (words6 m ρ c).src, (words7 m ρ c).dst]
theorem e2_root (c : Dev nD) : V9 m ρ c main_v40_2 = V6 m ρ c main_v40_2 :=
  (k22_root _).trans ((k21_root _).trans (k2_root _))

/-! ## Between the third region and the pooling region -/
theorem e3_agg (c : Dev nD) (h : SrcInRange m c) :
    V13 m ρ c main_v67 = Gnn.agg (by decide) (attrW m c) (V10 m ρ c main_v59_0) (V10 m ρ c main_v59_1) (srcW m c) (dstW m c) := by
  refine ((msgs3 (W12 m ρ c)).trans ?_).trans (agg_of_words m ρ c h (V10 m ρ c main_v59_0) (V10 m ρ c main_v59_1))
  rw [(words12 m ρ c).dst, (words12 m ρ c).wgt,
    show W12 m ρ c (Proc.devRef .tc main_v60) = W11 m ρ c (Proc.devRef .tc main_v60) from k31_tbl _,
    show W11 m ρ c (Proc.devRef .tc main_v60) = _ from lookup3a (W10 m ρ c),
    show W12 m ρ c (Proc.devRef .tc main_v61) = _ from lookup3b (W11 m ρ c),
    show W11 m ρ c (Proc.devRef .tc main_v59_1) = W10 m ρ c (Proc.devRef .tc main_v59_1) from k3_tbl _,
    (words10 m ρ c).src, (words11 m ρ c).dst]
theorem e3_root (c : Dev nD) : V13 m ρ c main_v59_2 = V10 m ρ c main_v59_2 :=
  (k32_root _).trans ((k31_root _).trans (k3_root _))

end Cert.KernelIdeal.HostSparse

end
-- ==== Proof.KernelValue.lean ====
/-
  The kernel program's result as the network of `Gnn` on the launch arguments. The buffer contents at the program's
  boundaries are walked from the result back to the launch: the head reads the pooled sums and counts; the pooling
  region reads the last layer's aggregation and root term; each layer region reads the aggregation the host formed
  from the maps the region before left, and the root term carried past it; the first region reads the arguments.
  At every step the region's value (a whole-array function of what it finds) meets what the host left there, and the
  node table after each layer is one application of `Gnn.layer` to the table before.
-/
import proofs.«419727_j75720273429180_1_alg».proof.Proof.Gen.KernelIdeal.Frame
import proofs.«419727_j75720273429180_1_alg».proof.Proof.Spec
import proofs.«419727_j75720273429180_1_alg».proof.Proof.KernelArgs
import proofs.«419727_j75720273429180_1_alg».proof.Proof.EmbedRegion
import proofs.«419727_j75720273429180_1_alg».proof.Proof.LayerRegion1
import proofs.«419727_j75720273429180_1_alg».proof.Proof.LayerRegion2
import proofs.«419727_j75720273429180_1_alg».proof.Proof.PoolRegion
import proofs.«419727_j75720273429180_1_alg».proof.Proof.HeadRegion
import proofs.«419727_j75720273429180_1_alg».proof.Proof.KernelHostDense
import proofs.«419727_j75720273429180_1_alg».proof.Proof.KernelHostSparse

set_option maxRecDepth 16384

noncomputable section

namespace Cert.KernelIdeal.Value

open Idealize.ShloMosaic Idealize.ShloMosaic.TcCoe Idealize.ShloMosaic.ValueIdx Cert.KernelIdeal Cert.KernelIdeal.Gen
open Cert.KernelIdeal.Args Cert.KernelIdeal.HostDense Cert.KernelIdeal.HostSparse

variable (m : (ℓ : Loc nD τ sig) → Buf (Elt Ideal) ℓ) (ρ : Dev nD → PrngReg)

/-- The embedding of the node inputs. -/
abbrev H0 (c : Dev nD) : Gnn.Arr2 100000 64 := Gnn.lin (m ((c.tc : Thread nD τ).loc main_arg0)) (m ((c.tc : Thread nD τ).loc main_arg4)) (Gnn.row1 (m ((c.tc : Thread nD τ).loc main_arg5)))

/-- One message-passing layer on the launch arguments. -/
abbrev step (c : Dev nD) (l : Fin 3) (h : Gnn.Arr2 100000 64) : Gnn.Arr2 100000 64 :=
  Gnn.layer (by decide) (attrW m c) (srcW m c) (dstW m c) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) l h

/-- The node table after the first, second and third layer. -/
abbrev H1 (c : Dev nD) : Gnn.Arr2 100000 64 := step m c 0 (H0 m c)
abbrev H2 (c : Dev nD) : Gnn.Arr2 100000 64 := step m c 1 (H1 m c)
abbrev H3 (c : Dev nD) : Gnn.Arr2 100000 64 := step m c 2 (H2 m c)

/-! ## After the first region: the three maps of the embedding -/

theorem emb_a (c : Dev nD) : V2 m ρ c main_v21_0 = Gnn.lin (H0 m c) (Gnn.slab (m ((c.tc : Thread nD τ).loc main_arg6)) 0) (Gnn.row3 (m ((c.tc : Thread nD τ).loc main_arg7)) 0) :=
  (W2_arr m ρ c 8).trans ((Embed.a_eq (V1 m ρ) c).trans (by
    dsimp only [Embed.h0]
    rw [e0_x m ρ c, e0_wemb m ρ c, e0_bemb m ρ c, e0_w1 m ρ c, e0_b1 m ρ c]))

theorem emb_b (c : Dev nD) : V2 m ρ c main_v21_1 = Gnn.mm (H0 m c) (Gnn.slab (m ((c.tc : Thread nD τ).loc main_arg8)) 0) :=
  (W2_arr m ρ c 9).trans ((Embed.b_eq (V1 m ρ) c).trans (by
    dsimp only [Embed.h0]
    rw [e0_x m ρ c, e0_wemb m ρ c, e0_bemb m ρ c, e0_w2 m ρ c]))

theorem emb_c (c : Dev nD) : V2 m ρ c main_v21_2 = Gnn.lin (H0 m c) (Gnn.slab (m ((c.tc : Thread nD τ).loc main_arg9)) 0) (Gnn.row3 (m ((c.tc : Thread nD τ).loc main_arg10)) 0) :=
  (W2_arr m ρ c 10).trans ((Embed.c_eq (V1 m ρ) c).trans (by
    dsimp only [Embed.h0]
    rw [e0_x m ρ c, e0_wemb m ρ c, e0_bemb m ρ c, e0_w3 m ρ c, e0_b3 m ρ c]))

/-! ## The second region: the node table after the first layer, and its three maps -/

theorem nodes1 (c : Dev nD) (h : SrcInRange m c) : Layer1.nodes (V5 m ρ) c = H1 m c := by
  dsimp only [Layer1.nodes]
  rw [e1_agg m ρ c h, e1_root m ρ c, emb_a m ρ c, emb_b m ρ c, emb_c m ρ c]
  rfl

theorem l1_a (c : Dev nD) (h : SrcInRange m c) :
    V6 m ρ c main_v40_0 = Gnn.lin (H1 m c) (Gnn.slab (m ((c.tc : Thread nD τ).loc main_arg6)) 1) (Gnn.row3 (m ((c.tc : Thread nD τ).loc main_arg7)) 1) :=
  (W6_arr m ρ c 7).trans ((Layer1.a_eq (V5 m ρ) c).trans (by rw [nodes1 m ρ c h, e1_w1 m ρ c, e1_b1 m ρ c]))

theorem l1_b (c : Dev nD) (h : SrcInRange m c) : V6 m ρ c main_v40_1 = Gnn.mm (H1 m c) (Gnn.slab (m ((c.tc : Thread nD τ).loc main_arg8)) 1) :=
  (W6_arr m ρ c 8).trans ((Layer1.b_eq (V5 m ρ) c).trans (by rw [nodes1 m ρ c h, e1_w2 m ρ c]))

theorem l1_c (c : Dev nD) (h : SrcInRange m c) :
    V6 m ρ c main_v40_2 = Gnn.lin (H1 m c) (Gnn.slab (m ((c.tc : Thread nD τ).loc main_arg9)) 1) (Gnn.row3 (m ((c.tc : Thread nD τ).loc main_arg10)) 1) :=
  (W6_arr m ρ c 9).trans ((Layer1.c_eq (V5 m ρ) c).trans (by rw [nodes1 m ρ c h, e1_w3 m ρ c, e1_b3 m ρ c]))

/-! ## The third region: the node table after the second layer, and its three maps -/

theorem nodes2 (c : Dev nD) (h : SrcInRange m c) : Layer2.nodes (V9 m ρ) c = H2 m c := by
  dsimp only [Layer2.nodes]
  rw [e2_agg m ρ c h, e2_root m ρ c, l1_a m ρ c h, l1_b m ρ c h, l1_c m ρ c h]
  rfl

theorem l2_a (c : Dev nD) (h : SrcInRange m c) :
    V10 m ρ c main_v59_0 = Gnn.lin (H2 m c) (Gnn.slab (m ((c.tc : Thread nD τ).loc main_arg6)) 2) (Gnn.row3 (m ((c.tc : Thread nD τ).loc main_arg7)) 2) :=
  (W10_arr m ρ c 7).trans ((Layer2.a_eq (V9 m ρ) c).trans (by rw [nodes2 m ρ c h, e2_w1 m ρ c, e2_b1 m ρ c]))

theorem l2_b (c : Dev nD) (h : SrcInRange m c) : V10 m ρ c main_v59_1 = Gnn.mm (H2 m c) (Gnn.slab (m ((c.tc : Thread nD τ).loc main_arg8)) 2) :=
  (W10_arr m ρ c 8).trans ((Layer2.b_eq (V9 m ρ) c).trans (by rw [nodes2 m ρ c h, e2_w2 m ρ c]))

theorem l2_c (c : Dev nD) (h : SrcInRange m c) :
    V10 m ρ c main_v59_2 = Gnn.lin (H2 m c) (Gnn.slab (m ((c.tc : Thread nD τ).loc main_arg9)) 2) (Gnn.row3 (m ((c.tc : Thread nD τ).loc main_arg10)) 2) :=
  (W10_arr m ρ c 9).trans ((Layer2.c_eq (V9 m ρ) c).trans (by rw [nodes2 m ρ c h, e2_w3 m ρ c, e2_b3 m ρ c]))

/-! ## The pooling region: the node table after the third layer, pooled by label -/

theorem nodes3 (c : Dev nD) (h : SrcInRange m c) : Pool.nodes (V13 m ρ) c = H3 m c := by
  dsimp only [Pool.nodes]
  rw [e3_agg m ρ c h, e3_root m ρ c, l2_a m ρ c h, l2_b m ρ c h, l2_c m ρ c h]
  rfl

theorem labels3 (c : Dev nD) : Pool.labels (V13 m ρ) c = labW m c := funext fun p => e3_lab m ρ c p

theorem sums (c : Dev nD) (h : SrcInRange m c) : V14 m ρ c main_v68_0 = Gnn.segSum (H3 m c) (labW m c) :=
  (W14_arr m ρ c 3).trans ((Pool.sums_eq (V13 m ρ) c).trans (by rw [nodes3 m ρ c h, labels3 m ρ c]))

theorem counts (c : Dev nD) : V14 m ρ c main_v68_1 = Gnn.segCount (labW m c) :=
  (W14_arr m ρ c 4).trans ((Pool.counts_eq (V13 m ρ) c).trans (by rw [labels3 m ρ c]))

/-! ## The head: the result -/

/-- Where every source word is a node number, the result buffer ends at the network's value on the arguments. -/
theorem value (c : Dev nD) (h : SrcInRange m c) : W15 m ρ c (Proc.devRef .tc main_v69) = netOf m c :=
  (W15_arr m ρ c 6).trans ((Head.out_eq (V14 m ρ) c).trans (by
    rw [sums m ρ c h, counts m ρ c, e4_w1 m ρ c, e4_b1 m ρ c, e4_w2 m ρ c, e4_b2 m ρ c]
    rfl))

end Cert.KernelIdeal.Value

end
-- ==== Proof.RefSparse.lean ====
/-
  The reference program's sparse stages as the plain mathematics of `Gnn`. One layer's gather, weight, subtract and
  scatter-add over the edge list is the aggregation `Gnn.agg` of the two node tables; the readout's two scatter-adds over
  the node labels are the segment sum of the node rows and the count of each graph's nodes. The edge list is a two-row
  table of words: row 0 the sources, row 1 the targets; an index word is wrapped by the number of nodes when it is
  negative before a gather reads it, and is used as it stands by a scatter.
-/
import proofs.«419727_j75720273429180_1_alg».proof.Proof.Gen.ReferenceIdeal
import proofs.«419727_j75720273429180_1_alg».proof.Proof.Spec
import proofs.«419727_j75720273429180_1_alg».proof.Proof.Sparse
import proofs.«419727_j75720273429180_1_alg».proof.Proof.Wrap
import proofs.«419727_j75720273429180_1_alg».proof.Proof.RefArgs
import Idealize.ShloMosaic.Lib.Pipeline.Value
import Idealize.ShloMosaic.Lib.IdealHost

set_option maxRecDepth 16384

noncomputable section

open scoped BigOperators

namespace Cert.ReferenceIdeal.SparseStages

open Cert.ReferenceIdeal Cert.ReferenceIdeal.Gen Idealize.ShloMosaic Idealize.ShloMosaic.TcCoe Idealize.ShloMosaic.ValueIdx Idealize.ShloMosaic.StableHlo

/-- Row 0 of the edge list, flattened, read at `p`: the source word of edge `p`. -/
theorem srcRow_apply (ei : IVec S2x1600000 32) (p : Fin 1600000) :
    shapeCast S1600000 (extractStridedSlice S1x1600000 ![0, 0] ei slices_S2x1600000_S1x1600000_0_0) shapeCasts_S1x1600000_S1600000 (ix1 p)
      = ei (ix2 (0 : Fin 2) p) := by
  refine (shapeCast_apply _ shapeCasts_S1x1600000_S1600000 (ix1 p) (ix2 (0 : Fin 1) p) ?_).trans ?_
  · rw [Shape.rowMajor_val_two, Shape.rowMajor_val_one]
    show 0 * 1600000 + p.val = p.val
    omega
  · refine extractStridedSlice_apply ![0, 0] ei slices_S2x1600000_S1x1600000_0_0 _ _ (fun a => ?_)
    match a with
    | ⟨0, _⟩ => rfl
    | ⟨1, _⟩ => show p.val = 0 + p.val; omega

/-- Row 1 of the edge list, flattened, read at `p`: the target word of edge `p`. -/
theorem dstRow_apply (ei : IVec S2x1600000 32) (p : Fin 1600000) :
    shapeCast S1600000 (extractStridedSlice S1x1600000 ![1, 0] ei slices_S2x1600000_S1x1600000_1_0) shapeCasts_S1x1600000_S1600000 (ix1 p)
      = ei (ix2 (1 : Fin 2) p) := by
  refine (shapeCast_apply _ shapeCasts_S1x1600000_S1600000 (ix1 p) (ix2 (0 : Fin 1) p) ?_).trans ?_
  · rw [Shape.rowMajor_val_two, Shape.rowMajor_val_one]
    show 0 * 1600000 + p.val = p.val
    omega
  · refine extractStridedSlice_apply ![1, 0] ei slices_S2x1600000_S1x1600000_1_0 _ _ (fun a => ?_)
    match a with
    | ⟨0, _⟩ => rfl
    | ⟨1, _⟩ => show p.val = 0 + p.val; omega

/-- A vector of one entry per edge, made a one-column matrix, reads in row `p` its entry `p`. -/
theorem edgeColumn_apply {α : Type} (v : S1600000.Idx → α) (p : Fin 1600000) (z : Fin 1) :
    broadcastInDim S1600000x1 ![0] bcast_S1600000_S1600000x1_0 v (ix2 p z) = v (ix1 p) := by
  refine broadcastInDim_apply _ bcast_S1600000_S1600000x1_0 v _ _ (fun a => ?_)
  match a with
  | ⟨0, _⟩ => show p.val = if (1600000 : Nat) = 1 then 0 else p.val; rw [if_neg (by decide)]

/-- The weights, one per edge, spread along each edge's row. -/
theorem weightRows_apply (w : Gnn.Arr1 1600000) (p : Fin 1600000) (q : Fin 64) :
    broadcastInDim S1600000x64 ![0, 1] bcast_S1600000x1_S1600000x64_0_1 (broadcastInDim S1600000x1 ![0] bcast_S1600000_S1600000x1_0 w) (ix2 p q)
      = w (ix1 p) := by
  refine (broadcastInDim_apply _ bcast_S1600000x1_S1600000x64_0_1 _ (ix2 p q) (ix2 p (0 : Fin 1)) (fun a => ?_)).trans (edgeColumn_apply w p 0)
  match a with
  | ⟨0, _⟩ => show p.val = if (1600000 : Nat) = 1 then 0 else p.val; rw [if_neg (by decide)]
  | ⟨1, _⟩ => show 0 = if (1 : Nat) = 1 then 0 else q.val; rw [if_pos rfl]

/-- The gather of whole rows of a node table, read at row `p`, column `q`. -/
theorem gatherRows_apply (A : Gnn.Arr2 100000 64) (idx : IVec S1600000x1 32) (p : Fin 1600000) (q : Fin 64) :
    Host.gather gather_S100000x64_S1600000x1_S1600000x64_1_0_n_n_0_1_164 A idx (ix2 p q)
      = A (ix2 (Gnn.clampRow 100000 (by decide) (idx (ix2 p (0 : Fin 1)))) q) :=
  Gnn.gather_rows (by decide) _ rfl rfl rfl rfl rfl rfl rfl A idx (ix2 p q)

/-- A word that is not negative is not wrapped by the reference's index handling. -/
theorem wrap_of_nonneg (w : BitVec 32) (h : 0 ≤ w.toInt) :
    Scalar.select (IntOp.cmpi .slt w 0#32) (IntOp.addi w 100000#32) w = w := by
  rw [Gnn.slt_zero_of_nonneg w h, select_zero]

/-- The wrapped source column read in row `p`: the wrap of that edge's source word. -/
theorem srcColumn_apply (ei : IVec S2x1600000 32) (p : Fin 1600000) (z : Fin 1) :
    broadcastInDim S1600000x1 ![0] bcast_S1600000_S1600000x1_0
        (select
          (cmpi .slt (shapeCast _ (extractStridedSlice S1x1600000 ![0, 0] ei slices_S2x1600000_S1x1600000_0_0) shapeCasts_S1x1600000_S1600000)
            (broadcastInDim S1600000 ![] bcast_S_S1600000 (constantI S_ 32 0#32)))
          (addi (shapeCast _ (extractStridedSlice S1x1600000 ![0, 0] ei slices_S2x1600000_S1x1600000_0_0) shapeCasts_S1x1600000_S1600000)
            (broadcastInDim S1600000 ![] bcast_S_S1600000 (constantI S_ 32 100000#32)))
          (shapeCast _ (extractStridedSlice S1x1600000 ![0, 0] ei slices_S2x1600000_S1x1600000_0_0) shapeCasts_S1x1600000_S1600000)) (ix2 p z)
      = Scalar.select (IntOp.cmpi .slt (ei (ix2 (0 : Fin 2) p)) 0#32) (IntOp.addi (ei (ix2 (0 : Fin 2) p)) 100000#32)
          (ei (ix2 (0 : Fin 2) p)) := by
  rw [edgeColumn_apply]
  show Scalar.select (IntOp.cmpi .slt (shapeCast S1600000 _ shapeCasts_S1x1600000_S1600000 (ix1 p)) 0#32)
      (IntOp.addi (shapeCast S1600000 _ shapeCasts_S1x1600000_S1600000 (ix1 p)) 100000#32)
      (shapeCast S1600000 _ shapeCasts_S1x1600000_S1600000 (ix1 p)) = _
  rw [srcRow_apply]

/-- The wrapped target column read in row `p`: the wrap of that edge's target word. -/
theorem dstColumn_apply (ei : IVec S2x1600000 32) (p : Fin 1600000) (z : Fin 1) :
    broadcastInDim S1600000x1 ![0] bcast_S1600000_S1600000x1_0
        (select
          (cmpi .slt (shapeCast _ (extractStridedSlice S1x1600000 ![1, 0] ei slices_S2x1600000_S1x1600000_1_0) shapeCasts_S1x1600000_S1600000)
            (broadcastInDim S1600000 ![] bcast_S_S1600000 (constantI S_ 32 0#32)))
          (addi (shapeCast _ (extractStridedSlice S1x1600000 ![1, 0] ei slices_S2x1600000_S1x1600000_1_0) shapeCasts_S1x1600000_S1600000)
            (broadcastInDim S1600000 ![] bcast_S_S1600000 (constantI S_ 32 100000#32)))
          (shapeCast _ (extractStridedSlice S1x1600000 ![1, 0] ei slices_S2x1600000_S1x1600000_1_0) shapeCasts_S1x1600000_S1600000)) (ix2 p z)
      = Scalar.select (IntOp.cmpi .slt (ei (ix2 (1 : Fin 2) p)) 0#32) (IntOp.addi (ei (ix2 (1 : Fin 2) p)) 100000#32)
          (ei (ix2 (1 : Fin 2) p)) := by
  rw [edgeColumn_apply]
  show Scalar.select (IntOp.cmpi .slt (shapeCast S1600000 _ shapeCasts_S1x1600000_S1600000 (ix1 p)) 0#32)
      (IntOp.addi (shapeCast S1600000 _ shapeCasts_S1x1600000_S1600000 (ix1 p)) 100000#32)
      (shapeCast S1600000 _ shapeCasts_S1x1600000_S1600000 (ix1 p)) = _
  rw [dstRow_apply]

/-- One layer's sparse stage of the reference: the scatter-add, over the target words, of each edge's weight times the
    difference of the two gathered rows, is the aggregation of `Gnn` at the normalised source words, whatever the words
    are: the gather reads the row the normalised word names, clamped into the table. An edge whose target word names no
    node is dropped by the scatter; one that lands has a target word that is not negative, which is its own normalised
    word. -/
theorem agg_ref (a b : Gnn.Arr2 100000 64) (ei : IVec S2x1600000 32) (w : Gnn.Arr1 1600000) :
    Host.scatterAdd (F := Ideal) scatter_S100000x64_S1600000x1_S1600000x64_1_0_0_1
        (broadcastInDim S100000x64 ![] bcast_S_S100000x64 (constant S_ .f32 0x00000000#32))
        (broadcastInDim S1600000x1 ![0] bcast_S1600000_S1600000x1_0
          (shapeCast _ (extractStridedSlice S1x1600000 ![1, 0] ei slices_S2x1600000_S1x1600000_1_0) shapeCasts_S1x1600000_S1600000))
        (mulf (broadcastInDim S1600000x64 ![0, 1] bcast_S1600000x1_S1600000x64_0_1 (broadcastInDim S1600000x1 ![0] bcast_S1600000_S1600000x1_0 w))
          (subf
            (Host.gather gather_S100000x64_S1600000x1_S1600000x64_1_0_n_n_0_1_164 a
              (broadcastInDim S1600000x1 ![0] bcast_S1600000_S1600000x1_0
                (select
                  (cmpi .slt (shapeCast _ (extractStridedSlice S1x1600000 ![0, 0] ei slices_S2x1600000_S1x1600000_0_0) shapeCasts_S1x1600000_S1600000)
                    (broadcastInDim S1600000 ![] bcast_S_S1600000 (constantI S_ 32 0#32)))
                  (addi (shapeCast _ (extractStridedSlice S1x1600000 ![0, 0] ei slices_S2x1600000_S1x1600000_0_0) shapeCasts_S1x1600000_S1600000)
                    (broadcastInDim S1600000 ![] bcast_S_S1600000 (constantI S_ 32 100000#32)))
                  (shapeCast _ (extractStridedSlice S1x1600000 ![0, 0] ei slices_S2x1600000_S1x1600000_0_0) shapeCasts_S1x1600000_S1600000))))
            (Host.gather gather_S100000x64_S1600000x1_S1600000x64_1_0_n_n_0_1_164 b
              (broadcastInDim S1600000x1 ![0] bcast_S1600000_S1600000x1_0
                (select
                  (cmpi .slt (shapeCast _ (extractStridedSlice S1x1600000 ![1, 0] ei slices_S2x1600000_S1x1600000_1_0) shapeCasts_S1x1600000_S1600000)
                    (broadcastInDim S1600000 ![] bcast_S_S1600000 (constantI S_ 32 0#32)))
                  (addi (shapeCast _ (extractStridedSlice S1x1600000 ![1, 0] ei slices_S2x1600000_S1x1600000_1_0) shapeCasts_S1x1600000_S1600000)
                    (broadcastInDim S1600000 ![] bcast_S_S1600000 (constantI S_ 32 100000#32)))
                  (shapeCast _ (extractStridedSlice S1x1600000 ![1, 0] ei slices_S2x1600000_S1x1600000_1_0) shapeCasts_S1x1600000_S1600000))))))
      = Gnn.agg (by decide) (fun p => w (ix1 p)) a b (fun p => Gnn.wrapW (ei (ix2 (0 : Fin 2) p))) (fun p => ei (ix2 (1 : Fin 2) p)) := by
  refine (Gnn.scatterAdd_rows _ rfl rfl rfl rfl _ _ _).trans ?_
  -- the segment words are the target words
  have hseg : (fun p : Fin 1600000 => broadcastInDim S1600000x1 ![0] bcast_S1600000_S1600000x1_0
      (shapeCast S1600000 (extractStridedSlice S1x1600000 ![1, 0] ei slices_S2x1600000_S1x1600000_1_0) shapeCasts_S1x1600000_S1600000)
      (ix2 p (0 : Fin 1))) = fun p => ei (ix2 (1 : Fin 2) p) := by
    funext p
    rw [edgeColumn_apply]
    exact dstRow_apply ei p
  rw [hseg]
  unfold Gnn.agg
  funext i
  -- the operand is zero
  rw [broadcastInDim_scalar_apply, constant_apply, Ideal.ofBits_zero_f32, zero_add]
  refine congrFun (Gnn.segSum_congr _ _ _ fun p q h0 _ => ?_) i
  -- on an edge whose target word is a node number, the target word is not moved
  rw [mulf_apply, subf_apply, gatherRows_apply, gatherRows_apply, weightRows_apply, srcColumn_apply, dstColumn_apply,
    wrap_of_nonneg _ h0]
  rfl

/-- A vector of one word per node, made a one-column matrix, reads in row `p` its entry `p`. -/
theorem nodeColumn_apply {α : Type} (v : S100000.Idx → α) (p : Fin 100000) (z : Fin 1) :
    broadcastInDim S100000x1 ![0] bcast_S100000_S100000x1_0 v (ix2 p z) = v (ix1 p) := by
  refine broadcastInDim_apply _ bcast_S100000_S100000x1_0 v _ _ (fun a => ?_)
  match a with
  | ⟨0, _⟩ => show p.val = if (100000 : Nat) = 1 then 0 else p.val; rw [if_neg (by decide)]

/-- The readout's scatter-add of the node rows over the labels, from zero, is the segment sum of `Gnn`. -/
theorem pool_sum (lab : IVec S100000 32) (H : Gnn.Arr2 100000 64) :
    Host.scatterAdd (F := Ideal) scatter_S512x64_S100000x1_S100000x64_1_0_0_1
        (broadcastInDim S512x64 ![] bcast_S_S512x64 (constant S_ .f32 0x00000000#32))
        (broadcastInDim S100000x1 ![0] bcast_S100000_S100000x1_0 lab) H
      = Gnn.segSum H (fun p => lab (ix1 p)) := by
  refine (Gnn.scatterAdd_rows _ rfl rfl rfl rfl _ _ _).trans ?_
  funext i
  rw [broadcastInDim_scalar_apply, constant_apply, Ideal.ofBits_zero_f32, zero_add]
  refine congrFun (congrArg (Gnn.segSum H) (funext fun p => ?_)) i
  exact nodeColumn_apply lab p 0

/-- The readout's scatter-add of a one per node over the labels, from zero, counts each graph's nodes. -/
theorem pool_count (lab : IVec S100000 32) :
    Host.scatterAdd (F := Ideal) scatter_S512_S100000x1_S100000_n_0_0_1
        (broadcastInDim S512 ![] bcast_S_S512 (constant S_ .f32 0x00000000#32))
        (broadcastInDim S100000x1 ![0] bcast_S100000_S100000x1_0 lab)
        (broadcastInDim S100000 ![] bcast_S_S100000 (constant S_ .f32 0x3F800000#32))
      = fun i => Gnn.segCount (fun p => lab (ix1 p)) (ix2 (i 0) (0 : Fin 1)) := by
  refine (Gnn.scatterAdd_vec _ rfl rfl rfl rfl _ _ _).trans ?_
  funext i
  rw [broadcastInDim_scalar_apply, constant_apply, Ideal.ofBits_zero_f32, zero_add]
  unfold Gnn.segCount
  refine Finset.sum_congr rfl fun p _ => ?_
  rw [nodeColumn_apply, broadcastInDim_scalar_apply, constant_apply, Ideal.ofBits_one_f32]

end Cert.ReferenceIdeal.SparseStages

end
-- ==== Proof.RefDense.lean ====
/-
  The reference program's dense host operations as the plain mathematics of `Gnn`: each matrix product is the sum
  over the contracted coordinate, a bias laid along every row is the addition of one row, a unit slice of a stack
  with its unit axis dropped is one member of the stack, a maximum against the zero array is the clip at zero, and the
  quotient by the graph sizes (taken as at least one) is the mean. Each is stated about the printed operation with
  its operands arbitrary arrays; the laws on a bias, a clip and the mean are stated a second time for every admissible
  axis map of their broadcasts, the shapes leaving such a map no freedom that shows in the value.
-/
import proofs.«419727_j75720273429180_1_alg».proof.Proof.Gen.ReferenceIdeal
import proofs.«419727_j75720273429180_1_alg».proof.Proof.Spec
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.ReferenceIdeal.Dense

open Idealize.ShloMosaic Idealize.ShloMosaic.TcCoe Idealize.ShloMosaic.ValueIdx Cert.ReferenceIdeal Cert.ReferenceIdeal.Gen
open scoped BigOperators

/-! ## The four matrix products: which element of each operand a result element's sum reads -/

/-- The left operand of the product `S100000x4 · S4x64` is read at the result's row. -/
theorem lhs_x_row (i : S100000x64.Idx) (q : dot_S100000x4_S4x64_S100000x64_1_0_0_1_n_n.contr.Idx) :
    (dot_S100000x4_S4x64_S100000x64_1_0_0_1_n_n.lhsIdx i q 0).val = (i 0).val := by
  unfold DotDims.lhsIdx
  rw [dif_neg (show ¬(0 : Fin S100000x4.rank) ∈ dot_S100000x4_S4x64_S100000x64_1_0_0_1_n_n.lhsBatch by decide),
    dif_pos (show (0 : Fin S100000x4.rank) ∈ dot_S100000x4_S4x64_S100000x64_1_0_0_1_n_n.lhsNonContracting by decide)]
  rfl
/-- … and at the contracted coordinate along its second axis. -/
theorem lhs_x_contr (i : S100000x64.Idx) (q : dot_S100000x4_S4x64_S100000x64_1_0_0_1_n_n.contr.Idx) :
    (dot_S100000x4_S4x64_S100000x64_1_0_0_1_n_n.lhsIdx i q 1).val = (q ⟨0, by decide⟩).val :=
  dot_S100000x4_S4x64_S100000x64_1_0_0_1_n_n.lhsIdx_val_of_single rfl i q
/-- The right operand is read at the contracted coordinate along its first axis … -/
theorem rhs_x_contr (i : S100000x64.Idx) (q : dot_S100000x4_S4x64_S100000x64_1_0_0_1_n_n.contr.Idx) :
    (dot_S100000x4_S4x64_S100000x64_1_0_0_1_n_n.rhsIdx i q 0).val = (q ⟨0, by decide⟩).val :=
  dot_S100000x4_S4x64_S100000x64_1_0_0_1_n_n.rhsIdx_val_of_single rfl i q
/-- … and at the result's column. -/
theorem rhs_x_col (i : S100000x64.Idx) (q : dot_S100000x4_S4x64_S100000x64_1_0_0_1_n_n.contr.Idx) :
    (dot_S100000x4_S4x64_S100000x64_1_0_0_1_n_n.rhsIdx i q 1).val = (i 1).val := by
  unfold DotDims.rhsIdx
  rw [dif_neg (show ¬(1 : Fin S4x64.rank) ∈ dot_S100000x4_S4x64_S100000x64_1_0_0_1_n_n.rhsBatch by decide),
    dif_pos (show (1 : Fin S4x64.rank) ∈ dot_S100000x4_S4x64_S100000x64_1_0_0_1_n_n.rhsNonContracting by decide)]
  rfl

/-- The left operand of the product `S100000x64 · S64x64` is read at the result's row. -/
theorem lhs_h_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
/-- … and at the contracted coordinate along its second axis. -/
theorem lhs_h_contr (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- The right operand is read at the contracted coordinate along its first axis … -/
theorem rhs_h_contr (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- … and at the result's column. -/
theorem rhs_h_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The left operand of the product `S512x64 · S64x32` is read at the result's row. -/
theorem lhs_g1_row (i : S512x32.Idx) (q : dot_S512x64_S64x32_S512x32_1_0_0_1_n_n.contr.Idx) :
    (dot_S512x64_S64x32_S512x32_1_0_0_1_n_n.lhsIdx i q 0).val = (i 0).val := by
  unfold DotDims.lhsIdx
  rw [dif_neg (show ¬(0 : Fin S512x64.rank) ∈ dot_S512x64_S64x32_S512x32_1_0_0_1_n_n.lhsBatch by decide),
    dif_pos (show (0 : Fin S512x64.rank) ∈ dot_S512x64_S64x32_S512x32_1_0_0_1_n_n.lhsNonContracting by decide)]
  rfl
/-- … and at the contracted coordinate along its second axis. -/
theorem lhs_g1_contr (i : S512x32.Idx) (q : dot_S512x64_S64x32_S512x32_1_0_0_1_n_n.contr.Idx) :
    (dot_S512x64_S64x32_S512x32_1_0_0_1_n_n.lhsIdx i q 1).val = (q ⟨0, by decide⟩).val :=
  dot_S512x64_S64x32_S512x32_1_0_0_1_n_n.lhsIdx_val_of_single rfl i q
/-- The right operand is read at the contracted coordinate along its first axis … -/
theorem rhs_g1_contr (i : S512x32.Idx) (q : dot_S512x64_S64x32_S512x32_1_0_0_1_n_n.contr.Idx) :
    (dot_S512x64_S64x32_S512x32_1_0_0_1_n_n.rhsIdx i q 0).val = (q ⟨0, by decide⟩).val :=
  dot_S512x64_S64x32_S512x32_1_0_0_1_n_n.rhsIdx_val_of_single rfl i q
/-- … and at the result's column. -/
theorem rhs_g1_col (i : S512x32.Idx) (q : dot_S512x64_S64x32_S512x32_1_0_0_1_n_n.contr.Idx) :
    (dot_S512x64_S64x32_S512x32_1_0_0_1_n_n.rhsIdx i q 1).val = (i 1).val := by
  unfold DotDims.rhsIdx
  rw [dif_neg (show ¬(1 : Fin S64x32.rank) ∈ dot_S512x64_S64x32_S512x32_1_0_0_1_n_n.rhsBatch by decide),
    dif_pos (show (1 : Fin S64x32.rank) ∈ dot_S512x64_S64x32_S512x32_1_0_0_1_n_n.rhsNonContracting by decide)]
  rfl

/-- The left operand of the product `S512x32 · S32x3` is read at the result's row. -/
theorem lhs_g2_row (i : S512x3.Idx) (q : dot_S512x32_S32x3_S512x3_1_0_0_1_n_n.contr.Idx) :
    (dot_S512x32_S32x3_S512x3_1_0_0_1_n_n.lhsIdx i q 0).val = (i 0).val := by
  unfold DotDims.lhsIdx
  rw [dif_neg (show ¬(0 : Fin S512x32.rank) ∈ dot_S512x32_S32x3_S512x3_1_0_0_1_n_n.lhsBatch by decide),
    dif_pos (show (0 : Fin S512x32.rank) ∈ dot_S512x32_S32x3_S512x3_1_0_0_1_n_n.lhsNonContracting by decide)]
  rfl
/-- … and at the contracted coordinate along its second axis. -/
theorem lhs_g2_contr (i : S512x3.Idx) (q : dot_S512x32_S32x3_S512x3_1_0_0_1_n_n.contr.Idx) :
    (dot_S512x32_S32x3_S512x3_1_0_0_1_n_n.lhsIdx i q 1).val = (q ⟨0, by decide⟩).val :=
  dot_S512x32_S32x3_S512x3_1_0_0_1_n_n.lhsIdx_val_of_single rfl i q
/-- The right operand is read at the contracted coordinate along its first axis … -/
theorem rhs_g2_contr (i : S512x3.Idx) (q : dot_S512x32_S32x3_S512x3_1_0_0_1_n_n.contr.Idx) :
    (dot_S512x32_S32x3_S512x3_1_0_0_1_n_n.rhsIdx i q 0).val = (q ⟨0, by decide⟩).val :=
  dot_S512x32_S32x3_S512x3_1_0_0_1_n_n.rhsIdx_val_of_single rfl i q
/-- … and at the result's column. -/
theorem rhs_g2_col (i : S512x3.Idx) (q : dot_S512x32_S32x3_S512x3_1_0_0_1_n_n.contr.Idx) :
    (dot_S512x32_S32x3_S512x3_1_0_0_1_n_n.rhsIdx i q 1).val = (i 1).val := by
  unfold DotDims.rhsIdx
  rw [dif_neg (show ¬(1 : Fin S32x3.rank) ∈ dot_S512x32_S32x3_S512x3_1_0_0_1_n_n.rhsBatch by decide),
    dif_pos (show (1 : Fin S32x3.rank) ∈ dot_S512x32_S32x3_S512x3_1_0_0_1_n_n.rhsNonContracting by decide)]
  rfl

/-! ## Broadcasts between a vector, a one-row or one-column matrix and a matrix, for any admissible axis map -/

section Bcast
variable {α : Type}

/-- In a two-axis shape whose first size is not `k`, an axis of size `k` is the second. -/
theorem axis_eq_one {a b k : ℕ} (hne : a ≠ k) (x : Fin 2) (hx : (![a, b] : Fin 2 → ℕ) x = k) : x = 1 := by
  match x, hx with
  | ⟨0, _⟩, hx => exact absurd hx hne
  | ⟨1, _⟩, _ => rfl

/-- In a two-axis shape whose second size is not `k`, an axis of size `k` is the first. -/
theorem axis_eq_zero {a b k : ℕ} (hne : b ≠ k) (x : Fin 2) (hx : (![a, b] : Fin 2 → ℕ) x = k) : x = 0 := by
  match x, hx with
  | ⟨0, _⟩, _ => rfl
  | ⟨1, _⟩, hx => exact absurd hx hne

/-- A scalar broadcast to any shape reads the scalar everywhere. -/
theorem bcastScalar_apply {T : Shape} (d : Fin 0 → Fin T.rank) (h : (⟨0, ![]⟩ : Shape).BroadcastsInDim T d)
    (x : (⟨0, ![]⟩ : Shape).Idx → α) (j : T.Idx) : broadcastInDim T d h x j = x ix0 := by
  unfold broadcastInDim
  exact congrArg x (funext fun a => a.elim0)

/-- A one-row matrix laid down `n` rows reads, at `(p, q)`, the row at `q`: the row's unit axis is read at zero and its
    other axis, of a size the result has only on its second axis, at the result's column. -/
theorem bcastRow_apply {n m : ℕ} (hm : m ≠ 1) (hnm : n ≠ m) (d : Fin 2 → Fin 2)
    (h : (⟨2, ![1, m]⟩ : Shape).BroadcastsInDim ⟨2, ![n, m]⟩ d) (y : (⟨2, ![1, m]⟩ : Shape).Idx → α) (p : Fin n) (q : Fin m) :
    broadcastInDim ⟨2, ![n, m]⟩ d h y (ix2 p q) = y (ix2 (0 : Fin 1) q) := by
  have hd : d 1 = 1 := axis_eq_one hnm (d 1) ((h.2 1).resolve_left hm).symm
  refine broadcastInDim_apply d h y (ix2 p q) (ix2 (0 : Fin 1) q) (fun a => ?_)
  match a with
  | ⟨0, _⟩ => exact (if_pos rfl).symm
  | ⟨1, _⟩ => exact ((if_neg hm).trans (congrArg (fun x => ((ix2 p q) x).val) hd)).symm

/-- A vector as a one-row matrix reads, at `(0, q)`, the vector at `q`. -/
theorem bcastVecRow_apply {m : ℕ} (hm : m ≠ 1) (d : Fin 1 → Fin 2)
    (h : (⟨1, ![m]⟩ : Shape).BroadcastsInDim ⟨2, ![1, m]⟩ d) (v : (⟨1, ![m]⟩ : Shape).Idx → α) (q : Fin m) :
    broadcastInDim ⟨2, ![1, m]⟩ d h v (ix2 (0 : Fin 1) q) = v (ix1 q) := by
  have hd : d 0 = 1 := axis_eq_one (Ne.symm hm) (d 0) ((h.2 0).resolve_left hm).symm
  refine broadcastInDim_apply d h v (ix2 (0 : Fin 1) q) (ix1 q) (fun a => ?_)
  match a with
  | ⟨0, _⟩ => exact ((if_neg hm).trans (congrArg (fun x => ((ix2 (0 : Fin 1) q) x).val) hd)).symm

/-- A one-column matrix laid along `m` columns reads, at `(p, q)`, the column at `p`. -/
theorem bcastCol_apply {n m : ℕ} (hn : n ≠ 1) (hnm : m ≠ n) (d : Fin 2 → Fin 2)
    (h : (⟨2, ![n, 1]⟩ : Shape).BroadcastsInDim ⟨2, ![n, m]⟩ d) (y : (⟨2, ![n, 1]⟩ : Shape).Idx → α) (p : Fin n) (q : Fin m) :
    broadcastInDim ⟨2, ![n, m]⟩ d h y (ix2 p q) = y (ix2 p (0 : Fin 1)) := by
  have hd : d 0 = 0 := axis_eq_zero hnm (d 0) ((h.2 0).resolve_left hn).symm
  refine broadcastInDim_apply d h y (ix2 p q) (ix2 p (0 : Fin 1)) (fun a => ?_)
  match a with
  | ⟨0, _⟩ => exact ((if_neg hn).trans (congrArg (fun x => ((ix2 p q) x).val) hd)).symm
  | ⟨1, _⟩ => exact (if_pos rfl).symm

/-- A vector as a one-column matrix reads, at `(p, 0)`, the vector at `p`. -/
theorem bcastVecCol_apply {n : ℕ} (hn : n ≠ 1) (d : Fin 1 → Fin 2)
    (h : (⟨1, ![n]⟩ : Shape).BroadcastsInDim ⟨2, ![n, 1]⟩ d) (v : (⟨1, ![n]⟩ : Shape).Idx → α) (p : Fin n) :
    broadcastInDim ⟨2, ![n, 1]⟩ d h v (ix2 p (0 : Fin 1)) = v (ix1 p) := by
  have hd : d 0 = 0 := axis_eq_zero (Ne.symm hn) (d 0) ((h.2 0).resolve_left hn).symm
  refine broadcastInDim_apply d h v (ix2 p (0 : Fin 1)) (ix1 p) (fun a => ?_)
  match a with
  | ⟨0, _⟩ => exact ((if_neg hn).trans (congrArg (fun x => ((ix2 p (0 : Fin 1)) x).val) hd)).symm

end Bcast

/-! ## The operations -/

/-- The embedding's product. -/
theorem dot_x (X : Gnn.Arr2 100000 4) (W : Gnn.Arr2 4 64) :
    Host.dotGeneral (F := Ideal) (φ₁ := .f32) (φ₂ := .f32) dot_S100000x4_S4x64_S100000x64_1_0_0_1_n_n none X W = Gnn.mm X W := by
  funext i
  simp only [Host.dotGeneral]
  -- the host's product at an index is the sum over the contracted index; that index is one coordinate `k`
  rw [Ideal.dotGeneral_apply, ← Equiv.sum_comp (contrEquiv1 dot_S100000x4_S4x64_S100000x64_1_0_0_1_n_n 4 rfl rfl).symm]
  unfold Gnn.mm
  refine Finset.sum_congr rfl fun k _ => ?_
  have hk := contrEquiv1_symm_val dot_S100000x4_S4x64_S100000x64_1_0_0_1_n_n 4 rfl rfl k
  have el : dot_S100000x4_S4x64_S100000x64_1_0_0_1_n_n.lhsIdx i ((contrEquiv1 dot_S100000x4_S4x64_S100000x64_1_0_0_1_n_n 4 rfl rfl).symm k) = ix2 (i 0) k :=
    funext fun a => Fin.ext (by
      match a with
      | ⟨0, _⟩ => exact lhs_x_row _ _
      | ⟨1, _⟩ => exact (lhs_x_contr _ _).trans hk)
  have er : dot_S100000x4_S4x64_S100000x64_1_0_0_1_n_n.rhsIdx i ((contrEquiv1 dot_S100000x4_S4x64_S100000x64_1_0_0_1_n_n 4 rfl rfl).symm k) = ix2 k (i 1) :=
    funext fun a => Fin.ext (by
      match a with
      | ⟨0, _⟩ => exact (rhs_x_contr _ _).trans hk
      | ⟨1, _⟩ => exact rhs_x_col _ _)
  rw [el, er]
  rfl

/-- A layer's product of the node table with one 64 × 64 matrix. -/
theorem dot_h (H : Gnn.Arr2 100000 64) (W : Gnn.Arr2 64 64) :
    Host.dotGeneral (F := Ideal) (φ₁ := .f32) (φ₂ := .f32) dot_S100000x64_S64x64_S100000x64_1_0_0_1_n_n none H W = Gnn.mm H W := by
  funext i
  simp only [Host.dotGeneral]
  -- the host's product at an index is the sum over the contracted index; that index is one coordinate `k`
  rw [Ideal.dotGeneral_apply, ← Equiv.sum_comp (contrEquiv1 dot_S100000x64_S64x64_S100000x64_1_0_0_1_n_n 64 rfl rfl).symm]
  unfold Gnn.mm
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = ix2 (i 0) k :=
    funext fun a => Fin.ext (by
      match a with
      | ⟨0, _⟩ => exact lhs_h_row _ _
      | ⟨1, _⟩ => exact (lhs_h_contr _ _).trans hk)
  have er : dot_S100000x64_S64x64_S100000x64_1_0_0_1_n_n.rhsIdx i ((contrEquiv1 dot_S100000x64_S64x64_S100000x64_1_0_0_1_n_n 64 rfl rfl).symm k) = ix2 k (i 1) :=
    funext fun a => Fin.ext (by
      match a with
      | ⟨0, _⟩ => exact (rhs_h_contr _ _).trans hk
      | ⟨1, _⟩ => exact rhs_h_col _ _)
  rw [el, er]
  rfl

/-- The head's first product. -/
theorem dot_g1 (G : Gnn.Arr2 512 64) (W : Gnn.Arr2 64 32) :
    Host.dotGeneral (F := Ideal) (φ₁ := .f32) (φ₂ := .f32) dot_S512x64_S64x32_S512x32_1_0_0_1_n_n none G W = Gnn.mm G W := by
  funext i
  simp only [Host.dotGeneral]
  -- the host's product at an index is the sum over the contracted index; that index is one coordinate `k`
  rw [Ideal.dotGeneral_apply, ← Equiv.sum_comp (contrEquiv1 dot_S512x64_S64x32_S512x32_1_0_0_1_n_n 64 rfl rfl).symm]
  unfold Gnn.mm
  refine Finset.sum_congr rfl fun k _ => ?_
  have hk := contrEquiv1_symm_val dot_S512x64_S64x32_S512x32_1_0_0_1_n_n 64 rfl rfl k
  have el : dot_S512x64_S64x32_S512x32_1_0_0_1_n_n.lhsIdx i ((contrEquiv1 dot_S512x64_S64x32_S512x32_1_0_0_1_n_n 64 rfl rfl).symm k) = ix2 (i 0) k :=
    funext fun a => Fin.ext (by
      match a with
      | ⟨0, _⟩ => exact lhs_g1_row _ _
      | ⟨1, _⟩ => exact (lhs_g1_contr _ _).trans hk)
  have er : dot_S512x64_S64x32_S512x32_1_0_0_1_n_n.rhsIdx i ((contrEquiv1 dot_S512x64_S64x32_S512x32_1_0_0_1_n_n 64 rfl rfl).symm k) = ix2 k (i 1) :=
    funext fun a => Fin.ext (by
      match a with
      | ⟨0, _⟩ => exact (rhs_g1_contr _ _).trans hk
      | ⟨1, _⟩ => exact rhs_g1_col _ _)
  rw [el, er]
  rfl

/-- The head's second product. -/
theorem dot_g2 (G : Gnn.Arr2 512 32) (W : Gnn.Arr2 32 3) :
    Host.dotGeneral (F := Ideal) (φ₁ := .f32) (φ₂ := .f32) dot_S512x32_S32x3_S512x3_1_0_0_1_n_n none G W = Gnn.mm G W := by
  funext i
  simp only [Host.dotGeneral]
  -- the host's product at an index is the sum over the contracted index; that index is one coordinate `k`
  rw [Ideal.dotGeneral_apply, ← Equiv.sum_comp (contrEquiv1 dot_S512x32_S32x3_S512x3_1_0_0_1_n_n 32 rfl rfl).symm]
  unfold Gnn.mm
  refine Finset.sum_congr rfl fun k _ => ?_
  have hk := contrEquiv1_symm_val dot_S512x32_S32x3_S512x3_1_0_0_1_n_n 32 rfl rfl k
  have el : dot_S512x32_S32x3_S512x3_1_0_0_1_n_n.lhsIdx i ((contrEquiv1 dot_S512x32_S32x3_S512x3_1_0_0_1_n_n 32 rfl rfl).symm k) = ix2 (i 0) k :=
    funext fun a => Fin.ext (by
      match a with
      | ⟨0, _⟩ => exact lhs_g2_row _ _
      | ⟨1, _⟩ => exact (lhs_g2_contr _ _).trans hk)
  have er : dot_S512x32_S32x3_S512x3_1_0_0_1_n_n.rhsIdx i ((contrEquiv1 dot_S512x32_S32x3_S512x3_1_0_0_1_n_n 32 rfl rfl).symm k) = ix2 k (i 1) :=
    funext fun a => Fin.ext (by
      match a with
      | ⟨0, _⟩ => exact (rhs_g2_contr _ _).trans hk
      | ⟨1, _⟩ => exact rhs_g2_col _ _)
  rw [el, er]
  rfl

/-- Member 0 of a stack of three matrices: the unit slice with its unit axis dropped. -/
theorem slab0 (W : Gnn.Arr3 3 64 64) :
    shapeCast _ (extractStridedSlice S1x64x64 ![0, 0, 0] W slices_S3x64x64_S1x64x64_0_0_0) shapeCasts_S1x64x64_S64x64 = Gnn.slab W 0 := by
  funext i
  obtain ⟨p, q, rfl⟩ : ∃ p q, i = ix2 p q := ⟨i 0, i 1, eq_ix2 i⟩
  unfold Gnn.slab
  -- dropping the unit axis keeps the row-major position; the unit slice reads the stack at member 0
  refine (shapeCast_apply _ shapeCasts_S1x64x64_S64x64 (ix2 p q) (ix3 (0 : Fin 1) p q) ?_).trans ?_
  · rewrite [Shape.rowMajor_val_three, Shape.rowMajor_val_two]
    show (0 * 64 + p.val) * 64 + q.val = p.val * 64 + q.val
    omega
  · exact extractStridedSlice_apply ![0, 0, 0] W slices_S3x64x64_S1x64x64_0_0_0 (ix3 (0 : Fin 1) p q) (ix3 (0 : Fin 3) p q)
      (fun a => match a with
        | ⟨0, _⟩ => by show (0 : ℕ) = 0 + 0; rfl
        | ⟨1, _⟩ => by show p.val = 0 + p.val; omega
        | ⟨2, _⟩ => by show q.val = 0 + q.val; omega)

/-- Member 1. -/
theorem slab1 (W : Gnn.Arr3 3 64 64) :
    shapeCast _ (extractStridedSlice S1x64x64 ![1, 0, 0] W slices_S3x64x64_S1x64x64_1_0_0) shapeCasts_S1x64x64_S64x64 = Gnn.slab W 1 := by
  funext i
  obtain ⟨p, q, rfl⟩ : ∃ p q, i = ix2 p q := ⟨i 0, i 1, eq_ix2 i⟩
  unfold Gnn.slab
  -- dropping the unit axis keeps the row-major position; the unit slice reads the stack at member 1
  refine (shapeCast_apply _ shapeCasts_S1x64x64_S64x64 (ix2 p q) (ix3 (0 : Fin 1) p q) ?_).trans ?_
  · rewrite [Shape.rowMajor_val_three, Shape.rowMajor_val_two]
    show (0 * 64 + p.val) * 64 + q.val = p.val * 64 + q.val
    omega
  · exact extractStridedSlice_apply ![1, 0, 0] W slices_S3x64x64_S1x64x64_1_0_0 (ix3 (0 : Fin 1) p q) (ix3 (1 : Fin 3) p q)
      (fun a => match a with
        | ⟨0, _⟩ => by show (1 : ℕ) = 1 + 0; rfl
        | ⟨1, _⟩ => by show p.val = 0 + p.val; omega
        | ⟨2, _⟩ => by show q.val = 0 + q.val; omega)

/-- Member 2. -/
theorem slab2 (W : Gnn.Arr3 3 64 64) :
    shapeCast _ (extractStridedSlice S1x64x64 ![2, 0, 0] W slices_S3x64x64_S1x64x64_2_0_0) shapeCasts_S1x64x64_S64x64 = Gnn.slab W 2 := by
  funext i
  obtain ⟨p, q, rfl⟩ : ∃ p q, i = ix2 p q := ⟨i 0, i 1, eq_ix2 i⟩
  unfold Gnn.slab
  -- dropping the unit axis keeps the row-major position; the unit slice reads the stack at member 2
  refine (shapeCast_apply _ shapeCasts_S1x64x64_S64x64 (ix2 p q) (ix3 (0 : Fin 1) p q) ?_).trans ?_
  · rewrite [Shape.rowMajor_val_three, Shape.rowMajor_val_two]
    show (0 * 64 + p.val) * 64 + q.val = p.val * 64 + q.val
    omega
  · exact extractStridedSlice_apply ![2, 0, 0] W slices_S3x64x64_S1x64x64_2_0_0 (ix3 (0 : Fin 1) p q) (ix3 (2 : Fin 3) p q)
      (fun a => match a with
        | ⟨0, _⟩ => by show (2 : ℕ) = 2 + 0; rfl
        | ⟨1, _⟩ => by show p.val = 0 + p.val; omega
        | ⟨2, _⟩ => by show q.val = 0 + q.val; omega)

/-- Row 0 of a three-row table, sliced, flattened to a vector and read as a row again. -/
theorem brow0 (b : Gnn.Arr2 3 64) :
    Gnn.row1 (shapeCast _ (extractStridedSlice S1x64 ![0, 0] b slices_S3x64_S1x64_0_0) shapeCasts_S1x64_S64) = Gnn.row3 b 0 := by
  funext i
  unfold Gnn.row1 Gnn.row3
  -- dropping the unit axis keeps the position along the row; the unit slice reads the table at row 0
  refine (shapeCast_apply _ shapeCasts_S1x64_S64 (ix1 (i 1)) (ix2 (0 : Fin 1) (i 1)) ?_).trans ?_
  · rewrite [Shape.rowMajor_val_two, Shape.rowMajor_val_one]
    show 0 * 64 + (i 1).val = (i 1).val
    omega
  · exact extractStridedSlice_apply ![0, 0] b slices_S3x64_S1x64_0_0 (ix2 (0 : Fin 1) (i 1)) (ix2 (0 : Fin 3) (i 1))
      (fun a => match a with
        | ⟨0, _⟩ => by show (0 : ℕ) = 0 + 0; rfl
        | ⟨1, _⟩ => by show (i 1).val = 0 + (i 1).val; omega)

/-- Row 1. -/
theorem brow1 (b : Gnn.Arr2 3 64) :
    Gnn.row1 (shapeCast _ (extractStridedSlice S1x64 ![1, 0] b slices_S3x64_S1x64_1_0) shapeCasts_S1x64_S64) = Gnn.row3 b 1 := by
  funext i
  unfold Gnn.row1 Gnn.row3
  -- dropping the unit axis keeps the position along the row; the unit slice reads the table at row 1
  refine (shapeCast_apply _ shapeCasts_S1x64_S64 (ix1 (i 1)) (ix2 (0 : Fin 1) (i 1)) ?_).trans ?_
  · rewrite [Shape.rowMajor_val_two, Shape.rowMajor_val_one]
    show 0 * 64 + (i 1).val = (i 1).val
    omega
  · exact extractStridedSlice_apply ![1, 0] b slices_S3x64_S1x64_1_0 (ix2 (0 : Fin 1) (i 1)) (ix2 (1 : Fin 3) (i 1))
      (fun a => match a with
        | ⟨0, _⟩ => by show (1 : ℕ) = 1 + 0; rfl
        | ⟨1, _⟩ => by show (i 1).val = 0 + (i 1).val; omega)

/-- Row 2. -/
theorem brow2 (b : Gnn.Arr2 3 64) :
    Gnn.row1 (shapeCast _ (extractStridedSlice S1x64 ![2, 0] b slices_S3x64_S1x64_2_0) shapeCasts_S1x64_S64) = Gnn.row3 b 2 := by
  funext i
  unfold Gnn.row1 Gnn.row3
  -- dropping the unit axis keeps the position along the row; the unit slice reads the table at row 2
  refine (shapeCast_apply _ shapeCasts_S1x64_S64 (ix1 (i 1)) (ix2 (0 : Fin 1) (i 1)) ?_).trans ?_
  · rewrite [Shape.rowMajor_val_two, Shape.rowMajor_val_one]
    show 0 * 64 + (i 1).val = (i 1).val
    omega
  · exact extractStridedSlice_apply ![2, 0] b slices_S3x64_S1x64_2_0 (ix2 (0 : Fin 1) (i 1)) (ix2 (2 : Fin 3) (i 1))
      (fun a => match a with
        | ⟨0, _⟩ => by show (2 : ℕ) = 2 + 0; rfl
        | ⟨1, _⟩ => by show (i 1).val = 0 + (i 1).val; omega)

/-- A 64-vector made a row and laid down every row, added, is the addition of one row, for every admissible pair of axis
    maps of the two broadcasts: an axis of size one is read at zero whatever it is mapped to, and the axis of size 64 can
    only be mapped to the one result axis of that size. -/
theorem bias64_dims (X : Gnn.Arr2 100000 64) (v : Gnn.Arr1 64) (d₂ : Fin S1x64.rank → Fin S100000x64.rank) (h₂ : S1x64.BroadcastsInDim S100000x64 d₂)
    (d₁ : Fin S64.rank → Fin S1x64.rank) (h₁ : S64.BroadcastsInDim S1x64 d₁) :
    addf (F := Ideal) (φ := .f32) X (broadcastInDim S100000x64 d₂ h₂ (broadcastInDim S1x64 d₁ h₁ v)) = Gnn.addRow X (Gnn.row1 v) := by
  funext i
  obtain ⟨p, q, rfl⟩ : ∃ p q, i = ix2 p q := ⟨i 0, i 1, eq_ix2 i⟩
  rw [addf_apply]
  unfold Gnn.addRow Gnn.row1
  congr 1
  exact (bcastRow_apply (by decide) (by decide) d₂ h₂ _ p q).trans (bcastVecRow_apply (by decide) d₁ h₁ v q)

/-- The head's first bias, for every admissible pair of axis maps. -/
theorem bias32_dims (X : Gnn.Arr2 512 32) (v : Gnn.Arr1 32) (d₂ : Fin S1x32.rank → Fin S512x32.rank) (h₂ : S1x32.BroadcastsInDim S512x32 d₂)
    (d₁ : Fin S32.rank → Fin S1x32.rank) (h₁ : S32.BroadcastsInDim S1x32 d₁) :
    addf (F := Ideal) (φ := .f32) X (broadcastInDim S512x32 d₂ h₂ (broadcastInDim S1x32 d₁ h₁ v)) = Gnn.addRow X (Gnn.row1 v) := by
  funext i
  obtain ⟨p, q, rfl⟩ : ∃ p q, i = ix2 p q := ⟨i 0, i 1, eq_ix2 i⟩
  rw [addf_apply]
  unfold Gnn.addRow Gnn.row1
  congr 1
  exact (bcastRow_apply (by decide) (by decide) d₂ h₂ _ p q).trans (bcastVecRow_apply (by decide) d₁ h₁ v q)

/-- The head's second bias, for every admissible pair of axis maps. -/
theorem bias3_dims (X : Gnn.Arr2 512 3) (v : Gnn.Arr1 3) (d₂ : Fin S1x3.rank → Fin S512x3.rank) (h₂ : S1x3.BroadcastsInDim S512x3 d₂)
    (d₁ : Fin S3.rank → Fin S1x3.rank) (h₁ : S3.BroadcastsInDim S1x3 d₁) :
    addf (F := Ideal) (φ := .f32) X (broadcastInDim S512x3 d₂ h₂ (broadcastInDim S1x3 d₁ h₁ v)) = Gnn.addRow X (Gnn.row1 v) := by
  funext i
  obtain ⟨p, q, rfl⟩ : ∃ p q, i = ix2 p q := ⟨i 0, i 1, eq_ix2 i⟩
  rw [addf_apply]
  unfold Gnn.addRow Gnn.row1
  congr 1
  exact (bcastRow_apply (by decide) (by decide) d₂ h₂ _ p q).trans (bcastVecRow_apply (by decide) d₁ h₁ v q)

/-- The maximum against the zero array is the clip at zero, on the node table; a scalar's axis map is the empty one. -/
theorem relu_n_dims (X : Gnn.Arr2 100000 64) (d : Fin S_.rank → Fin S100000x64.rank) (h : S_.BroadcastsInDim S100000x64 d) :
    maximumf (F := Ideal) (φ := .f32) X (broadcastInDim S100000x64 d h (constant S_ .f32 0x00000000#32)) = Gnn.relu X := by
  funext i
  unfold Gnn.relu
  -- the zero word is the extended real zero, read everywhere by the scalar's broadcast
  rw [maximumf_apply, bcastScalar_apply, constant_apply, Ideal.ofBits_zero_f32]

/-- … and on the head's hidden layer. -/
theorem relu_g_dims (X : Gnn.Arr2 512 32) (d : Fin S_.rank → Fin S512x32.rank) (h : S_.BroadcastsInDim S512x32 d) :
    maximumf (F := Ideal) (φ := .f32) X (broadcastInDim S512x32 d h (constant S_ .f32 0x00000000#32)) = Gnn.relu X := by
  funext i
  unfold Gnn.relu
  -- the zero word is the extended real zero, read everywhere by the scalar's broadcast
  rw [maximumf_apply, bcastScalar_apply, constant_apply, Ideal.ofBits_zero_f32]

/-- The quotient by the graph sizes, each taken as at least one and laid along its row, is the mean, for every admissible
    choice of the three axis maps. -/
theorem mean_dims (sums : Gnn.Arr2 512 64) (counts : Gnn.Arr1 512) (d₂ : Fin S512x1.rank → Fin S512x64.rank) (h₂ : S512x1.BroadcastsInDim S512x64 d₂)
    (d₁ : Fin S512.rank → Fin S512x1.rank) (h₁ : S512.BroadcastsInDim S512x1 d₁) (d₀ : Fin S_.rank → Fin S512.rank) (h₀ : S_.BroadcastsInDim S512 d₀) :
    Host.divf (F := Ideal) (φ := .f32) sums (broadcastInDim S512x64 d₂ h₂ (broadcastInDim S512x1 d₁ h₁
        (maximumf (F := Ideal) (φ := .f32) counts (broadcastInDim S512 d₀ h₀ (constant S_ .f32 0x3F800000#32)))))
      = Gnn.poolMean sums (fun i => counts (ix1 (i 0))) := by
  funext i
  obtain ⟨p, q, rfl⟩ : ∃ p q, i = ix2 p q := ⟨i 0, i 1, eq_ix2 i⟩
  rw [hostDivf_apply]
  unfold Gnn.poolMean
  congr 1
  -- the column of sizes laid along every column reads the size of the row's graph; the word of one is the extended real one
  refine (bcastCol_apply (by decide) (by decide) d₂ h₂ _ p q).trans ?_
  refine (bcastVecCol_apply (by decide) d₁ h₁ _ p).trans ?_
  rw [maximumf_apply, bcastScalar_apply, constant_apply, Ideal.ofBits_one_f32]

/-- A 64-vector, made a row and laid down every row, added: the bias of the embedding and of the layers. -/
theorem bias64 (X : Gnn.Arr2 100000 64) (v : Gnn.Arr1 64) :
    addf (F := Ideal) (φ := .f32) X (broadcastInDim S100000x64 ![0, 1] bcast_S1x64_S100000x64_0_1 (broadcastInDim S1x64 ![1] bcast_S64_S1x64_1 v))
      = Gnn.addRow X (Gnn.row1 v) := by
  exact bias64_dims X v _ _ _ _

/-- The head's first bias. -/
theorem bias32 (X : Gnn.Arr2 512 32) (v : Gnn.Arr1 32) :
    addf (F := Ideal) (φ := .f32) X (broadcastInDim S512x32 ![0, 1] bcast_S1x32_S512x32_0_1 (broadcastInDim S1x32 ![1] bcast_S32_S1x32_1 v))
      = Gnn.addRow X (Gnn.row1 v) := by
  exact bias32_dims X v _ _ _ _

/-- The head's second bias. -/
theorem bias3 (X : Gnn.Arr2 512 3) (v : Gnn.Arr1 3) :
    addf (F := Ideal) (φ := .f32) X (broadcastInDim S512x3 ![0, 1] bcast_S1x3_S512x3_0_1 (broadcastInDim S1x3 ![1] bcast_S3_S1x3_1 v))
      = Gnn.addRow X (Gnn.row1 v) := by
  exact bias3_dims X v _ _ _ _

/-- The maximum against the zero array is the clip at zero, on the node table. -/
theorem relu_n (X : Gnn.Arr2 100000 64) :
    maximumf (F := Ideal) (φ := .f32) X (broadcastInDim S100000x64 ![] bcast_S_S100000x64 (constant S_ .f32 0x00000000#32)) = Gnn.relu X := by
  exact relu_n_dims X _ _

/-- … and on the head's hidden layer. -/
theorem relu_g (X : Gnn.Arr2 512 32) :
    maximumf (F := Ideal) (φ := .f32) X (broadcastInDim S512x32 ![] bcast_S_S512x32 (constant S_ .f32 0x00000000#32)) = Gnn.relu X := by
  exact relu_g_dims X _ _

/-- The quotient by the graph sizes, each taken as at least one and laid along its row, is the mean of the rows of each graph. -/
theorem mean (sums : Gnn.Arr2 512 64) (counts : Gnn.Arr1 512) :
    Host.divf (F := Ideal) (φ := .f32) sums (broadcastInDim S512x64 ![0, 1] bcast_S512x1_S512x64_0_1 (broadcastInDim S512x1 ![0] bcast_S512_S512x1_0
        (maximumf (F := Ideal) (φ := .f32) counts (broadcastInDim S512 ![] bcast_S_S512 (constant S_ .f32 0x3F800000#32)))))
      = Gnn.poolMean sums (fun i => counts (ix1 (i 0))) := by
  exact mean_dims sums counts _ _ _ _ _ _

end Cert.ReferenceIdeal.Dense

end
-- ==== Proof.RefStages.lean ====
/-
  The reference program's stages as the plain mathematics of `Gnn`: each dense stage of its run is an affine map, a
  clipped sum or the head of the network, each sparse stage an aggregation over the edge list or a segment sum over the
  node labels. The run is read one stage at a time: the embedding, three message-passing layers, each on the node table
  the one before it leaves, and the readout with its two-layer head; composed, they are the network of `Gnn` on the
  program's arguments.
-/
import proofs.«419727_j75720273429180_1_alg».proof.Proof.Gen.ReferenceIdeal.Run
import proofs.«419727_j75720273429180_1_alg».proof.Proof.Gen.ReferenceIdeal.Read
import proofs.«419727_j75720273429180_1_alg».proof.Proof.Spec
import proofs.«419727_j75720273429180_1_alg».proof.Proof.RefArgs
import proofs.«419727_j75720273429180_1_alg».proof.Proof.Sparse
import proofs.«419727_j75720273429180_1_alg».proof.Proof.Wrap
import proofs.«419727_j75720273429180_1_alg».proof.Proof.RefSparse
import proofs.«419727_j75720273429180_1_alg».proof.Proof.RefDense

set_option maxRecDepth 16384

noncomputable section

open scoped BigOperators

namespace Cert.ReferenceIdeal.Stages

open Cert.ReferenceIdeal Cert.ReferenceIdeal.Gen Cert.ReferenceIdeal.Read Idealize.ShloMosaic Idealize.ShloMosaic.TcCoe Idealize.ShloMosaic.ValueIdx Idealize.ShloMosaic.StableHlo

/-- One layer of the reference, in the program's own spelling over a node table `H`, three weight matrices and two bias
    vectors: the aggregated messages plus the root term plus its bias, clipped at zero, is `Gnn.node` of the aggregation
    and the affine root term. -/
theorem layer_ref (H : Gnn.Arr2 100000 64) (W1 W2 W3 : Gnn.Arr2 64 64) (b1 b3 : Gnn.Arr1 64) (ei : IVec S2x1600000 32)
    (w : Gnn.Arr1 1600000) :
    (maximumf (F := Ideal) (φ := .f32) (addf (addf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (mulf (broadcastInDim S1600000x64 ![0, 1] bcast_S1600000x1_S1600000x64_0_1 (broadcastInDim S1600000x1 ![0] bcast_S1600000_S1600000x1_0 w)) (subf (Host.gather gather_S100000x64_S1600000x1_S1600000x64_1_0_n_n_0_1_164 (addf (Host.dotGeneral (φ₁ := .f32) (φ₂ := .f32) dot_S100000x64_S64x64_S100000x64_1_0_0_1_n_n none H W1) (broadcastInDim S100000x64 ![0, 1] bcast_S1x64_S100000x64_0_1 (broadcastInDim S1x64 ![1] bcast_S64_S1x64_1 b1))) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))) (Host.gather gather_S100000x64_S1600000x1_S1600000x64_1_0_n_n_0_1_164 (Host.dotGeneral (φ₁ := .f32) (φ₂ := .f32) dot_S100000x64_S64x64_S100000x64_1_0_0_1_n_n none H W2) (broadcastInDim S1600000x1 ![0] bcast_S1600000_S1600000x1_0 (select (cmpi .slt (shapeCast _ (extractStridedSlice S1x1600000 ![1, 0] ei slices_S2x1600000_S1x1600000_1_0) shapeCasts_S1x1600000_S1600000) (broadcastInDim S1600000 ![] bcast_S_S1600000 (constantI S_ 32 0#32))) (addi (shapeCast _ (extractStridedSlice S1x1600000 ![1, 0] ei slices_S2x1600000_S1x1600000_1_0) shapeCasts_S1x1600000_S1600000) (broadcastInDim S1600000 ![] bcast_S_S1600000 (constantI S_ 32 100000#32))) (shapeCast _ (extractStridedSlice S1x1600000 ![1, 0] ei slices_S2x1600000_S1x1600000_1_0) shapeCasts_S1x1600000_S1600000))))))) (Host.dotGeneral (φ₁ := .f32) (φ₂ := .f32) dot_S100000x64_S64x64_S100000x64_1_0_0_1_n_n none H W3)) (broadcastInDim S100000x64 ![0, 1] bcast_S1x64_S100000x64_0_1 (broadcastInDim S1x64 ![1] bcast_S64_S1x64_1 b3))) (broadcastInDim S100000x64 ![] bcast_S_S100000x64 (constant S_ .f32 0x00000000#32)) : Gnn.Arr2 100000 64)
      = Gnn.node (Gnn.agg (by decide) (fun p => w (ix1 p)) (Gnn.lin H W1 (Gnn.row1 b1)) (Gnn.mm H W2)
          (fun p => Gnn.wrapW (ei (ix2 (0 : Fin 2) p))) (fun p => ei (ix2 (1 : Fin 2) p))) (Gnn.lin H W3 (Gnn.row1 b3)) := by
  rw [SparseStages.agg_ref _ _ ei w, Cert.ReferenceIdeal.Dense.relu_n, Cert.ReferenceIdeal.Dense.bias64, Cert.ReferenceIdeal.Dense.bias64, Cert.ReferenceIdeal.Dense.dot_h, Cert.ReferenceIdeal.Dense.dot_h, Cert.ReferenceIdeal.Dense.dot_h]
  exact Gnn.node_assoc _ _ _

/-- The embedding stage of the reference is the affine map of `Gnn`. -/
theorem embed_eq (x0 : (⟨S100000x4, .f32⟩ : BufTy).Contents (Elt Ideal)) (x4 : (⟨S4x64, .f32⟩ : BufTy).Contents (Elt Ideal)) (x5 : (⟨S64, .f32⟩ : BufTy).Contents (Elt Ideal)) :
    val_main_v7 (F := Ideal) x0 x4 x5 = Gnn.lin x0 x4 (Gnn.row1 x5) := by
  unfold val_main_v7 val_main_v6 val_main_v5 val_main_v4
  rw [Cert.ReferenceIdeal.Dense.dot_x, Cert.ReferenceIdeal.Dense.bias64]
  rfl

/-- Layer 0 of the reference is layer 0 of `Gnn` on the node table it starts from. -/
theorem layer0_eq (x0 : (⟨S100000x4, .f32⟩ : BufTy).Contents (Elt Ideal)) (x1 : (⟨S2x1600000, .i32⟩ : BufTy).Contents (Elt Ideal)) (x2 : (⟨S1600000, .f32⟩ : BufTy).Contents (Elt Ideal)) (x4 : (⟨S4x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S3x64x64, .f32⟩ : BufTy).Contents (Elt Ideal)) (x9 : (⟨S3x64x64, .f32⟩ : BufTy).Contents (Elt Ideal)) (x10 : (⟨S3x64, .f32⟩ : BufTy).Contents (Elt Ideal)) :
    val_main_v49 (F := Ideal) x0 x1 x2 x4 x5 x6 x7 x8 x9 x10
      = Gnn.layer (by decide) (fun p => (x2 : S1600000.Idx → EReal) (ix1 p)) (fun p => Gnn.wrapW ((x1 : S2x1600000.Idx → BitVec 32) (ix2 (0 : Fin 2) p)))
          (fun p => (x1 : S2x1600000.Idx → BitVec 32) (ix2 (1 : Fin 2) p)) x6 x7 x8 x9 x10 0 (val_main_v7 (F := Ideal) x0 x4 x5) := by
  unfold val_main_v49 val_main_call0_v0 val_main_call0_cst val_main_v48 val_main_v47 val_main_v46 val_main_v45 val_main_v44 val_main_v43 val_main_v42 val_main_v41 val_main_v40 val_main_v39 val_main_v36 val_main_v34 val_main_v33 val_main_v32 val_main_v31 val_main_v30 val_main_v29 val_main_c_2 val_main_v28 val_main_v27 val_main_c_1 val_main_v18 val_main_v17 val_main_v16 val_main_v26 val_main_v25 val_main_v24 val_main_v23 val_main_v22 val_main_c_0 val_main_v21 val_main_v20 val_main_c val_main_v1 val_main_v0 val_main_v15 val_main_v14 val_main_v13 val_main_v12 val_main_v11 val_main_v10 val_main_v9 val_main_v8 val_main_v35 val_main_v19 val_main_v38 val_main_v3 val_main_v2 val_main_v37 val_main_cst
  refine (layer_ref (val_main_v7 (F := Ideal) x0 x4 x5) _ _ _ _ _ x1 x2).trans ?_
  unfold Gnn.layer
  rw [Cert.ReferenceIdeal.Dense.slab0 x6, Cert.ReferenceIdeal.Dense.slab0 x8, Cert.ReferenceIdeal.Dense.slab0 x9, Cert.ReferenceIdeal.Dense.brow0 x7, Cert.ReferenceIdeal.Dense.brow0 x10]

/-- Layer 1 of the reference is layer 1 of `Gnn` on the node table it starts from. -/
theorem layer1_eq (x0 : (⟨S100000x4, .f32⟩ : BufTy).Contents (Elt Ideal)) (x1 : (⟨S2x1600000, .i32⟩ : BufTy).Contents (Elt Ideal)) (x2 : (⟨S1600000, .f32⟩ : BufTy).Contents (Elt Ideal)) (x4 : (⟨S4x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S3x64x64, .f32⟩ : BufTy).Contents (Elt Ideal)) (x9 : (⟨S3x64x64, .f32⟩ : BufTy).Contents (Elt Ideal)) (x10 : (⟨S3x64, .f32⟩ : BufTy).Contents (Elt Ideal)) :
    val_main_v91 (F := Ideal) x0 x1 x2 x4 x5 x6 x7 x8 x9 x10
      = Gnn.layer (by decide) (fun p => (x2 : S1600000.Idx → EReal) (ix1 p)) (fun p => Gnn.wrapW ((x1 : S2x1600000.Idx → BitVec 32) (ix2 (0 : Fin 2) p)))
          (fun p => (x1 : S2x1600000.Idx → BitVec 32) (ix2 (1 : Fin 2) p)) x6 x7 x8 x9 x10 1 (val_main_v49 (F := Ideal) x0 x1 x2 x4 x5 x6 x7 x8 x9 x10) := by
  unfold val_main_v91 val_main_call1_v0 val_main_call1_cst val_main_v90 val_main_v89 val_main_v88 val_main_v87 val_main_v86 val_main_v85 val_main_v84 val_main_v83 val_main_v82 val_main_v81 val_main_v78 val_main_v76 val_main_v75 val_main_v74 val_main_v73 val_main_v72 val_main_v71 val_main_c_6 val_main_v70 val_main_v69 val_main_c_5 val_main_v60 val_main_v59 val_main_v58 val_main_v68 val_main_v67 val_main_v66 val_main_v65 val_main_v64 val_main_c_4 val_main_v63 val_main_v62 val_main_c_3 val_main_v1 val_main_v0 val_main_v57 val_main_v56 val_main_v55 val_main_v54 val_main_v53 val_main_v52 val_main_v51 val_main_v50 val_main_v77 val_main_v61 val_main_v80 val_main_v3 val_main_v2 val_main_v79 val_main_cst_7
  refine (layer_ref (val_main_v49 (F := Ideal) x0 x1 x2 x4 x5 x6 x7 x8 x9 x10) _ _ _ _ _ x1 x2).trans ?_
  unfold Gnn.layer
  rw [Cert.ReferenceIdeal.Dense.slab1 x6, Cert.ReferenceIdeal.Dense.slab1 x8, Cert.ReferenceIdeal.Dense.slab1 x9, Cert.ReferenceIdeal.Dense.brow1 x7, Cert.ReferenceIdeal.Dense.brow1 x10]

/-- Layer 2 of the reference is layer 2 of `Gnn` on the node table it starts from. -/
theorem layer2_eq (x0 : (⟨S100000x4, .f32⟩ : BufTy).Contents (Elt Ideal)) (x1 : (⟨S2x1600000, .i32⟩ : BufTy).Contents (Elt Ideal)) (x2 : (⟨S1600000, .f32⟩ : BufTy).Contents (Elt Ideal)) (x4 : (⟨S4x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S3x64x64, .f32⟩ : BufTy).Contents (Elt Ideal)) (x9 : (⟨S3x64x64, .f32⟩ : BufTy).Contents (Elt Ideal)) (x10 : (⟨S3x64, .f32⟩ : BufTy).Contents (Elt Ideal)) :
    val_main_v133 (F := Ideal) x0 x1 x2 x4 x5 x6 x7 x8 x9 x10
      = Gnn.layer (by decide) (fun p => (x2 : S1600000.Idx → EReal) (ix1 p)) (fun p => Gnn.wrapW ((x1 : S2x1600000.Idx → BitVec 32) (ix2 (0 : Fin 2) p)))
          (fun p => (x1 : S2x1600000.Idx → BitVec 32) (ix2 (1 : Fin 2) p)) x6 x7 x8 x9 x10 2 (val_main_v91 (F := Ideal) x0 x1 x2 x4 x5 x6 x7 x8 x9 x10) := by
  unfold val_main_v133 val_main_call2_v0 val_main_call2_cst val_main_v132 val_main_v131 val_main_v130 val_main_v129 val_main_v128 val_main_v127 val_main_v126 val_main_v125 val_main_v124 val_main_v123 val_main_v120 val_main_v118 val_main_v117 val_main_v116 val_main_v115 val_main_v114 val_main_v113 val_main_c_11 val_main_v112 val_main_v111 val_main_c_10 val_main_v102 val_main_v101 val_main_v100 val_main_v110 val_main_v109 val_main_v108 val_main_v107 val_main_v106 val_main_c_9 val_main_v105 val_main_v104 val_main_c_8 val_main_v1 val_main_v0 val_main_v99 val_main_v98 val_main_v97 val_main_v96 val_main_v95 val_main_v94 val_main_v93 val_main_v92 val_main_v119 val_main_v103 val_main_v122 val_main_v3 val_main_v2 val_main_v121 val_main_cst_12
  refine (layer_ref (val_main_v91 (F := Ideal) x0 x1 x2 x4 x5 x6 x7 x8 x9 x10) _ _ _ _ _ x1 x2).trans ?_
  unfold Gnn.layer
  rw [Cert.ReferenceIdeal.Dense.slab2 x6, Cert.ReferenceIdeal.Dense.slab2 x8, Cert.ReferenceIdeal.Dense.slab2 x9, Cert.ReferenceIdeal.Dense.brow2 x7, Cert.ReferenceIdeal.Dense.brow2 x10]

/-- A one-column matrix read at its row and column zero is read at the index itself. -/
theorem column_eta {n : ℕ} (f : Gnn.Arr2 n 1) (i : (⟨2, ![n, 1]⟩ : Shape).Idx) : f (ix2 (i 0) (0 : Fin 1)) = f i := by
  refine congrArg f ?_
  funext a
  match a with
  | ⟨0, _⟩ => rfl
  | ⟨1, _⟩ => exact Fin.ext (by have := idx2_lt1 i; show 0 = (i 1).val; omega)

/-- The readout and head of the reference are the head of `Gnn` on the segment sums and counts of the last node table. -/
theorem head_eq (x0 : (⟨S100000x4, .f32⟩ : BufTy).Contents (Elt Ideal)) (x1 : (⟨S2x1600000, .i32⟩ : BufTy).Contents (Elt Ideal)) (x2 : (⟨S1600000, .f32⟩ : BufTy).Contents (Elt Ideal)) (x3 : (⟨S100000, .i32⟩ : BufTy).Contents (Elt Ideal)) (x4 : (⟨S4x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal)) (x8 : (⟨S3x64x64, .f32⟩ : BufTy).Contents (Elt Ideal)) (x9 : (⟨S3x64x64, .f32⟩ : BufTy).Contents (Elt Ideal)) (x10 : (⟨S3x64, .f32⟩ : BufTy).Contents (Elt Ideal)) (x11 : (⟨S64x32, .f32⟩ : BufTy).Contents (Elt Ideal)) (x12 : (⟨S32, .f32⟩ : BufTy).Contents (Elt Ideal)) (x13 : (⟨S32x3, .f32⟩ : BufTy).Contents (Elt Ideal)) (x14 : (⟨S3, .f32⟩ : BufTy).Contents (Elt Ideal)) :
    val_main_v154 (F := Ideal) x0 x1 x2 x3 x4 x5 x6 x7 x8 x9 x10 x11 x12 x13 x14
      = Gnn.head (Gnn.segSum (val_main_v133 (F := Ideal) x0 x1 x2 x4 x5 x6 x7 x8 x9 x10) (fun p => (x3 : S100000.Idx → BitVec 32) (ix1 p)))
          (Gnn.segCount (fun p => (x3 : S100000.Idx → BitVec 32) (ix1 p))) x11 (Gnn.row1 x12) x13 (Gnn.row1 x14) := by
  unfold val_main_v154 val_main_v153 val_main_v152 val_main_v151 val_main_v150 val_main_call3_v0 val_main_call3_cst val_main_v149 val_main_v148 val_main_v147 val_main_v146 val_main_v145 val_main_v144 val_main_v143 val_main_v142 val_main_v141 val_main_cst_16 val_main_v140 val_main_v137 val_main_cst_14 val_main_v139 val_main_v138 val_main_cst_15 val_main_v136 val_main_v135 val_main_v134 val_main_cst_13
  rw [SparseStages.pool_sum, SparseStages.pool_count, Cert.ReferenceIdeal.Dense.mean, Cert.ReferenceIdeal.Dense.dot_g1, Cert.ReferenceIdeal.Dense.bias32, Cert.ReferenceIdeal.Dense.relu_g, Cert.ReferenceIdeal.Dense.dot_g2, Cert.ReferenceIdeal.Dense.bias3]
  unfold Gnn.head Gnn.lin
  refine congrArg (fun Z => Gnn.addRow (Gnn.mm (Gnn.relu (Gnn.addRow (Gnn.mm (Gnn.poolMean _ Z) x11) (Gnn.row1 x12))) x13) (Gnn.row1 x14)) ?_
  funext i
  exact column_eta (Gnn.segCount (fun p => (x3 : S100000.Idx → BitVec 32) (ix1 p))) i

/-- The reference program's whole result is the network of `Gnn` on its arguments, whatever they are. -/
theorem value (m : (ℓ : Loc nD τ sig) → Buf (Elt Ideal) ℓ) (c : Dev nD) :
    Cert.ReferenceIdeal.Value.res_main_v154 (F := Ideal) m c = Cert.ReferenceIdeal.Args.netOf m c := by
  refine (Read.val_main_v154_eq m c).trans ?_
  rw [head_eq, layer2_eq, layer1_eq, layer0_eq, embed_eq]
  rfl

end Cert.ReferenceIdeal.Stages

end
-- ==== Proof.lean ====
/-
  A graph network with three message-passing layers, mean pooling over 512 graphs and a two-layer head, computed by a
  kernel program of five tiled regions and by a plain reference, over the extended reals.

  Both programs compute ONE function of the arguments, `Gnn.net`: the embedding `h₀ = x · W_emb + b_emb`; per layer the
  affine maps `a = h · W₁ + b₁`, `b = h · W₂`, the messages `e · (a[src] − b[dst])` summed into their target nodes, and
  `h' = max(agg + h · W₃ + b₃, 0)`; then the per-graph sums divided by the per-graph counts (at least one) and the head.
  The kernel tiles the node axis in fifty blocks of 2000 rows and forms each matrix product per block, which gives the
  same sums as the whole product; it adds the root term's bias before joining the messages where the reference adds
  it after (addition of extended reals is associative); it pools by multiplying with a one-hot label matrix where the
  reference scatters rows by label (both drop a row whose label names no graph); and it reads the node tables with a
  gather that marks an out-of-range index where the reference's gather clamps it (both first move a negative word up by
  the number of nodes): the two agree on every edge whose message is kept as soon as every SOURCE word names a node,
  that is, lies in `[-100000, 100000)`, which is the domain the claim is stated on (an edge whose TARGET word names no
  node is dropped by both programs, whatever its message). No law that fails at infinite
  values is used, so finiteness of the float inputs is not.

  The three frames: the two kernel programs' are the generated ones; the reference's is its generated run with the
  result dropped. `preserves` is trivial (the idealization recorded no rewrite).
-/
import proofs.«419727_j75720273429180_1_alg».proof.Defs
import proofs.«419727_j75720273429180_1_alg».proof.Proof.Gen.Kernel
import proofs.«419727_j75720273429180_1_alg».proof.Proof.Gen.Kernel.Skeleton
import proofs.«419727_j75720273429180_1_alg».proof.Proof.Gen.Kernel.Launch
import proofs.«419727_j75720273429180_1_alg».proof.Proof.Gen.Kernel.Points
import proofs.«419727_j75720273429180_1_alg».proof.Proof.Gen.Kernel.Frame
import proofs.«419727_j75720273429180_1_alg».proof.Proof.Gen.KernelIdeal
import proofs.«419727_j75720273429180_1_alg».proof.Proof.Gen.KernelIdeal.Skeleton
import proofs.«419727_j75720273429180_1_alg».proof.Proof.Gen.KernelIdeal.Launch
import proofs.«419727_j75720273429180_1_alg».proof.Proof.Gen.KernelIdeal.Points
import proofs.«419727_j75720273429180_1_alg».proof.Proof.Gen.KernelIdeal.Frame
import proofs.«419727_j75720273429180_1_alg».proof.Proof.Gen.ReferenceIdeal
import proofs.«419727_j75720273429180_1_alg».proof.Proof.Gen.ReferenceIdeal.Run
import proofs.«419727_j75720273429180_1_alg».proof.Proof.Gen.Pre_finite_inputs
import proofs.«419727_j75720273429180_1_alg».proof.Proof.Domain
import proofs.«419727_j75720273429180_1_alg».proof.Proof.KernelRun
import proofs.«419727_j75720273429180_1_alg».proof.Proof.KernelValue
import proofs.«419727_j75720273429180_1_alg».proof.Proof.RefStages
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, with every source word naming a node, both programs end at the network's
    value on the arguments. -/
theorem algebraic : Cert.algebraic_KernelIdeal_ReferenceIdeal := by
  intro m ρ m' ρ' hpre hagree
  have hsrc : ∀ c, Cert.KernelIdeal.Args.SrcInRange m c := fun c p =>
    Cert.Domain.src_of_pre _ _ _ _ _ _ _ _ _ _ _ _ _ _ _ (hpre c) p
  refine ⟨fun c => Cert.KernelIdeal.Args.netOf m c, ?_, ?_⟩
  · exact (θ_run _ _ _).mono (fun r h c => ⟨(h c).1.trans (Cert.KernelIdeal.Value.value m ρ c (hsrc c)), (h c).2⟩)
      (Cert.KernelIdeal.ValueRun.run (F := Ideal) m ρ)
  · refine (θ_run _ _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    have es : Cert.ReferenceIdeal.Args.srcW m' c = Cert.KernelIdeal.Args.srcW m c := funext fun p => by
      dsimp only [Cert.ReferenceIdeal.Args.srcW, Cert.KernelIdeal.Args.srcW, Cert.KernelIdeal.Args.rawSrcW]; rw [e1]
    have ed : Cert.ReferenceIdeal.Args.dstW m' c = Cert.KernelIdeal.Args.dstW m c := funext fun p => by
      dsimp only [Cert.ReferenceIdeal.Args.dstW, Cert.KernelIdeal.Args.dstW]; rw [e1]
    have ea : Cert.ReferenceIdeal.Args.attrW m' c = Cert.KernelIdeal.Args.attrW m c := funext fun p => by
      dsimp only [Cert.ReferenceIdeal.Args.attrW, Cert.KernelIdeal.Args.attrW]; rw [e2]
    have el : Cert.ReferenceIdeal.Args.labW m' c = Cert.KernelIdeal.Args.labW m c := funext fun p => by
      dsimp only [Cert.ReferenceIdeal.Args.labW, Cert.KernelIdeal.Args.labW]; rw [e3]
    refine (Cert.ReferenceIdeal.Stages.value m' c).trans ?_
    dsimp only [Cert.ReferenceIdeal.Args.netOf, Cert.KernelIdeal.Args.netOf]
    rw [es, ed, ea, el, e0, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
